-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v337) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x72x240x320 : Shape := ⟨4, ![4, 72, 240, 320]⟩
abbrev S_ : Shape := ⟨0, ![]⟩

class Facts : Prop where
  bcast_S_S4x72x240x320 : S_.BroadcastsInDim S4x72x240x320 (![] : Fin 0 → Fin S4x72x240x320.rank)
  reducesTo_S4x72x240x320_S_d0_1_2_3 : S4x72x240x320.ReducesTo [0, 1, 2, 3] S_
  h_S_ : 0 < S_.numel

variable [Facts]

def fn {F : FTy → Type} [FloatOps F] (main_arg0 : FVec F S4x72x240x320 .f32) (main_arg1 : FVec F S4x72x240x320 .f32) : IVec S_ 1 :=
  let main_v0 : FVec F S4x72x240x320 .f32 := Host.absf main_arg0
  let main_cst : FVec F S_ .f32 := constant S_ .f32 0x7F800000#32
  let main_v1 : FVec F S4x72x240x320 .f32 := broadcastInDim S4x72x240x320 ![] bcast_S_S4x72x240x320 main_cst
  let main_v2 : IVec S4x72x240x320 1 := cmpf .olt main_v0 main_v1
  let main_c : IVec S_ 1 := constantI S_ 1 1#1
  let main_v3 : IVec S_ 1 := (fun x v => Host.reduce IntOp.andi x v reducesTo_S4x72x240x320_S_d0_1_2_3 h_S_) main_v2 main_c
  let main_v4 : FVec F S4x72x240x320 .f32 := Host.absf main_arg1
  let main_cst_0 : FVec F S_ .f32 := constant S_ .f32 0x7F800000#32
  let main_v5 : FVec F S4x72x240x320 .f32 := broadcastInDim S4x72x240x320 ![] bcast_S_S4x72x240x320 main_cst_0
  let main_v6 : IVec S4x72x240x320 1 := cmpf .olt main_v4 main_v5
  let main_c_1 : IVec S_ 1 := constantI S_ 1 1#1
  let main_v7 : IVec S_ 1 := (fun x v => Host.reduce IntOp.andi x v reducesTo_S4x72x240x320_S_d0_1_2_3 h_S_) main_v6 main_c_1
  let main_v8 : IVec S_ 1 := andi main_v3 main_v7
  main_v8
-- ==== Kernel.lean ====
abbrev S4x72x240x320 : Shape := ⟨4, ![4, 72, 240, 320]⟩
abbrev S4x72x240x48 : Shape := ⟨4, ![4, 72, 240, 48]⟩
abbrev S1x8x240x320 : Shape := ⟨4, ![1, 8, 240, 320]⟩
abbrev S1x8x240x48 : Shape := ⟨4, ![1, 8, 240, 48]⟩
abbrev S8x240x320 : Shape := ⟨3, ![8, 240, 320]⟩
abbrev S8x240 : Shape := ⟨2, ![8, 240]⟩
abbrev S8x1x320 : Shape := ⟨3, ![8, 1, 320]⟩
abbrev S8x239x320 : Shape := ⟨3, ![8, 239, 320]⟩
abbrev S8x2x320 : Shape := ⟨3, ![8, 2, 320]⟩
abbrev S8x238x320 : Shape := ⟨3, ![8, 238, 320]⟩
abbrev S8x3x320 : Shape := ⟨3, ![8, 3, 320]⟩
abbrev S8x237x320 : Shape := ⟨3, ![8, 237, 320]⟩
abbrev S8x4x320 : Shape := ⟨3, ![8, 4, 320]⟩
abbrev S8x236x320 : Shape := ⟨3, ![8, 236, 320]⟩
abbrev S8x5x320 : Shape := ⟨3, ![8, 5, 320]⟩
abbrev S8x235x320 : Shape := ⟨3, ![8, 235, 320]⟩
abbrev S8x6x320 : Shape := ⟨3, ![8, 6, 320]⟩
abbrev S8x234x320 : Shape := ⟨3, ![8, 234, 320]⟩
abbrev S8x7x320 : Shape := ⟨3, ![8, 7, 320]⟩
abbrev S8x233x320 : Shape := ⟨3, ![8, 233, 320]⟩
abbrev S8x8x320 : Shape := ⟨3, ![8, 8, 320]⟩
abbrev S8x232x320 : Shape := ⟨3, ![8, 232, 320]⟩
abbrev S8x9x320 : Shape := ⟨3, ![8, 9, 320]⟩
abbrev S8x231x320 : Shape := ⟨3, ![8, 231, 320]⟩
abbrev S8x10x320 : Shape := ⟨3, ![8, 10, 320]⟩
abbrev S8x230x320 : Shape := ⟨3, ![8, 230, 320]⟩
abbrev S8x11x320 : Shape := ⟨3, ![8, 11, 320]⟩
abbrev S8x229x320 : Shape := ⟨3, ![8, 229, 320]⟩
abbrev S8x12x320 : Shape := ⟨3, ![8, 12, 320]⟩
abbrev S8x228x320 : Shape := ⟨3, ![8, 228, 320]⟩
abbrev S8x13x320 : Shape := ⟨3, ![8, 13, 320]⟩
abbrev S8x227x320 : Shape := ⟨3, ![8, 227, 320]⟩
abbrev S8x14x320 : Shape := ⟨3, ![8, 14, 320]⟩
abbrev S8x226x320 : Shape := ⟨3, ![8, 226, 320]⟩
abbrev S8x15x320 : Shape := ⟨3, ![8, 15, 320]⟩
abbrev S8x225x320 : Shape := ⟨3, ![8, 225, 320]⟩
abbrev S8x16x320 : Shape := ⟨3, ![8, 16, 320]⟩
abbrev S8x224x320 : Shape := ⟨3, ![8, 224, 320]⟩
abbrev S8x17x320 : Shape := ⟨3, ![8, 17, 320]⟩
abbrev S8x223x320 : Shape := ⟨3, ![8, 223, 320]⟩
abbrev S8x18x320 : Shape := ⟨3, ![8, 18, 320]⟩
abbrev S8x222x320 : Shape := ⟨3, ![8, 222, 320]⟩
abbrev S8x19x320 : Shape := ⟨3, ![8, 19, 320]⟩
abbrev S8x221x320 : Shape := ⟨3, ![8, 221, 320]⟩
abbrev S8x20x320 : Shape := ⟨3, ![8, 20, 320]⟩
abbrev S8x220x320 : Shape := ⟨3, ![8, 220, 320]⟩
abbrev S8x21x320 : Shape := ⟨3, ![8, 21, 320]⟩
abbrev S8x219x320 : Shape := ⟨3, ![8, 219, 320]⟩
abbrev S8x22x320 : Shape := ⟨3, ![8, 22, 320]⟩
abbrev S8x218x320 : Shape := ⟨3, ![8, 218, 320]⟩
abbrev S8x23x320 : Shape := ⟨3, ![8, 23, 320]⟩
abbrev S8x217x320 : Shape := ⟨3, ![8, 217, 320]⟩
abbrev S8x24x320 : Shape := ⟨3, ![8, 24, 320]⟩
abbrev S8x216x320 : Shape := ⟨3, ![8, 216, 320]⟩
abbrev S8x25x320 : Shape := ⟨3, ![8, 25, 320]⟩
abbrev S8x215x320 : Shape := ⟨3, ![8, 215, 320]⟩
abbrev S8x26x320 : Shape := ⟨3, ![8, 26, 320]⟩
abbrev S8x214x320 : Shape := ⟨3, ![8, 214, 320]⟩
abbrev S8x27x320 : Shape := ⟨3, ![8, 27, 320]⟩
abbrev S8x213x320 : Shape := ⟨3, ![8, 213, 320]⟩
abbrev S8x28x320 : Shape := ⟨3, ![8, 28, 320]⟩
abbrev S8x212x320 : Shape := ⟨3, ![8, 212, 320]⟩
abbrev S8x29x320 : Shape := ⟨3, ![8, 29, 320]⟩
abbrev S8x211x320 : Shape := ⟨3, ![8, 211, 320]⟩
abbrev S8x30x320 : Shape := ⟨3, ![8, 30, 320]⟩
abbrev S8x210x320 : Shape := ⟨3, ![8, 210, 320]⟩
abbrev S8x31x320 : Shape := ⟨3, ![8, 31, 320]⟩
abbrev S8x209x320 : Shape := ⟨3, ![8, 209, 320]⟩
abbrev S8x32x320 : Shape := ⟨3, ![8, 32, 320]⟩
abbrev S8x208x320 : Shape := ⟨3, ![8, 208, 320]⟩
abbrev S8x33x320 : Shape := ⟨3, ![8, 33, 320]⟩
abbrev S8x207x320 : Shape := ⟨3, ![8, 207, 320]⟩
abbrev S8x34x320 : Shape := ⟨3, ![8, 34, 320]⟩
abbrev S8x206x320 : Shape := ⟨3, ![8, 206, 320]⟩
abbrev S8x35x320 : Shape := ⟨3, ![8, 35, 320]⟩
abbrev S8x205x320 : Shape := ⟨3, ![8, 205, 320]⟩
abbrev S8x36x320 : Shape := ⟨3, ![8, 36, 320]⟩
abbrev S8x204x320 : Shape := ⟨3, ![8, 204, 320]⟩
abbrev S8x37x320 : Shape := ⟨3, ![8, 37, 320]⟩
abbrev S8x203x320 : Shape := ⟨3, ![8, 203, 320]⟩
abbrev S8x38x320 : Shape := ⟨3, ![8, 38, 320]⟩
abbrev S8x202x320 : Shape := ⟨3, ![8, 202, 320]⟩
abbrev S8x39x320 : Shape := ⟨3, ![8, 39, 320]⟩
abbrev S8x201x320 : Shape := ⟨3, ![8, 201, 320]⟩
abbrev S8x40x320 : Shape := ⟨3, ![8, 40, 320]⟩
abbrev S8x200x320 : Shape := ⟨3, ![8, 200, 320]⟩
abbrev S8x41x320 : Shape := ⟨3, ![8, 41, 320]⟩
abbrev S8x199x320 : Shape := ⟨3, ![8, 199, 320]⟩
abbrev S8x42x320 : Shape := ⟨3, ![8, 42, 320]⟩
abbrev S8x198x320 : Shape := ⟨3, ![8, 198, 320]⟩
abbrev S8x43x320 : Shape := ⟨3, ![8, 43, 320]⟩
abbrev S8x197x320 : Shape := ⟨3, ![8, 197, 320]⟩
abbrev S8x44x320 : Shape := ⟨3, ![8, 44, 320]⟩
abbrev S8x196x320 : Shape := ⟨3, ![8, 196, 320]⟩
abbrev S8x45x320 : Shape := ⟨3, ![8, 45, 320]⟩
abbrev S8x195x320 : Shape := ⟨3, ![8, 195, 320]⟩
abbrev S8x46x320 : Shape := ⟨3, ![8, 46, 320]⟩
abbrev S8x194x320 : Shape := ⟨3, ![8, 194, 320]⟩
abbrev S8x47x320 : Shape := ⟨3, ![8, 47, 320]⟩
abbrev S8x193x320 : Shape := ⟨3, ![8, 193, 320]⟩
abbrev S8x240x1 : Shape := ⟨3, ![8, 240, 1]⟩
abbrev S8x240x48 : Shape := ⟨3, ![8, 240, 48]⟩

abbrev nBuf : Space → Nat
  | .hbm => 3
  | .vmem => 6
  | .smem => 0
  | _ => 0

abbrev bufTy : (tb : Table) → Fin (tcTables nBuf tb) → BufTy
  | .hbm, ⟨0, _⟩ => ⟨S4x72x240x320, .f32⟩
  | .hbm, ⟨1, _⟩ => ⟨S4x72x240x320, .f32⟩
  | .hbm, ⟨2, _⟩ => ⟨S4x72x240x48, .f32⟩
  | .local _ .vmem, ⟨0, _⟩ => ⟨S1x8x240x320, .f32⟩
  | .local _ .vmem, ⟨1, _⟩ => ⟨S1x8x240x320, .f32⟩
  | .local _ .vmem, ⟨2, _⟩ => ⟨S1x8x240x320, .f32⟩
  | .local _ .vmem, ⟨3, _⟩ => ⟨S1x8x240x320, .f32⟩
  | .local _ .vmem, ⟨4, _⟩ => ⟨S1x8x240x48, .f32⟩
  | .local _ .vmem, ⟨5, _⟩ => ⟨S1x8x240x48, .f32⟩
  | _, _ => ⟨S4x72x240x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 9], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x240x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x240x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x240x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x8x240x320_S1x8x240x320_0_0_0_0 : ∀ a, (![0, 0, 0, 0] : Fin 4 → Nat) a + S1x8x240x320.size a ≤ S1x8x240x320.size a
  h_S1x8x240x320 : 0 < S1x8x240x320.numel
  shapeCasts_S1x8x240x320_S8x240x320 : S1x8x240x320.ShapeCasts S8x240x320
  reduces_S8x240x320_S8x240 : S8x240x320.Reduces [2] S8x240
  slices_S8x240x320_o0_0_0_S8x239x320 : S8x240x320.Slices ![0, 0, 0] S8x239x320
  concatenates_S8x1x320_S8x239x320_S8x240x320_d1 : Shape.Concatenates [S8x1x320, S8x239x320] S8x240x320 1
  slices_S8x240x320_o0_0_0_S8x238x320 : S8x240x320.Slices ![0, 0, 0] S8x238x320
  concatenates_S8x2x320_S8x238x320_S8x240x320_d1 : Shape.Concatenates [S8x2x320, S8x238x320] S8x240x320 1
  slices_S8x240x320_o0_0_0_S8x237x320 : S8x240x320.Slices ![0, 0, 0] S8x237x320
  concatenates_S8x3x320_S8x237x320_S8x240x320_d1 : Shape.Concatenates [S8x3x320, S8x237x320] S8x240x320 1
  slices_S8x240x320_o0_0_0_S8x236x320 : S8x240x320.Slices ![0, 0, 0] S8x236x320
  concatenates_S8x4x320_S8x236x320_S8x240x320_d1 : Shape.Concatenates [S8x4x320, S8x236x320] S8x240x320 1
  slices_S8x240x320_o0_0_0_S8x235x320 : S8x240x320.Slices ![0, 0, 0] S8x235x320
  concatenates_S8x5x320_S8x235x320_S8x240x320_d1 : Shape.Concatenates [S8x5x320, S8x235x320] S8x240x320 1
  slices_S8x240x320_o0_0_0_S8x234x320 : S8x240x320.Slices ![0, 0, 0] S8x234x320
  concatenates_S8x6x320_S8x234x320_S8x240x320_d1 : Shape.Concatenates [S8x6x320, S8x234x320] S8x240x320 1
  slices_S8x240x320_o0_0_0_S8x233x320 : S8x240x320.Slices ![0, 0, 0] S8x233x320
  concatenates_S8x7x320_S8x233x320_S8x240x320_d1 : Shape.Concatenates [S8x7x320, S8x233x320] S8x240x320 1
  slices_S8x240x320_o0_0_0_S8x232x320 : S8x240x320.Slices ![0, 0, 0] S8x232x320
  concatenates_S8x8x320_S8x232x320_S8x240x320_d1 : Shape.Concatenates [S8x8x320, S8x232x320] S8x240x320 1
  slices_S8x240x320_o0_0_0_S8x231x320 : S8x240x320.Slices ![0, 0, 0] S8x231x320
  concatenates_S8x9x320_S8x231x320_S8x240x320_d1 : Shape.Concatenates [S8x9x320, S8x231x320] S8x240x320 1
  slices_S8x240x320_o0_0_0_S8x230x320 : S8x240x320.Slices ![0, 0, 0] S8x230x320
  concatenates_S8x10x320_S8x230x320_S8x240x320_d1 : Shape.Concatenates [S8x10x320, S8x230x320] S8x240x320 1
  slices_S8x240x320_o0_0_0_S8x229x320 : S8x240x320.Slices ![0, 0, 0] S8x229x320
  concatenates_S8x11x320_S8x229x320_S8x240x320_d1 : Shape.Concatenates [S8x11x320, S8x229x320] S8x240x320 1
  slices_S8x240x320_o0_0_0_S8x228x320 : S8x240x320.Slices ![0, 0, 0] S8x228x320
  concatenates_S8x12x320_S8x228x320_S8x240x320_d1 : Shape.Concatenates [S8x12x320, S8x228x320] S8x240x320 1
  slices_S8x240x320_o0_0_0_S8x227x320 : S8x240x320.Slices ![0, 0, 0] S8x227x320
  concatenates_S8x13x320_S8x227x320_S8x240x320_d1 : Shape.Concatenates [S8x13x320, S8x227x320] S8x240x320 1
  slices_S8x240x320_o0_0_0_S8x226x320 : S8x240x320.Slices ![0, 0, 0] S8x226x320
  concatenates_S8x14x320_S8x226x320_S8x240x320_d1 : Shape.Concatenates [S8x14x320, S8x226x320] S8x240x320 1
  slices_S8x240x320_o0_0_0_S8x225x320 : S8x240x320.Slices ![0, 0, 0] S8x225x320
  concatenates_S8x15x320_S8x225x320_S8x240x320_d1 : Shape.Concatenates [S8x15x320, S8x225x320] S8x240x320 1
  slices_S8x240x320_o0_0_0_S8x224x320 : S8x240x320.Slices ![0, 0, 0] S8x224x320
  concatenates_S8x16x320_S8x224x320_S8x240x320_d1 : Shape.Concatenates [S8x16x320, S8x224x320] S8x240x320 1
  slices_S8x240x320_o0_0_0_S8x223x320 : S8x240x320.Slices ![0, 0, 0] S8x223x320
  concatenates_S8x17x320_S8x223x320_S8x240x320_d1 : Shape.Concatenates [S8x17x320, S8x223x320] S8x240x320 1
  slices_S8x240x320_o0_0_0_S8x222x320 : S8x240x320.Slices ![0, 0, 0] S8x222x320
  concatenates_S8x18x320_S8x222x320_S8x240x320_d1 : Shape.Concatenates [S8x18x320, S8x222x320] S8x240x320 1
  slices_S8x240x320_o0_0_0_S8x221x320 : S8x240x320.Slices ![0, 0, 0] S8x221x320
  concatenates_S8x19x320_S8x221x320_S8x240x320_d1 : Shape.Concatenates [S8x19x320, S8x221x320] S8x240x320 1
  slices_S8x240x320_o0_0_0_S8x220x320 : S8x240x320.Slices ![0, 0, 0] S8x220x320
  concatenates_S8x20x320_S8x220x320_S8x240x320_d1 : Shape.Concatenates [S8x20x320, S8x220x320] S8x240x320 1
  slices_S8x240x320_o0_0_0_S8x219x320 : S8x240x320.Slices ![0, 0, 0] S8x219x320
  concatenates_S8x21x320_S8x219x320_S8x240x320_d1 : Shape.Concatenates [S8x21x320, S8x219x320] S8x240x320 1
  slices_S8x240x320_o0_0_0_S8x218x320 : S8x240x320.Slices ![0, 0, 0] S8x218x320
  concatenates_S8x22x320_S8x218x320_S8x240x320_d1 : Shape.Concatenates [S8x22x320, S8x218x320] S8x240x320 1
  slices_S8x240x320_o0_0_0_S8x217x320 : S8x240x320.Slices ![0, 0, 0] S8x217x320
  concatenates_S8x23x320_S8x217x320_S8x240x320_d1 : Shape.Concatenates [S8x23x320, S8x217x320] S8x240x320 1
  slices_S8x240x320_o0_0_0_S8x216x320 : S8x240x320.Slices ![0, 0, 0] S8x216x320
  concatenates_S8x24x320_S8x216x320_S8x240x320_d1 : Shape.Concatenates [S8x24x320, S8x216x320] S8x240x320 1
  slices_S8x240x320_o0_0_0_S8x215x320 : S8x240x320.Slices ![0, 0, 0] S8x215x320
  concatenates_S8x25x320_S8x215x320_S8x240x320_d1 : Shape.Concatenates [S8x25x320, S8x215x320] S8x240x320 1
  slices_S8x240x320_o0_0_0_S8x214x320 : S8x240x320.Slices ![0, 0, 0] S8x214x320
  concatenates_S8x26x320_S8x214x320_S8x240x320_d1 : Shape.Concatenates [S8x26x320, S8x214x320] S8x240x320 1
  slices_S8x240x320_o0_0_0_S8x213x320 : S8x240x320.Slices ![0, 0, 0] S8x213x320
  concatenates_S8x27x320_S8x213x320_S8x240x320_d1 : Shape.Concatenates [S8x27x320, S8x213x320] S8x240x320 1
  slices_S8x240x320_o0_0_0_S8x212x320 : S8x240x320.Slices ![0, 0, 0] S8x212x320
  concatenates_S8x28x320_S8x212x320_S8x240x320_d1 : Shape.Concatenates [S8x28x320, S8x212x320] S8x240x320 1
  slices_S8x240x320_o0_0_0_S8x211x320 : S8x240x320.Slices ![0, 0, 0] S8x211x320
  concatenates_S8x29x320_S8x211x320_S8x240x320_d1 : Shape.Concatenates [S8x29x320, S8x211x320] S8x240x320 1
  slices_S8x240x320_o0_0_0_S8x210x320 : S8x240x320.Slices ![0, 0, 0] S8x210x320
  concatenates_S8x30x320_S8x210x320_S8x240x320_d1 : Shape.Concatenates [S8x30x320, S8x210x320] S8x240x320 1
  slices_S8x240x320_o0_0_0_S8x209x320 : S8x240x320.Slices ![0, 0, 0] S8x209x320
  concatenates_S8x31x320_S8x209x320_S8x240x320_d1 : Shape.Concatenates [S8x31x320, S8x209x320] S8x240x320 1
  slices_S8x240x320_o0_0_0_S8x208x320 : S8x240x320.Slices ![0, 0, 0] S8x208x320
  concatenates_S8x32x320_S8x208x320_S8x240x320_d1 : Shape.Concatenates [S8x32x320, S8x208x320] S8x240x320 1
  slices_S8x240x320_o0_0_0_S8x207x320 : S8x240x320.Slices ![0, 0, 0] S8x207x320
  concatenates_S8x33x320_S8x207x320_S8x240x320_d1 : Shape.Concatenates [S8x33x320, S8x207x320] S8x240x320 1
  slices_S8x240x320_o0_0_0_S8x206x320 : S8x240x320.Slices ![0, 0, 0] S8x206x320
  concatenates_S8x34x320_S8x206x320_S8x240x320_d1 : Shape.Concatenates [S8x34x320, S8x206x320] S8x240x320 1
  slices_S8x240x320_o0_0_0_S8x205x320 : S8x240x320.Slices ![0, 0, 0] S8x205x320
  concatenates_S8x35x320_S8x205x320_S8x240x320_d1 : Shape.Concatenates [S8x35x320, S8x205x320] S8x240x320 1
  slices_S8x240x320_o0_0_0_S8x204x320 : S8x240x320.Slices ![0, 0, 0] S8x204x320
  concatenates_S8x36x320_S8x204x320_S8x240x320_d1 : Shape.Concatenates [S8x36x320, S8x204x320] S8x240x320 1
  slices_S8x240x320_o0_0_0_S8x203x320 : S8x240x320.Slices ![0, 0, 0] S8x203x320
  concatenates_S8x37x320_S8x203x320_S8x240x320_d1 : Shape.Concatenates [S8x37x320, S8x203x320] S8x240x320 1
  slices_S8x240x320_o0_0_0_S8x202x320 : S8x240x320.Slices ![0, 0, 0] S8x202x320
  concatenates_S8x38x320_S8x202x320_S8x240x320_d1 : Shape.Concatenates [S8x38x320, S8x202x320] S8x240x320 1
  slices_S8x240x320_o0_0_0_S8x201x320 : S8x240x320.Slices ![0, 0, 0] S8x201x320
  concatenates_S8x39x320_S8x201x320_S8x240x320_d1 : Shape.Concatenates [S8x39x320, S8x201x320] S8x240x320 1
  slices_S8x240x320_o0_0_0_S8x200x320 : S8x240x320.Slices ![0, 0, 0] S8x200x320
  concatenates_S8x40x320_S8x200x320_S8x240x320_d1 : Shape.Concatenates [S8x40x320, S8x200x320] S8x240x320 1
  slices_S8x240x320_o0_0_0_S8x199x320 : S8x240x320.Slices ![0, 0, 0] S8x199x320
  concatenates_S8x41x320_S8x199x320_S8x240x320_d1 : Shape.Concatenates [S8x41x320, S8x199x320] S8x240x320 1
  slices_S8x240x320_o0_0_0_S8x198x320 : S8x240x320.Slices ![0, 0, 0] S8x198x320
  concatenates_S8x42x320_S8x198x320_S8x240x320_d1 : Shape.Concatenates [S8x42x320, S8x198x320] S8x240x320 1
  slices_S8x240x320_o0_0_0_S8x197x320 : S8x240x320.Slices ![0, 0, 0] S8x197x320
  concatenates_S8x43x320_S8x197x320_S8x240x320_d1 : Shape.Concatenates [S8x43x320, S8x197x320] S8x240x320 1
  slices_S8x240x320_o0_0_0_S8x196x320 : S8x240x320.Slices ![0, 0, 0] S8x196x320
  concatenates_S8x44x320_S8x196x320_S8x240x320_d1 : Shape.Concatenates [S8x44x320, S8x196x320] S8x240x320 1
  slices_S8x240x320_o0_0_0_S8x195x320 : S8x240x320.Slices ![0, 0, 0] S8x195x320
  concatenates_S8x45x320_S8x195x320_S8x240x320_d1 : Shape.Concatenates [S8x45x320, S8x195x320] S8x240x320 1
  slices_S8x240x320_o0_0_0_S8x194x320 : S8x240x320.Slices ![0, 0, 0] S8x194x320
  concatenates_S8x46x320_S8x194x320_S8x240x320_d1 : Shape.Concatenates [S8x46x320, S8x194x320] S8x240x320 1
  slices_S8x240x320_o0_0_0_S8x193x320 : S8x240x320.Slices ![0, 0, 0] S8x193x320
  concatenates_S8x47x320_S8x193x320_S8x240x320_d1 : Shape.Concatenates [S8x47x320, S8x193x320] S8x240x320 1
  shapeCasts_S8x240_S8x240x1 : S8x240.ShapeCasts S8x240x1
  concatenates_S8x240x1_S8x240x1_S8x240x1_S8x240x1_S8x240x1_S8x240x1_S8x240x1_S8x240x1_S8x240x1_S8x240x1_S8x240x1_S8x240x1_S8x240x1_S8x240x1_S8x240x1_S8x240x1_S8x240x1_S8x240x1_S8x240x1_S8x240x1_S8x240x1_S8x240x1_S8x240x1_S8x240x1_S8x240x1_S8x240x1_S8x240x1_S8x240x1_S8x240x1_S8x240x1_S8x240x1_S8x240x1_S8x240x1_S8x240x1_S8x240x1_S8x240x1_S8x240x1_S8x240x1_S8x240x1_S8x240x1_S8x240x1_S8x240x1_S8x240x1_S8x240x1_S8x240x1_S8x240x1_S8x240x1_S8x240x1_S8x240x48_d2 : Shape.Concatenates (S8x240x1 :: S8x240x1 :: S8x240x1 :: S8x240x1 :: S8x240x1 :: S8x240x1 :: S8x240x1 :: S8x240x1 :: S8x240x1 :: S8x240x1 :: S8x240x1 :: S8x240x1 :: S8x240x1 :: S8x240x1 :: S8x240x1 :: S8x240x1 :: S8x240x1 :: S8x240x1 :: S8x240x1 :: S8x240x1 :: S8x240x1 :: S8x240x1 :: S8x240x1 :: S8x240x1 :: S8x240x1 :: S8x240x1 :: S8x240x1 :: S8x240x1 :: S8x240x1 :: S8x240x1 :: S8x240x1 :: S8x240x1 :: S8x240x1 :: S8x240x1 :: S8x240x1 :: S8x240x1 :: S8x240x1 :: S8x240x1 :: S8x240x1 :: S8x240x1 :: S8x240x1 :: S8x240x1 :: S8x240x1 :: S8x240x1 :: S8x240x1 :: S8x240x1 :: S8x240x1 :: S8x240x1 :: []) S8x240x48 2
  inb_S1x8x240x48_S1x8x240x48_0_0_0_0 : ∀ a, (![0, 0, 0, 0] : Fin 4 → Nat) a + S1x8x240x48.size a ≤ S1x8x240x48.size a
  h_S1x8x240x48 : 0 < S1x8x240x48.numel
  shapeCasts_S1x8x240x48_S8x240x48 : S1x8x240x48.ShapeCasts S8x240x48
  shapeCasts_S8x240x48_S1x8x240x48 : S8x240x48.ShapeCasts S1x8x240x48
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x240x320.size a ≤ S4x72x240x320.size a
  hwx0_0 : ∀ i : grid0.Coords, EltTy.bits .f32 = 32 ∨ (Rect.block (s := S4x72x240x320) S1x8x240x320.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x240x320.size a ≤ S4x72x240x320.size a
  hwx0_1 : ∀ i : grid0.Coords, EltTy.bits .f32 = 32 ∨ (Rect.block (s := S4x72x240x320) S1x8x240x320.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x240x48.size a ≤ S4x72x240x48.size a
  hwx0_2 : ∀ i : grid0.Coords, EltTy.bits .f32 = 32 ∨ (Rect.block (s := S4x72x240x48) S1x8x240x48.size (cc0_transform_2 i) (hinb0_2 i)).WholeWords (EltTy.packing .f32)

variable [Facts₀]

abbrev win0_0 : Pipeline.Window sig grid0 :=
  Pipeline.Window.ofSpec (Memref.whole main_arg0) S1x8x240x320.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8x240x320.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x240x48.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x72x240x320 : Shape := ⟨4, ![4, 72, 240, 320]⟩
abbrev S_ : Shape := ⟨0, ![]⟩
abbrev S4x72x240 : Shape := ⟨3, ![4, 72, 240]⟩
abbrev S4x72x239x320 : Shape := ⟨4, ![4, 72, 239, 320]⟩
abbrev S4x72x238x320 : Shape := ⟨4, ![4, 72, 238, 320]⟩
abbrev S4x72x237x320 : Shape := ⟨4, ![4, 72, 237, 320]⟩
abbrev S4x72x236x320 : Shape := ⟨4, ![4, 72, 236, 320]⟩
abbrev S4x72x235x320 : Shape := ⟨4, ![4, 72, 235, 320]⟩
abbrev S4x72x234x320 : Shape := ⟨4, ![4, 72, 234, 320]⟩
abbrev S4x72x233x320 : Shape := ⟨4, ![4, 72, 233, 320]⟩
abbrev S4x72x232x320 : Shape := ⟨4, ![4, 72, 232, 320]⟩
abbrev S4x72x231x320 : Shape := ⟨4, ![4, 72, 231, 320]⟩
abbrev S4x72x230x320 : Shape := ⟨4, ![4, 72, 230, 320]⟩
abbrev S4x72x229x320 : Shape := ⟨4, ![4, 72, 229, 320]⟩
abbrev S4x72x228x320 : Shape := ⟨4, ![4, 72, 228, 320]⟩
abbrev S4x72x227x320 : Shape := ⟨4, ![4, 72, 227, 320]⟩
abbrev S4x72x226x320 : Shape := ⟨4, ![4, 72, 226, 320]⟩
abbrev S4x72x225x320 : Shape := ⟨4, ![4, 72, 225, 320]⟩
abbrev S4x72x224x320 : Shape := ⟨4, ![4, 72, 224, 320]⟩
abbrev S4x72x223x320 : Shape := ⟨4, ![4, 72, 223, 320]⟩
abbrev S4x72x222x320 : Shape := ⟨4, ![4, 72, 222, 320]⟩
abbrev S4x72x221x320 : Shape := ⟨4, ![4, 72, 221, 320]⟩
abbrev S4x72x220x320 : Shape := ⟨4, ![4, 72, 220, 320]⟩
abbrev S4x72x219x320 : Shape := ⟨4, ![4, 72, 219, 320]⟩
abbrev S4x72x218x320 : Shape := ⟨4, ![4, 72, 218, 320]⟩
abbrev S4x72x217x320 : Shape := ⟨4, ![4, 72, 217, 320]⟩
abbrev S4x72x216x320 : Shape := ⟨4, ![4, 72, 216, 320]⟩
abbrev S4x72x215x320 : Shape := ⟨4, ![4, 72, 215, 320]⟩
abbrev S4x72x214x320 : Shape := ⟨4, ![4, 72, 214, 320]⟩
abbrev S4x72x213x320 : Shape := ⟨4, ![4, 72, 213, 320]⟩
abbrev S4x72x212x320 : Shape := ⟨4, ![4, 72, 212, 320]⟩
abbrev S4x72x211x320 : Shape := ⟨4, ![4, 72, 211, 320]⟩
abbrev S4x72x210x320 : Shape := ⟨4, ![4, 72, 210, 320]⟩
abbrev S4x72x209x320 : Shape := ⟨4, ![4, 72, 209, 320]⟩
abbrev S4x72x208x320 : Shape := ⟨4, ![4, 72, 208, 320]⟩
abbrev S4x72x207x320 : Shape := ⟨4, ![4, 72, 207, 320]⟩
abbrev S4x72x206x320 : Shape := ⟨4, ![4, 72, 206, 320]⟩
abbrev S4x72x205x320 : Shape := ⟨4, ![4, 72, 205, 320]⟩
abbrev S4x72x204x320 : Shape := ⟨4, ![4, 72, 204, 320]⟩
abbrev S4x72x203x320 : Shape := ⟨4, ![4, 72, 203, 320]⟩
abbrev S4x72x202x320 : Shape := ⟨4, ![4, 72, 202, 320]⟩
abbrev S4x72x201x320 : Shape := ⟨4, ![4, 72, 201, 320]⟩
abbrev S4x72x200x320 : Shape := ⟨4, ![4, 72, 200, 320]⟩
abbrev S4x72x199x320 : Shape := ⟨4, ![4, 72, 199, 320]⟩
abbrev S4x72x198x320 : Shape := ⟨4, ![4, 72, 198, 320]⟩
abbrev S4x72x197x320 : Shape := ⟨4, ![4, 72, 197, 320]⟩
abbrev S4x72x196x320 : Shape := ⟨4, ![4, 72, 196, 320]⟩
abbrev S4x72x195x320 : Shape := ⟨4, ![4, 72, 195, 320]⟩
abbrev S4x72x194x320 : Shape := ⟨4, ![4, 72, 194, 320]⟩
abbrev S4x72x193x320 : Shape := ⟨4, ![4, 72, 193, 320]⟩
abbrev S4x72x240x1 : Shape := ⟨4, ![4, 72, 240, 1]⟩
abbrev S4x72x240x16 : Shape := ⟨4, ![4, 72, 240, 16]⟩
abbrev S4x72x240x48 : Shape := ⟨4, ![4, 72, 240, 48]⟩

abbrev nBuf : Space → Nat
  | .hbm => 530
  | .vmem => 0
  | .smem => 0
  | _ => 0

abbrev hbmTy0_0 (i : Nat) : BufTy := match i % 128 with
  | 0 => ⟨S4x72x240x320, .f32⟩
  | 1 => ⟨S4x72x240x320, .f32⟩
  | 2 => ⟨S4x72x240x320, .f32⟩
  | 3 => ⟨S_, .f32⟩
  | 4 => ⟨S4x72x240, .f32⟩
  | 5 => ⟨S_, .f32⟩
  | 6 => ⟨S4x72x240, .f32⟩
  | 7 => ⟨S4x72x240, .f32⟩
  | 8 => ⟨S4x72x239x320, .f32⟩
  | 9 => ⟨S_, .i32⟩
  | 10 => ⟨S_, .f32⟩
  | 11 => ⟨S4x72x240x320, .f32⟩
  | 12 => ⟨S4x72x240x320, .f32⟩
  | 13 => ⟨S_, .f32⟩
  | 14 => ⟨S4x72x240, .f32⟩
  | 15 => ⟨S_, .f32⟩
  | 16 => ⟨S4x72x240, .f32⟩
  | 17 => ⟨S4x72x240, .f32⟩
  | 18 => ⟨S4x72x238x320, .f32⟩
  | 19 => ⟨S_, .i32⟩
  | 20 => ⟨S_, .f32⟩
  | 21 => ⟨S4x72x240x320, .f32⟩
  | 22 => ⟨S4x72x240x320, .f32⟩
  | 23 => ⟨S_, .f32⟩
  | 24 => ⟨S4x72x240, .f32⟩
  | 25 => ⟨S_, .f32⟩
  | 26 => ⟨S4x72x240, .f32⟩
  | 27 => ⟨S4x72x240, .f32⟩
  | 28 => ⟨S4x72x237x320, .f32⟩
  | 29 => ⟨S_, .i32⟩
  | 30 => ⟨S_, .f32⟩
  | 31 => ⟨S4x72x240x320, .f32⟩
  | 32 => ⟨S4x72x240x320, .f32⟩
  | 33 => ⟨S_, .f32⟩
  | 34 => ⟨S4x72x240, .f32⟩
  | 35 => ⟨S_, .f32⟩
  | 36 => ⟨S4x72x240, .f32⟩
  | 37 => ⟨S4x72x240, .f32⟩
  | 38 => ⟨S4x72x236x320, .f32⟩
  | 39 => ⟨S_, .i32⟩
  | 40 => ⟨S_, .f32⟩
  | 41 => ⟨S4x72x240x320, .f32⟩
  | 42 => ⟨S4x72x240x320, .f32⟩
  | 43 => ⟨S_, .f32⟩
  | 44 => ⟨S4x72x240, .f32⟩
  | 45 => ⟨S_, .f32⟩
  | 46 => ⟨S4x72x240, .f32⟩
  | 47 => ⟨S4x72x240, .f32⟩
  | 48 => ⟨S4x72x235x320, .f32⟩
  | 49 => ⟨S_, .i32⟩
  | 50 => ⟨S_, .f32⟩
  | 51 => ⟨S4x72x240x320, .f32⟩
  | 52 => ⟨S4x72x240x320, .f32⟩
  | 53 => ⟨S_, .f32⟩
  | 54 => ⟨S4x72x240, .f32⟩
  | 55 => ⟨S_, .f32⟩
  | 56 => ⟨S4x72x240, .f32⟩
  | 57 => ⟨S4x72x240, .f32⟩
  | 58 => ⟨S4x72x234x320, .f32⟩
  | 59 => ⟨S_, .i32⟩
  | 60 => ⟨S_, .f32⟩
  | 61 => ⟨S4x72x240x320, .f32⟩
  | 62 => ⟨S4x72x240x320, .f32⟩
  | 63 => ⟨S_, .f32⟩
  | 64 => ⟨S4x72x240, .f32⟩
  | 65 => ⟨S_, .f32⟩
  | 66 => ⟨S4x72x240, .f32⟩
  | 67 => ⟨S4x72x240, .f32⟩
  | 68 => ⟨S4x72x233x320, .f32⟩
  | 69 => ⟨S_, .i32⟩
  | 70 => ⟨S_, .f32⟩
  | 71 => ⟨S4x72x240x320, .f32⟩
  | 72 => ⟨S4x72x240x320, .f32⟩
  | 73 => ⟨S_, .f32⟩
  | 74 => ⟨S4x72x240, .f32⟩
  | 75 => ⟨S_, .f32⟩
  | 76 => ⟨S4x72x240, .f32⟩
  | 77 => ⟨S4x72x240, .f32⟩
  | 78 => ⟨S4x72x232x320, .f32⟩
  | 79 => ⟨S_, .i32⟩
  | 80 => ⟨S_, .f32⟩
  | 81 => ⟨S4x72x240x320, .f32⟩
  | 82 => ⟨S4x72x240x320, .f32⟩
  | 83 => ⟨S_, .f32⟩
  | 84 => ⟨S4x72x240, .f32⟩
  | 85 => ⟨S_, .f32⟩
  | 86 => ⟨S4x72x240, .f32⟩
  | 87 => ⟨S4x72x240, .f32⟩
  | 88 => ⟨S4x72x231x320, .f32⟩
  | 89 => ⟨S_, .i32⟩
  | 90 => ⟨S_, .f32⟩
  | 91 => ⟨S4x72x240x320, .f32⟩
  | 92 => ⟨S4x72x240x320, .f32⟩
  | 93 => ⟨S_, .f32⟩
  | 94 => ⟨S4x72x240, .f32⟩
  | 95 => ⟨S_, .f32⟩
  | 96 => ⟨S4x72x240, .f32⟩
  | 97 => ⟨S4x72x240, .f32⟩
  | 98 => ⟨S4x72x230x320, .f32⟩
  | 99 => ⟨S_, .i32⟩
  | 100 => ⟨S_, .f32⟩
  | 101 => ⟨S4x72x240x320, .f32⟩
  | 102 => ⟨S4x72x240x320, .f32⟩
  | 103 => ⟨S_, .f32⟩
  | 104 => ⟨S4x72x240, .f32⟩
  | 105 => ⟨S_, .f32⟩
  | 106 => ⟨S4x72x240, .f32⟩
  | 107 => ⟨S4x72x240, .f32⟩
  | 108 => ⟨S4x72x229x320, .f32⟩
  | 109 => ⟨S_, .i32⟩
  | 110 => ⟨S_, .f32⟩
  | 111 => ⟨S4x72x240x320, .f32⟩
  | 112 => ⟨S4x72x240x320, .f32⟩
  | 113 => ⟨S_, .f32⟩
  | 114 => ⟨S4x72x240, .f32⟩
  | 115 => ⟨S_, .f32⟩
  | 116 => ⟨S4x72x240, .f32⟩
  | 117 => ⟨S4x72x240, .f32⟩
  | 118 => ⟨S4x72x228x320, .f32⟩
  | 119 => ⟨S_, .i32⟩
  | 120 => ⟨S_, .f32⟩
  | 121 => ⟨S4x72x240x320, .f32⟩
  | 122 => ⟨S4x72x240x320, .f32⟩
  | 123 => ⟨S_, .f32⟩
  | 124 => ⟨S4x72x240, .f32⟩
  | 125 => ⟨S_, .f32⟩
  | 126 => ⟨S4x72x240, .f32⟩
  | 127 => ⟨S4x72x240, .f32⟩
  | _ => ⟨S4x72x240x320, .f32⟩

abbrev hbmTy0_1 (i : Nat) : BufTy := match i % 128 with
  | 0 => ⟨S4x72x227x320, .f32⟩
  | 1 => ⟨S_, .i32⟩
  | 2 => ⟨S_, .f32⟩
  | 3 => ⟨S4x72x240x320, .f32⟩
  | 4 => ⟨S4x72x240x320, .f32⟩
  | 5 => ⟨S_, .f32⟩
  | 6 => ⟨S4x72x240, .f32⟩
  | 7 => ⟨S_, .f32⟩
  | 8 => ⟨S4x72x240, .f32⟩
  | 9 => ⟨S4x72x240, .f32⟩
  | 10 => ⟨S4x72x226x320, .f32⟩
  | 11 => ⟨S_, .i32⟩
  | 12 => ⟨S_, .f32⟩
  | 13 => ⟨S4x72x240x320, .f32⟩
  | 14 => ⟨S4x72x240x320, .f32⟩
  | 15 => ⟨S_, .f32⟩
  | 16 => ⟨S4x72x240, .f32⟩
  | 17 => ⟨S_, .f32⟩
  | 18 => ⟨S4x72x240, .f32⟩
  | 19 => ⟨S4x72x240, .f32⟩
  | 20 => ⟨S4x72x225x320, .f32⟩
  | 21 => ⟨S_, .i32⟩
  | 22 => ⟨S_, .f32⟩
  | 23 => ⟨S4x72x240x320, .f32⟩
  | 24 => ⟨S4x72x240x320, .f32⟩
  | 25 => ⟨S_, .f32⟩
  | 26 => ⟨S4x72x240, .f32⟩
  | 27 => ⟨S_, .f32⟩
  | 28 => ⟨S4x72x240, .f32⟩
  | 29 => ⟨S4x72x240, .f32⟩
  | 30 => ⟨S4x72x224x320, .f32⟩
  | 31 => ⟨S_, .i32⟩
  | 32 => ⟨S_, .f32⟩
  | 33 => ⟨S4x72x240x320, .f32⟩
  | 34 => ⟨S4x72x240x320, .f32⟩
  | 35 => ⟨S_, .f32⟩
  | 36 => ⟨S4x72x240, .f32⟩
  | 37 => ⟨S_, .f32⟩
  | 38 => ⟨S4x72x240, .f32⟩
  | 39 => ⟨S4x72x240, .f32⟩
  | 40 => ⟨S4x72x223x320, .f32⟩
  | 41 => ⟨S_, .i32⟩
  | 42 => ⟨S_, .f32⟩
  | 43 => ⟨S4x72x240x320, .f32⟩
  | 44 => ⟨S4x72x240x320, .f32⟩
  | 45 => ⟨S_, .f32⟩
  | 46 => ⟨S4x72x240, .f32⟩
  | 47 => ⟨S_, .f32⟩
  | 48 => ⟨S4x72x240, .f32⟩
  | 49 => ⟨S4x72x240, .f32⟩
  | 50 => ⟨S4x72x222x320, .f32⟩
  | 51 => ⟨S_, .i32⟩
  | 52 => ⟨S_, .f32⟩
  | 53 => ⟨S4x72x240x320, .f32⟩
  | 54 => ⟨S4x72x240x320, .f32⟩
  | 55 => ⟨S_, .f32⟩
  | 56 => ⟨S4x72x240, .f32⟩
  | 57 => ⟨S_, .f32⟩
  | 58 => ⟨S4x72x240, .f32⟩
  | 59 => ⟨S4x72x240, .f32⟩
  | 60 => ⟨S4x72x221x320, .f32⟩
  | 61 => ⟨S_, .i32⟩
  | 62 => ⟨S_, .f32⟩
  | 63 => ⟨S4x72x240x320, .f32⟩
  | 64 => ⟨S4x72x240x320, .f32⟩
  | 65 => ⟨S_, .f32⟩
  | 66 => ⟨S4x72x240, .f32⟩
  | 67 => ⟨S_, .f32⟩
  | 68 => ⟨S4x72x240, .f32⟩
  | 69 => ⟨S4x72x240, .f32⟩
  | 70 => ⟨S4x72x220x320, .f32⟩
  | 71 => ⟨S_, .i32⟩
  | 72 => ⟨S_, .f32⟩
  | 73 => ⟨S4x72x240x320, .f32⟩
  | 74 => ⟨S4x72x240x320, .f32⟩
  | 75 => ⟨S_, .f32⟩
  | 76 => ⟨S4x72x240, .f32⟩
  | 77 => ⟨S_, .f32⟩
  | 78 => ⟨S4x72x240, .f32⟩
  | 79 => ⟨S4x72x240, .f32⟩
  | 80 => ⟨S4x72x219x320, .f32⟩
  | 81 => ⟨S_, .i32⟩
  | 82 => ⟨S_, .f32⟩
  | 83 => ⟨S4x72x240x320, .f32⟩
  | 84 => ⟨S4x72x240x320, .f32⟩
  | 85 => ⟨S_, .f32⟩
  | 86 => ⟨S4x72x240, .f32⟩
  | 87 => ⟨S_, .f32⟩
  | 88 => ⟨S4x72x240, .f32⟩
  | 89 => ⟨S4x72x240, .f32⟩
  | 90 => ⟨S4x72x218x320, .f32⟩
  | 91 => ⟨S_, .i32⟩
  | 92 => ⟨S_, .f32⟩
  | 93 => ⟨S4x72x240x320, .f32⟩
  | 94 => ⟨S4x72x240x320, .f32⟩
  | 95 => ⟨S_, .f32⟩
  | 96 => ⟨S4x72x240, .f32⟩
  | 97 => ⟨S_, .f32⟩
  | 98 => ⟨S4x72x240, .f32⟩
  | 99 => ⟨S4x72x240, .f32⟩
  | 100 => ⟨S4x72x217x320, .f32⟩
  | 101 => ⟨S_, .i32⟩
  | 102 => ⟨S_, .f32⟩
  | 103 => ⟨S4x72x240x320, .f32⟩
  | 104 => ⟨S4x72x240x320, .f32⟩
  | 105 => ⟨S_, .f32⟩
  | 106 => ⟨S4x72x240, .f32⟩
  | 107 => ⟨S_, .f32⟩
  | 108 => ⟨S4x72x240, .f32⟩
  | 109 => ⟨S4x72x240, .f32⟩
  | 110 => ⟨S4x72x216x320, .f32⟩
  | 111 => ⟨S_, .i32⟩
  | 112 => ⟨S_, .f32⟩
  | 113 => ⟨S4x72x240x320, .f32⟩
  | 114 => ⟨S4x72x240x320, .f32⟩
  | 115 => ⟨S_, .f32⟩
  | 116 => ⟨S4x72x240, .f32⟩
  | 117 => ⟨S_, .f32⟩
  | 118 => ⟨S4x72x240, .f32⟩
  | 119 => ⟨S4x72x240, .f32⟩
  | 120 => ⟨S4x72x215x320, .f32⟩
  | 121 => ⟨S_, .i32⟩
  | 122 => ⟨S_, .f32⟩
  | 123 => ⟨S4x72x240x320, .f32⟩
  | 124 => ⟨S4x72x240x320, .f32⟩
  | 125 => ⟨S_, .f32⟩
  | 126 => ⟨S4x72x240, .f32⟩
  | 127 => ⟨S_, .f32⟩
  | _ => ⟨S4x72x240x320, .f32⟩

abbrev hbmTy0_2 (i : Nat) : BufTy := match i % 128 with
  | 0 => ⟨S4x72x240, .f32⟩
  | 1 => ⟨S4x72x240, .f32⟩
  | 2 => ⟨S4x72x214x320, .f32⟩
  | 3 => ⟨S_, .i32⟩
  | 4 => ⟨S_, .f32⟩
  | 5 => ⟨S4x72x240x320, .f32⟩
  | 6 => ⟨S4x72x240x320, .f32⟩
  | 7 => ⟨S_, .f32⟩
  | 8 => ⟨S4x72x240, .f32⟩
  | 9 => ⟨S_, .f32⟩
  | 10 => ⟨S4x72x240, .f32⟩
  | 11 => ⟨S4x72x240, .f32⟩
  | 12 => ⟨S4x72x213x320, .f32⟩
  | 13 => ⟨S_, .i32⟩
  | 14 => ⟨S_, .f32⟩
  | 15 => ⟨S4x72x240x320, .f32⟩
  | 16 => ⟨S4x72x240x320, .f32⟩
  | 17 => ⟨S_, .f32⟩
  | 18 => ⟨S4x72x240, .f32⟩
  | 19 => ⟨S_, .f32⟩
  | 20 => ⟨S4x72x240, .f32⟩
  | 21 => ⟨S4x72x240, .f32⟩
  | 22 => ⟨S4x72x212x320, .f32⟩
  | 23 => ⟨S_, .i32⟩
  | 24 => ⟨S_, .f32⟩
  | 25 => ⟨S4x72x240x320, .f32⟩
  | 26 => ⟨S4x72x240x320, .f32⟩
  | 27 => ⟨S_, .f32⟩
  | 28 => ⟨S4x72x240, .f32⟩
  | 29 => ⟨S_, .f32⟩
  | 30 => ⟨S4x72x240, .f32⟩
  | 31 => ⟨S4x72x240, .f32⟩
  | 32 => ⟨S4x72x211x320, .f32⟩
  | 33 => ⟨S_, .i32⟩
  | 34 => ⟨S_, .f32⟩
  | 35 => ⟨S4x72x240x320, .f32⟩
  | 36 => ⟨S4x72x240x320, .f32⟩
  | 37 => ⟨S_, .f32⟩
  | 38 => ⟨S4x72x240, .f32⟩
  | 39 => ⟨S_, .f32⟩
  | 40 => ⟨S4x72x240, .f32⟩
  | 41 => ⟨S4x72x240, .f32⟩
  | 42 => ⟨S4x72x210x320, .f32⟩
  | 43 => ⟨S_, .i32⟩
  | 44 => ⟨S_, .f32⟩
  | 45 => ⟨S4x72x240x320, .f32⟩
  | 46 => ⟨S4x72x240x320, .f32⟩
  | 47 => ⟨S_, .f32⟩
  | 48 => ⟨S4x72x240, .f32⟩
  | 49 => ⟨S_, .f32⟩
  | 50 => ⟨S4x72x240, .f32⟩
  | 51 => ⟨S4x72x240, .f32⟩
  | 52 => ⟨S4x72x209x320, .f32⟩
  | 53 => ⟨S_, .i32⟩
  | 54 => ⟨S_, .f32⟩
  | 55 => ⟨S4x72x240x320, .f32⟩
  | 56 => ⟨S4x72x240x320, .f32⟩
  | 57 => ⟨S_, .f32⟩
  | 58 => ⟨S4x72x240, .f32⟩
  | 59 => ⟨S_, .f32⟩
  | 60 => ⟨S4x72x240, .f32⟩
  | 61 => ⟨S4x72x240, .f32⟩
  | 62 => ⟨S4x72x208x320, .f32⟩
  | 63 => ⟨S_, .i32⟩
  | 64 => ⟨S_, .f32⟩
  | 65 => ⟨S4x72x240x320, .f32⟩
  | 66 => ⟨S4x72x240x320, .f32⟩
  | 67 => ⟨S_, .f32⟩
  | 68 => ⟨S4x72x240, .f32⟩
  | 69 => ⟨S_, .f32⟩
  | 70 => ⟨S4x72x240, .f32⟩
  | 71 => ⟨S4x72x240, .f32⟩
  | 72 => ⟨S4x72x207x320, .f32⟩
  | 73 => ⟨S_, .i32⟩
  | 74 => ⟨S_, .f32⟩
  | 75 => ⟨S4x72x240x320, .f32⟩
  | 76 => ⟨S4x72x240x320, .f32⟩
  | 77 => ⟨S_, .f32⟩
  | 78 => ⟨S4x72x240, .f32⟩
  | 79 => ⟨S_, .f32⟩
  | 80 => ⟨S4x72x240, .f32⟩
  | 81 => ⟨S4x72x240, .f32⟩
  | 82 => ⟨S4x72x206x320, .f32⟩
  | 83 => ⟨S_, .i32⟩
  | 84 => ⟨S_, .f32⟩
  | 85 => ⟨S4x72x240x320, .f32⟩
  | 86 => ⟨S4x72x240x320, .f32⟩
  | 87 => ⟨S_, .f32⟩
  | 88 => ⟨S4x72x240, .f32⟩
  | 89 => ⟨S_, .f32⟩
  | 90 => ⟨S4x72x240, .f32⟩
  | 91 => ⟨S4x72x240, .f32⟩
  | 92 => ⟨S4x72x205x320, .f32⟩
  | 93 => ⟨S_, .i32⟩
  | 94 => ⟨S_, .f32⟩
  | 95 => ⟨S4x72x240x320, .f32⟩
  | 96 => ⟨S4x72x240x320, .f32⟩
  | 97 => ⟨S_, .f32⟩
  | 98 => ⟨S4x72x240, .f32⟩
  | 99 => ⟨S_, .f32⟩
  | 100 => ⟨S4x72x240, .f32⟩
  | 101 => ⟨S4x72x240, .f32⟩
  | 102 => ⟨S4x72x204x320, .f32⟩
  | 103 => ⟨S_, .i32⟩
  | 104 => ⟨S_, .f32⟩
  | 105 => ⟨S4x72x240x320, .f32⟩
  | 106 => ⟨S4x72x240x320, .f32⟩
  | 107 => ⟨S_, .f32⟩
  | 108 => ⟨S4x72x240, .f32⟩
  | 109 => ⟨S_, .f32⟩
  | 110 => ⟨S4x72x240, .f32⟩
  | 111 => ⟨S4x72x240, .f32⟩
  | 112 => ⟨S4x72x203x320, .f32⟩
  | 113 => ⟨S_, .i32⟩
  | 114 => ⟨S_, .f32⟩
  | 115 => ⟨S4x72x240x320, .f32⟩
  | 116 => ⟨S4x72x240x320, .f32⟩
  | 117 => ⟨S_, .f32⟩
  | 118 => ⟨S4x72x240, .f32⟩
  | 119 => ⟨S_, .f32⟩
  | 120 => ⟨S4x72x240, .f32⟩
  | 121 => ⟨S4x72x240, .f32⟩
  | 122 => ⟨S4x72x202x320, .f32⟩
  | 123 => ⟨S_, .i32⟩
  | 124 => ⟨S_, .f32⟩
  | 125 => ⟨S4x72x240x320, .f32⟩
  | 126 => ⟨S4x72x240x320, .f32⟩
  | 127 => ⟨S_, .f32⟩
  | _ => ⟨S4x72x240x320, .f32⟩

abbrev hbmTy0_3 (i : Nat) : BufTy := match i % 128 with
  | 0 => ⟨S4x72x240, .f32⟩
  | 1 => ⟨S_, .f32⟩
  | 2 => ⟨S4x72x240, .f32⟩
  | 3 => ⟨S4x72x240, .f32⟩
  | 4 => ⟨S4x72x201x320, .f32⟩
  | 5 => ⟨S_, .i32⟩
  | 6 => ⟨S_, .f32⟩
  | 7 => ⟨S4x72x240x320, .f32⟩
  | 8 => ⟨S4x72x240x320, .f32⟩
  | 9 => ⟨S_, .f32⟩
  | 10 => ⟨S4x72x240, .f32⟩
  | 11 => ⟨S_, .f32⟩
  | 12 => ⟨S4x72x240, .f32⟩
  | 13 => ⟨S4x72x240, .f32⟩
  | 14 => ⟨S4x72x200x320, .f32⟩
  | 15 => ⟨S_, .i32⟩
  | 16 => ⟨S_, .f32⟩
  | 17 => ⟨S4x72x240x320, .f32⟩
  | 18 => ⟨S4x72x240x320, .f32⟩
  | 19 => ⟨S_, .f32⟩
  | 20 => ⟨S4x72x240, .f32⟩
  | 21 => ⟨S_, .f32⟩
  | 22 => ⟨S4x72x240, .f32⟩
  | 23 => ⟨S4x72x240, .f32⟩
  | 24 => ⟨S4x72x199x320, .f32⟩
  | 25 => ⟨S_, .i32⟩
  | 26 => ⟨S_, .f32⟩
  | 27 => ⟨S4x72x240x320, .f32⟩
  | 28 => ⟨S4x72x240x320, .f32⟩
  | 29 => ⟨S_, .f32⟩
  | 30 => ⟨S4x72x240, .f32⟩
  | 31 => ⟨S_, .f32⟩
  | 32 => ⟨S4x72x240, .f32⟩
  | 33 => ⟨S4x72x240, .f32⟩
  | 34 => ⟨S4x72x198x320, .f32⟩
  | 35 => ⟨S_, .i32⟩
  | 36 => ⟨S_, .f32⟩
  | 37 => ⟨S4x72x240x320, .f32⟩
  | 38 => ⟨S4x72x240x320, .f32⟩
  | 39 => ⟨S_, .f32⟩
  | 40 => ⟨S4x72x240, .f32⟩
  | 41 => ⟨S_, .f32⟩
  | 42 => ⟨S4x72x240, .f32⟩
  | 43 => ⟨S4x72x240, .f32⟩
  | 44 => ⟨S4x72x197x320, .f32⟩
  | 45 => ⟨S_, .i32⟩
  | 46 => ⟨S_, .f32⟩
  | 47 => ⟨S4x72x240x320, .f32⟩
  | 48 => ⟨S4x72x240x320, .f32⟩
  | 49 => ⟨S_, .f32⟩
  | 50 => ⟨S4x72x240, .f32⟩
  | 51 => ⟨S_, .f32⟩
  | 52 => ⟨S4x72x240, .f32⟩
  | 53 => ⟨S4x72x240, .f32⟩
  | 54 => ⟨S4x72x196x320, .f32⟩
  | 55 => ⟨S_, .i32⟩
  | 56 => ⟨S_, .f32⟩
  | 57 => ⟨S4x72x240x320, .f32⟩
  | 58 => ⟨S4x72x240x320, .f32⟩
  | 59 => ⟨S_, .f32⟩
  | 60 => ⟨S4x72x240, .f32⟩
  | 61 => ⟨S_, .f32⟩
  | 62 => ⟨S4x72x240, .f32⟩
  | 63 => ⟨S4x72x240, .f32⟩
  | 64 => ⟨S4x72x195x320, .f32⟩
  | 65 => ⟨S_, .i32⟩
  | 66 => ⟨S_, .f32⟩
  | 67 => ⟨S4x72x240x320, .f32⟩
  | 68 => ⟨S4x72x240x320, .f32⟩
  | 69 => ⟨S_, .f32⟩
  | 70 => ⟨S4x72x240, .f32⟩
  | 71 => ⟨S_, .f32⟩
  | 72 => ⟨S4x72x240, .f32⟩
  | 73 => ⟨S4x72x240, .f32⟩
  | 74 => ⟨S4x72x194x320, .f32⟩
  | 75 => ⟨S_, .i32⟩
  | 76 => ⟨S_, .f32⟩
  | 77 => ⟨S4x72x240x320, .f32⟩
  | 78 => ⟨S4x72x240x320, .f32⟩
  | 79 => ⟨S_, .f32⟩
  | 80 => ⟨S4x72x240, .f32⟩
  | 81 => ⟨S_, .f32⟩
  | 82 => ⟨S4x72x240, .f32⟩
  | 83 => ⟨S4x72x240, .f32⟩
  | 84 => ⟨S4x72x193x320, .f32⟩
  | 85 => ⟨S_, .i32⟩
  | 86 => ⟨S_, .f32⟩
  | 87 => ⟨S4x72x240x320, .f32⟩
  | 88 => ⟨S4x72x240x320, .f32⟩
  | 89 => ⟨S_, .f32⟩
  | 90 => ⟨S4x72x240, .f32⟩
  | 91 => ⟨S_, .f32⟩
  | 92 => ⟨S4x72x240, .f32⟩
  | 93 => ⟨S4x72x240, .f32⟩
  | 94 => ⟨S4x72x240x1, .f32⟩
  | 95 => ⟨S4x72x240x1, .f32⟩
  | 96 => ⟨S4x72x240x1, .f32⟩
  | 97 => ⟨S4x72x240x1, .f32⟩
  | 98 => ⟨S4x72x240x1, .f32⟩
  | 99 => ⟨S4x72x240x1, .f32⟩
  | 100 => ⟨S4x72x240x1, .f32⟩
  | 101 => ⟨S4x72x240x1, .f32⟩
  | 102 => ⟨S4x72x240x1, .f32⟩
  | 103 => ⟨S4x72x240x1, .f32⟩
  | 104 => ⟨S4x72x240x1, .f32⟩
  | 105 => ⟨S4x72x240x1, .f32⟩
  | 106 => ⟨S4x72x240x1, .f32⟩
  | 107 => ⟨S4x72x240x1, .f32⟩
  | 108 => ⟨S4x72x240x1, .f32⟩
  | 109 => ⟨S4x72x240x1, .f32⟩
  | 110 => ⟨S4x72x240x1, .f32⟩
  | 111 => ⟨S4x72x240x1, .f32⟩
  | 112 => ⟨S4x72x240x1, .f32⟩
  | 113 => ⟨S4x72x240x1, .f32⟩
  | 114 => ⟨S4x72x240x1, .f32⟩
  | 115 => ⟨S4x72x240x1, .f32⟩
  | 116 => ⟨S4x72x240x1, .f32⟩
  | 117 => ⟨S4x72x240x1, .f32⟩
  | 118 => ⟨S4x72x240x1, .f32⟩
  | 119 => ⟨S4x72x240x1, .f32⟩
  | 120 => ⟨S4x72x240x1, .f32⟩
  | 121 => ⟨S4x72x240x1, .f32⟩
  | 122 => ⟨S4x72x240x1, .f32⟩
  | 123 => ⟨S4x72x240x1, .f32⟩
  | 124 => ⟨S4x72x240x1, .f32⟩
  | 125 => ⟨S4x72x240x1, .f32⟩
  | 126 => ⟨S4x72x240x1, .f32⟩
  | 127 => ⟨S4x72x240x1, .f32⟩
  | _ => ⟨S4x72x240x320, .f32⟩

abbrev hbmTy0_4 (i : Nat) : BufTy := match i % 128 with
  | 0 => ⟨S4x72x240x1, .f32⟩
  | 1 => ⟨S4x72x240x1, .f32⟩
  | 2 => ⟨S4x72x240x1, .f32⟩
  | 3 => ⟨S4x72x240x1, .f32⟩
  | 4 => ⟨S4x72x240x1, .f32⟩
  | 5 => ⟨S4x72x240x1, .f32⟩
  | 6 => ⟨S4x72x240x1, .f32⟩
  | 7 => ⟨S4x72x240x1, .f32⟩
  | 8 => ⟨S4x72x240x1, .f32⟩
  | 9 => ⟨S4x72x240x1, .f32⟩
  | 10 => ⟨S4x72x240x1, .f32⟩
  | 11 => ⟨S4x72x240x1, .f32⟩
  | 12 => ⟨S4x72x240x1, .f32⟩
  | 13 => ⟨S4x72x240x1, .f32⟩
  | 14 => ⟨S4x72x240x16, .f32⟩
  | 15 => ⟨S4x72x240x16, .f32⟩
  | 16 => ⟨S4x72x240x16, .f32⟩
  | 17 => ⟨S4x72x240x48, .f32⟩
  | _ => ⟨S4x72x240x320, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x72x240x320, .f32⟩

abbrev bufTy : (tb : Table) → Fin (tcTables nBuf tb) → BufTy
  | .hbm, ⟨i, _⟩ => hbmTy i
  | _, _ => ⟨S4x72x240x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_call1_v0 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_cst_5 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_6 : Ref sig .tc := ⟨.hbm, 29, rfl⟩
abbrev main_call2_v0 : Ref sig .tc := ⟨.hbm, 30, rfl⟩
abbrev main_v17 : Ref sig .tc := ⟨.hbm, 31, rfl⟩
abbrev main_v18 : Ref sig .tc := ⟨.hbm, 32, rfl⟩
abbrev main_cst_7 : Ref sig .tc := ⟨.hbm, 33, rfl⟩
abbrev main_v19 : Ref sig .tc := ⟨.hbm, 34, rfl⟩
abbrev main_cst_8 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_9 : Ref sig .tc := ⟨.hbm, 39, rfl⟩
abbrev main_call3_v0 : Ref sig .tc := ⟨.hbm, 40, rfl⟩
abbrev main_v23 : Ref sig .tc := ⟨.hbm, 41, rfl⟩
abbrev main_v24 : Ref sig .tc := ⟨.hbm, 42, rfl⟩
abbrev main_cst_10 : Ref sig .tc := ⟨.hbm, 43, rfl⟩
abbrev main_v25 : Ref sig .tc := ⟨.hbm, 44, rfl⟩
abbrev main_cst_11 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_12 : Ref sig .tc := ⟨.hbm, 49, rfl⟩
abbrev main_call4_v0 : Ref sig .tc := ⟨.hbm, 50, rfl⟩
abbrev main_v29 : Ref sig .tc := ⟨.hbm, 51, rfl⟩
abbrev main_v30 : Ref sig .tc := ⟨.hbm, 52, rfl⟩
abbrev main_cst_13 : Ref sig .tc := ⟨.hbm, 53, rfl⟩
abbrev main_v31 : Ref sig .tc := ⟨.hbm, 54, rfl⟩
abbrev main_cst_14 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_15 : Ref sig .tc := ⟨.hbm, 59, rfl⟩
abbrev main_call5_v0 : Ref sig .tc := ⟨.hbm, 60, rfl⟩
abbrev main_v35 : Ref sig .tc := ⟨.hbm, 61, rfl⟩
abbrev main_v36 : Ref sig .tc := ⟨.hbm, 62, rfl⟩
abbrev main_cst_16 : Ref sig .tc := ⟨.hbm, 63, rfl⟩
abbrev main_v37 : Ref sig .tc := ⟨.hbm, 64, rfl⟩
abbrev main_cst_17 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_c_18 : Ref sig .tc := ⟨.hbm, 69, rfl⟩
abbrev main_call6_v0 : Ref sig .tc := ⟨.hbm, 70, rfl⟩
abbrev main_v41 : Ref sig .tc := ⟨.hbm, 71, rfl⟩
abbrev main_v42 : Ref sig .tc := ⟨.hbm, 72, rfl⟩
abbrev main_cst_19 : Ref sig .tc := ⟨.hbm, 73, rfl⟩
abbrev main_v43 : Ref sig .tc := ⟨.hbm, 74, rfl⟩
abbrev main_cst_20 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_c_21 : Ref sig .tc := ⟨.hbm, 79, rfl⟩
abbrev main_call7_v0 : Ref sig .tc := ⟨.hbm, 80, rfl⟩
abbrev main_v47 : Ref sig .tc := ⟨.hbm, 81, rfl⟩
abbrev main_v48 : Ref sig .tc := ⟨.hbm, 82, rfl⟩
abbrev main_cst_22 : Ref sig .tc := ⟨.hbm, 83, rfl⟩
abbrev main_v49 : Ref sig .tc := ⟨.hbm, 84, rfl⟩
abbrev main_cst_23 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_c_24 : Ref sig .tc := ⟨.hbm, 89, rfl⟩
abbrev main_call8_v0 : Ref sig .tc := ⟨.hbm, 90, rfl⟩
abbrev main_v53 : Ref sig .tc := ⟨.hbm, 91, rfl⟩
abbrev main_v54 : Ref sig .tc := ⟨.hbm, 92, rfl⟩
abbrev main_cst_25 : Ref sig .tc := ⟨.hbm, 93, rfl⟩
abbrev main_v55 : Ref sig .tc := ⟨.hbm, 94, rfl⟩
abbrev main_cst_26 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_c_27 : Ref sig .tc := ⟨.hbm, 99, rfl⟩
abbrev main_call9_v0 : Ref sig .tc := ⟨.hbm, 100, rfl⟩
abbrev main_v59 : Ref sig .tc := ⟨.hbm, 101, rfl⟩
abbrev main_v60 : Ref sig .tc := ⟨.hbm, 102, rfl⟩
abbrev main_cst_28 : Ref sig .tc := ⟨.hbm, 103, rfl⟩
abbrev main_v61 : Ref sig .tc := ⟨.hbm, 104, rfl⟩
abbrev main_cst_29 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_c_30 : Ref sig .tc := ⟨.hbm, 109, rfl⟩
abbrev main_call10_v0 : Ref sig .tc := ⟨.hbm, 110, rfl⟩
abbrev main_v65 : Ref sig .tc := ⟨.hbm, 111, rfl⟩
abbrev main_v66 : Ref sig .tc := ⟨.hbm, 112, rfl⟩
abbrev main_cst_31 : Ref sig .tc := ⟨.hbm, 113, rfl⟩
abbrev main_v67 : Ref sig .tc := ⟨.hbm, 114, rfl⟩
abbrev main_cst_32 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_c_33 : Ref sig .tc := ⟨.hbm, 119, rfl⟩
abbrev main_call11_v0 : Ref sig .tc := ⟨.hbm, 120, rfl⟩
abbrev main_v71 : Ref sig .tc := ⟨.hbm, 121, rfl⟩
abbrev main_v72 : Ref sig .tc := ⟨.hbm, 122, rfl⟩
abbrev main_cst_34 : Ref sig .tc := ⟨.hbm, 123, rfl⟩
abbrev main_v73 : Ref sig .tc := ⟨.hbm, 124, rfl⟩
abbrev main_cst_35 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_c_36 : Ref sig .tc := ⟨.hbm, 129, rfl⟩
abbrev main_call12_v0 : Ref sig .tc := ⟨.hbm, 130, rfl⟩
abbrev main_v77 : Ref sig .tc := ⟨.hbm, 131, rfl⟩
abbrev main_v78 : Ref sig .tc := ⟨.hbm, 132, rfl⟩
abbrev main_cst_37 : Ref sig .tc := ⟨.hbm, 133, rfl⟩
abbrev main_v79 : Ref sig .tc := ⟨.hbm, 134, rfl⟩
abbrev main_cst_38 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_c_39 : Ref sig .tc := ⟨.hbm, 139, rfl⟩
abbrev main_call13_v0 : Ref sig .tc := ⟨.hbm, 140, rfl⟩
abbrev main_v83 : Ref sig .tc := ⟨.hbm, 141, rfl⟩
abbrev main_v84 : Ref sig .tc := ⟨.hbm, 142, rfl⟩
abbrev main_cst_40 : Ref sig .tc := ⟨.hbm, 143, rfl⟩
abbrev main_v85 : Ref sig .tc := ⟨.hbm, 144, rfl⟩
abbrev main_cst_41 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_c_42 : Ref sig .tc := ⟨.hbm, 149, rfl⟩
abbrev main_call14_v0 : Ref sig .tc := ⟨.hbm, 150, rfl⟩
abbrev main_v89 : Ref sig .tc := ⟨.hbm, 151, rfl⟩
abbrev main_v90 : Ref sig .tc := ⟨.hbm, 152, rfl⟩
abbrev main_cst_43 : Ref sig .tc := ⟨.hbm, 153, rfl⟩
abbrev main_v91 : Ref sig .tc := ⟨.hbm, 154, rfl⟩
abbrev main_cst_44 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_c_45 : Ref sig .tc := ⟨.hbm, 159, rfl⟩
abbrev main_call15_v0 : Ref sig .tc := ⟨.hbm, 160, rfl⟩
abbrev main_v95 : Ref sig .tc := ⟨.hbm, 161, rfl⟩
abbrev main_v96 : Ref sig .tc := ⟨.hbm, 162, rfl⟩
abbrev main_cst_46 : Ref sig .tc := ⟨.hbm, 163, rfl⟩
abbrev main_v97 : Ref sig .tc := ⟨.hbm, 164, rfl⟩
abbrev main_cst_47 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_c_48 : Ref sig .tc := ⟨.hbm, 169, rfl⟩
abbrev main_call16_v0 : Ref sig .tc := ⟨.hbm, 170, rfl⟩
abbrev main_v101 : Ref sig .tc := ⟨.hbm, 171, rfl⟩
abbrev main_v102 : Ref sig .tc := ⟨.hbm, 172, rfl⟩
abbrev main_cst_49 : Ref sig .tc := ⟨.hbm, 173, rfl⟩
abbrev main_v103 : Ref sig .tc := ⟨.hbm, 174, rfl⟩
abbrev main_cst_50 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_c_51 : Ref sig .tc := ⟨.hbm, 179, rfl⟩
abbrev main_call17_v0 : Ref sig .tc := ⟨.hbm, 180, rfl⟩
abbrev main_v107 : Ref sig .tc := ⟨.hbm, 181, rfl⟩
abbrev main_v108 : Ref sig .tc := ⟨.hbm, 182, rfl⟩
abbrev main_cst_52 : Ref sig .tc := ⟨.hbm, 183, rfl⟩
abbrev main_v109 : Ref sig .tc := ⟨.hbm, 184, rfl⟩
abbrev main_cst_53 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_c_54 : Ref sig .tc := ⟨.hbm, 189, rfl⟩
abbrev main_call18_v0 : Ref sig .tc := ⟨.hbm, 190, rfl⟩
abbrev main_v113 : Ref sig .tc := ⟨.hbm, 191, rfl⟩
abbrev main_v114 : Ref sig .tc := ⟨.hbm, 192, rfl⟩
abbrev main_cst_55 : Ref sig .tc := ⟨.hbm, 193, rfl⟩
abbrev main_v115 : Ref sig .tc := ⟨.hbm, 194, rfl⟩
abbrev main_cst_56 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_c_57 : Ref sig .tc := ⟨.hbm, 199, rfl⟩
abbrev main_call19_v0 : Ref sig .tc := ⟨.hbm, 200, rfl⟩
abbrev main_v119 : Ref sig .tc := ⟨.hbm, 201, rfl⟩
abbrev main_v120 : Ref sig .tc := ⟨.hbm, 202, rfl⟩
abbrev main_cst_58 : Ref sig .tc := ⟨.hbm, 203, rfl⟩
abbrev main_v121 : Ref sig .tc := ⟨.hbm, 204, rfl⟩
abbrev main_cst_59 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_c_60 : Ref sig .tc := ⟨.hbm, 209, rfl⟩
abbrev main_call20_v0 : Ref sig .tc := ⟨.hbm, 210, rfl⟩
abbrev main_v125 : Ref sig .tc := ⟨.hbm, 211, rfl⟩
abbrev main_v126 : Ref sig .tc := ⟨.hbm, 212, rfl⟩
abbrev main_cst_61 : Ref sig .tc := ⟨.hbm, 213, rfl⟩
abbrev main_v127 : Ref sig .tc := ⟨.hbm, 214, rfl⟩
abbrev main_cst_62 : Ref sig .tc := ⟨.hbm, 215, rfl⟩
abbrev main_v128 : Ref sig .tc := ⟨.hbm, 216, rfl⟩
abbrev main_v129 : Ref sig .tc := ⟨.hbm, 217, rfl⟩
abbrev main_v130 : Ref sig .tc := ⟨.hbm, 218, rfl⟩
abbrev main_c_63 : Ref sig .tc := ⟨.hbm, 219, rfl⟩
abbrev main_call21_v0 : Ref sig .tc := ⟨.hbm, 220, rfl⟩
abbrev main_v131 : Ref sig .tc := ⟨.hbm, 221, rfl⟩
abbrev main_v132 : Ref sig .tc := ⟨.hbm, 222, rfl⟩
abbrev main_cst_64 : Ref sig .tc := ⟨.hbm, 223, rfl⟩
abbrev main_v133 : Ref sig .tc := ⟨.hbm, 224, rfl⟩
abbrev main_cst_65 : Ref sig .tc := ⟨.hbm, 225, rfl⟩
abbrev main_v134 : Ref sig .tc := ⟨.hbm, 226, rfl⟩
abbrev main_v135 : Ref sig .tc := ⟨.hbm, 227, rfl⟩
abbrev main_v136 : Ref sig .tc := ⟨.hbm, 228, rfl⟩
abbrev main_c_66 : Ref sig .tc := ⟨.hbm, 229, rfl⟩
abbrev main_call22_v0 : Ref sig .tc := ⟨.hbm, 230, rfl⟩
abbrev main_v137 : Ref sig .tc := ⟨.hbm, 231, rfl⟩
abbrev main_v138 : Ref sig .tc := ⟨.hbm, 232, rfl⟩
abbrev main_cst_67 : Ref sig .tc := ⟨.hbm, 233, rfl⟩
abbrev main_v139 : Ref sig .tc := ⟨.hbm, 234, rfl⟩
abbrev main_cst_68 : Ref sig .tc := ⟨.hbm, 235, rfl⟩
abbrev main_v140 : Ref sig .tc := ⟨.hbm, 236, rfl⟩
abbrev main_v141 : Ref sig .tc := ⟨.hbm, 237, rfl⟩
abbrev main_v142 : Ref sig .tc := ⟨.hbm, 238, rfl⟩
abbrev main_c_69 : Ref sig .tc := ⟨.hbm, 239, rfl⟩
abbrev main_call23_v0 : Ref sig .tc := ⟨.hbm, 240, rfl⟩
abbrev main_v143 : Ref sig .tc := ⟨.hbm, 241, rfl⟩
abbrev main_v144 : Ref sig .tc := ⟨.hbm, 242, rfl⟩
abbrev main_cst_70 : Ref sig .tc := ⟨.hbm, 243, rfl⟩
abbrev main_v145 : Ref sig .tc := ⟨.hbm, 244, rfl⟩
abbrev main_cst_71 : Ref sig .tc := ⟨.hbm, 245, rfl⟩
abbrev main_v146 : Ref sig .tc := ⟨.hbm, 246, rfl⟩
abbrev main_v147 : Ref sig .tc := ⟨.hbm, 247, rfl⟩
abbrev main_v148 : Ref sig .tc := ⟨.hbm, 248, rfl⟩
abbrev main_c_72 : Ref sig .tc := ⟨.hbm, 249, rfl⟩
abbrev main_call24_v0 : Ref sig .tc := ⟨.hbm, 250, rfl⟩
abbrev main_v149 : Ref sig .tc := ⟨.hbm, 251, rfl⟩
abbrev main_v150 : Ref sig .tc := ⟨.hbm, 252, rfl⟩
abbrev main_cst_73 : Ref sig .tc := ⟨.hbm, 253, rfl⟩
abbrev main_v151 : Ref sig .tc := ⟨.hbm, 254, rfl⟩
abbrev main_cst_74 : Ref sig .tc := ⟨.hbm, 255, rfl⟩
abbrev main_v152 : Ref sig .tc := ⟨.hbm, 256, rfl⟩
abbrev main_v153 : Ref sig .tc := ⟨.hbm, 257, rfl⟩
abbrev main_v154 : Ref sig .tc := ⟨.hbm, 258, rfl⟩
abbrev main_c_75 : Ref sig .tc := ⟨.hbm, 259, rfl⟩
abbrev main_call25_v0 : Ref sig .tc := ⟨.hbm, 260, rfl⟩
abbrev main_v155 : Ref sig .tc := ⟨.hbm, 261, rfl⟩
abbrev main_v156 : Ref sig .tc := ⟨.hbm, 262, rfl⟩
abbrev main_cst_76 : Ref sig .tc := ⟨.hbm, 263, rfl⟩
abbrev main_v157 : Ref sig .tc := ⟨.hbm, 264, rfl⟩
abbrev main_cst_77 : Ref sig .tc := ⟨.hbm, 265, rfl⟩
abbrev main_v158 : Ref sig .tc := ⟨.hbm, 266, rfl⟩
abbrev main_v159 : Ref sig .tc := ⟨.hbm, 267, rfl⟩
abbrev main_v160 : Ref sig .tc := ⟨.hbm, 268, rfl⟩
abbrev main_c_78 : Ref sig .tc := ⟨.hbm, 269, rfl⟩
abbrev main_call26_v0 : Ref sig .tc := ⟨.hbm, 270, rfl⟩
abbrev main_v161 : Ref sig .tc := ⟨.hbm, 271, rfl⟩
abbrev main_v162 : Ref sig .tc := ⟨.hbm, 272, rfl⟩
abbrev main_cst_79 : Ref sig .tc := ⟨.hbm, 273, rfl⟩
abbrev main_v163 : Ref sig .tc := ⟨.hbm, 274, rfl⟩
abbrev main_cst_80 : Ref sig .tc := ⟨.hbm, 275, rfl⟩
abbrev main_v164 : Ref sig .tc := ⟨.hbm, 276, rfl⟩
abbrev main_v165 : Ref sig .tc := ⟨.hbm, 277, rfl⟩
abbrev main_v166 : Ref sig .tc := ⟨.hbm, 278, rfl⟩
abbrev main_c_81 : Ref sig .tc := ⟨.hbm, 279, rfl⟩
abbrev main_call27_v0 : Ref sig .tc := ⟨.hbm, 280, rfl⟩
abbrev main_v167 : Ref sig .tc := ⟨.hbm, 281, rfl⟩
abbrev main_v168 : Ref sig .tc := ⟨.hbm, 282, rfl⟩
abbrev main_cst_82 : Ref sig .tc := ⟨.hbm, 283, rfl⟩
abbrev main_v169 : Ref sig .tc := ⟨.hbm, 284, rfl⟩
abbrev main_cst_83 : Ref sig .tc := ⟨.hbm, 285, rfl⟩
abbrev main_v170 : Ref sig .tc := ⟨.hbm, 286, rfl⟩
abbrev main_v171 : Ref sig .tc := ⟨.hbm, 287, rfl⟩
abbrev main_v172 : Ref sig .tc := ⟨.hbm, 288, rfl⟩
abbrev main_c_84 : Ref sig .tc := ⟨.hbm, 289, rfl⟩
abbrev main_call28_v0 : Ref sig .tc := ⟨.hbm, 290, rfl⟩
abbrev main_v173 : Ref sig .tc := ⟨.hbm, 291, rfl⟩
abbrev main_v174 : Ref sig .tc := ⟨.hbm, 292, rfl⟩
abbrev main_cst_85 : Ref sig .tc := ⟨.hbm, 293, rfl⟩
abbrev main_v175 : Ref sig .tc := ⟨.hbm, 294, rfl⟩
abbrev main_cst_86 : Ref sig .tc := ⟨.hbm, 295, rfl⟩
abbrev main_v176 : Ref sig .tc := ⟨.hbm, 296, rfl⟩
abbrev main_v177 : Ref sig .tc := ⟨.hbm, 297, rfl⟩
abbrev main_v178 : Ref sig .tc := ⟨.hbm, 298, rfl⟩
abbrev main_c_87 : Ref sig .tc := ⟨.hbm, 299, rfl⟩
abbrev main_call29_v0 : Ref sig .tc := ⟨.hbm, 300, rfl⟩
abbrev main_v179 : Ref sig .tc := ⟨.hbm, 301, rfl⟩
abbrev main_v180 : Ref sig .tc := ⟨.hbm, 302, rfl⟩
abbrev main_cst_88 : Ref sig .tc := ⟨.hbm, 303, rfl⟩
abbrev main_v181 : Ref sig .tc := ⟨.hbm, 304, rfl⟩
abbrev main_cst_89 : Ref sig .tc := ⟨.hbm, 305, rfl⟩
abbrev main_v182 : Ref sig .tc := ⟨.hbm, 306, rfl⟩
abbrev main_v183 : Ref sig .tc := ⟨.hbm, 307, rfl⟩
abbrev main_v184 : Ref sig .tc := ⟨.hbm, 308, rfl⟩
abbrev main_c_90 : Ref sig .tc := ⟨.hbm, 309, rfl⟩
abbrev main_call30_v0 : Ref sig .tc := ⟨.hbm, 310, rfl⟩
abbrev main_v185 : Ref sig .tc := ⟨.hbm, 311, rfl⟩
abbrev main_v186 : Ref sig .tc := ⟨.hbm, 312, rfl⟩
abbrev main_cst_91 : Ref sig .tc := ⟨.hbm, 313, rfl⟩
abbrev main_v187 : Ref sig .tc := ⟨.hbm, 314, rfl⟩
abbrev main_cst_92 : Ref sig .tc := ⟨.hbm, 315, rfl⟩
abbrev main_v188 : Ref sig .tc := ⟨.hbm, 316, rfl⟩
abbrev main_v189 : Ref sig .tc := ⟨.hbm, 317, rfl⟩
abbrev main_v190 : Ref sig .tc := ⟨.hbm, 318, rfl⟩
abbrev main_c_93 : Ref sig .tc := ⟨.hbm, 319, rfl⟩
abbrev main_call31_v0 : Ref sig .tc := ⟨.hbm, 320, rfl⟩
abbrev main_v191 : Ref sig .tc := ⟨.hbm, 321, rfl⟩
abbrev main_v192 : Ref sig .tc := ⟨.hbm, 322, rfl⟩
abbrev main_cst_94 : Ref sig .tc := ⟨.hbm, 323, rfl⟩
abbrev main_v193 : Ref sig .tc := ⟨.hbm, 324, rfl⟩
abbrev main_cst_95 : Ref sig .tc := ⟨.hbm, 325, rfl⟩
abbrev main_v194 : Ref sig .tc := ⟨.hbm, 326, rfl⟩
abbrev main_v195 : Ref sig .tc := ⟨.hbm, 327, rfl⟩
abbrev main_v196 : Ref sig .tc := ⟨.hbm, 328, rfl⟩
abbrev main_c_96 : Ref sig .tc := ⟨.hbm, 329, rfl⟩
abbrev main_call32_v0 : Ref sig .tc := ⟨.hbm, 330, rfl⟩
abbrev main_v197 : Ref sig .tc := ⟨.hbm, 331, rfl⟩
abbrev main_v198 : Ref sig .tc := ⟨.hbm, 332, rfl⟩
abbrev main_cst_97 : Ref sig .tc := ⟨.hbm, 333, rfl⟩
abbrev main_v199 : Ref sig .tc := ⟨.hbm, 334, rfl⟩
abbrev main_cst_98 : Ref sig .tc := ⟨.hbm, 335, rfl⟩
abbrev main_v200 : Ref sig .tc := ⟨.hbm, 336, rfl⟩
abbrev main_v201 : Ref sig .tc := ⟨.hbm, 337, rfl⟩
abbrev main_v202 : Ref sig .tc := ⟨.hbm, 338, rfl⟩
abbrev main_c_99 : Ref sig .tc := ⟨.hbm, 339, rfl⟩
abbrev main_call33_v0 : Ref sig .tc := ⟨.hbm, 340, rfl⟩
abbrev main_v203 : Ref sig .tc := ⟨.hbm, 341, rfl⟩
abbrev main_v204 : Ref sig .tc := ⟨.hbm, 342, rfl⟩
abbrev main_cst_100 : Ref sig .tc := ⟨.hbm, 343, rfl⟩
abbrev main_v205 : Ref sig .tc := ⟨.hbm, 344, rfl⟩
abbrev main_cst_101 : Ref sig .tc := ⟨.hbm, 345, rfl⟩
abbrev main_v206 : Ref sig .tc := ⟨.hbm, 346, rfl⟩
abbrev main_v207 : Ref sig .tc := ⟨.hbm, 347, rfl⟩
abbrev main_v208 : Ref sig .tc := ⟨.hbm, 348, rfl⟩
abbrev main_c_102 : Ref sig .tc := ⟨.hbm, 349, rfl⟩
abbrev main_call34_v0 : Ref sig .tc := ⟨.hbm, 350, rfl⟩
abbrev main_v209 : Ref sig .tc := ⟨.hbm, 351, rfl⟩
abbrev main_v210 : Ref sig .tc := ⟨.hbm, 352, rfl⟩
abbrev main_cst_103 : Ref sig .tc := ⟨.hbm, 353, rfl⟩
abbrev main_v211 : Ref sig .tc := ⟨.hbm, 354, rfl⟩
abbrev main_cst_104 : Ref sig .tc := ⟨.hbm, 355, rfl⟩
abbrev main_v212 : Ref sig .tc := ⟨.hbm, 356, rfl⟩
abbrev main_v213 : Ref sig .tc := ⟨.hbm, 357, rfl⟩
abbrev main_v214 : Ref sig .tc := ⟨.hbm, 358, rfl⟩
abbrev main_c_105 : Ref sig .tc := ⟨.hbm, 359, rfl⟩
abbrev main_call35_v0 : Ref sig .tc := ⟨.hbm, 360, rfl⟩
abbrev main_v215 : Ref sig .tc := ⟨.hbm, 361, rfl⟩
abbrev main_v216 : Ref sig .tc := ⟨.hbm, 362, rfl⟩
abbrev main_cst_106 : Ref sig .tc := ⟨.hbm, 363, rfl⟩
abbrev main_v217 : Ref sig .tc := ⟨.hbm, 364, rfl⟩
abbrev main_cst_107 : Ref sig .tc := ⟨.hbm, 365, rfl⟩
abbrev main_v218 : Ref sig .tc := ⟨.hbm, 366, rfl⟩
abbrev main_v219 : Ref sig .tc := ⟨.hbm, 367, rfl⟩
abbrev main_v220 : Ref sig .tc := ⟨.hbm, 368, rfl⟩
abbrev main_c_108 : Ref sig .tc := ⟨.hbm, 369, rfl⟩
abbrev main_call36_v0 : Ref sig .tc := ⟨.hbm, 370, rfl⟩
abbrev main_v221 : Ref sig .tc := ⟨.hbm, 371, rfl⟩
abbrev main_v222 : Ref sig .tc := ⟨.hbm, 372, rfl⟩
abbrev main_cst_109 : Ref sig .tc := ⟨.hbm, 373, rfl⟩
abbrev main_v223 : Ref sig .tc := ⟨.hbm, 374, rfl⟩
abbrev main_cst_110 : Ref sig .tc := ⟨.hbm, 375, rfl⟩
abbrev main_v224 : Ref sig .tc := ⟨.hbm, 376, rfl⟩
abbrev main_v225 : Ref sig .tc := ⟨.hbm, 377, rfl⟩
abbrev main_v226 : Ref sig .tc := ⟨.hbm, 378, rfl⟩
abbrev main_c_111 : Ref sig .tc := ⟨.hbm, 379, rfl⟩
abbrev main_call37_v0 : Ref sig .tc := ⟨.hbm, 380, rfl⟩
abbrev main_v227 : Ref sig .tc := ⟨.hbm, 381, rfl⟩
abbrev main_v228 : Ref sig .tc := ⟨.hbm, 382, rfl⟩
abbrev main_cst_112 : Ref sig .tc := ⟨.hbm, 383, rfl⟩
abbrev main_v229 : Ref sig .tc := ⟨.hbm, 384, rfl⟩
abbrev main_cst_113 : Ref sig .tc := ⟨.hbm, 385, rfl⟩
abbrev main_v230 : Ref sig .tc := ⟨.hbm, 386, rfl⟩
abbrev main_v231 : Ref sig .tc := ⟨.hbm, 387, rfl⟩
abbrev main_v232 : Ref sig .tc := ⟨.hbm, 388, rfl⟩
abbrev main_c_114 : Ref sig .tc := ⟨.hbm, 389, rfl⟩
abbrev main_call38_v0 : Ref sig .tc := ⟨.hbm, 390, rfl⟩
abbrev main_v233 : Ref sig .tc := ⟨.hbm, 391, rfl⟩
abbrev main_v234 : Ref sig .tc := ⟨.hbm, 392, rfl⟩
abbrev main_cst_115 : Ref sig .tc := ⟨.hbm, 393, rfl⟩
abbrev main_v235 : Ref sig .tc := ⟨.hbm, 394, rfl⟩
abbrev main_cst_116 : Ref sig .tc := ⟨.hbm, 395, rfl⟩
abbrev main_v236 : Ref sig .tc := ⟨.hbm, 396, rfl⟩
abbrev main_v237 : Ref sig .tc := ⟨.hbm, 397, rfl⟩
abbrev main_v238 : Ref sig .tc := ⟨.hbm, 398, rfl⟩
abbrev main_c_117 : Ref sig .tc := ⟨.hbm, 399, rfl⟩
abbrev main_call39_v0 : Ref sig .tc := ⟨.hbm, 400, rfl⟩
abbrev main_v239 : Ref sig .tc := ⟨.hbm, 401, rfl⟩
abbrev main_v240 : Ref sig .tc := ⟨.hbm, 402, rfl⟩
abbrev main_cst_118 : Ref sig .tc := ⟨.hbm, 403, rfl⟩
abbrev main_v241 : Ref sig .tc := ⟨.hbm, 404, rfl⟩
abbrev main_cst_119 : Ref sig .tc := ⟨.hbm, 405, rfl⟩
abbrev main_v242 : Ref sig .tc := ⟨.hbm, 406, rfl⟩
abbrev main_v243 : Ref sig .tc := ⟨.hbm, 407, rfl⟩
abbrev main_v244 : Ref sig .tc := ⟨.hbm, 408, rfl⟩
abbrev main_c_120 : Ref sig .tc := ⟨.hbm, 409, rfl⟩
abbrev main_call40_v0 : Ref sig .tc := ⟨.hbm, 410, rfl⟩
abbrev main_v245 : Ref sig .tc := ⟨.hbm, 411, rfl⟩
abbrev main_v246 : Ref sig .tc := ⟨.hbm, 412, rfl⟩
abbrev main_cst_121 : Ref sig .tc := ⟨.hbm, 413, rfl⟩
abbrev main_v247 : Ref sig .tc := ⟨.hbm, 414, rfl⟩
abbrev main_cst_122 : Ref sig .tc := ⟨.hbm, 415, rfl⟩
abbrev main_v248 : Ref sig .tc := ⟨.hbm, 416, rfl⟩
abbrev main_v249 : Ref sig .tc := ⟨.hbm, 417, rfl⟩
abbrev main_v250 : Ref sig .tc := ⟨.hbm, 418, rfl⟩
abbrev main_c_123 : Ref sig .tc := ⟨.hbm, 419, rfl⟩
abbrev main_call41_v0 : Ref sig .tc := ⟨.hbm, 420, rfl⟩
abbrev main_v251 : Ref sig .tc := ⟨.hbm, 421, rfl⟩
abbrev main_v252 : Ref sig .tc := ⟨.hbm, 422, rfl⟩
abbrev main_cst_124 : Ref sig .tc := ⟨.hbm, 423, rfl⟩
abbrev main_v253 : Ref sig .tc := ⟨.hbm, 424, rfl⟩
abbrev main_cst_125 : Ref sig .tc := ⟨.hbm, 425, rfl⟩
abbrev main_v254 : Ref sig .tc := ⟨.hbm, 426, rfl⟩
abbrev main_v255 : Ref sig .tc := ⟨.hbm, 427, rfl⟩
abbrev main_v256 : Ref sig .tc := ⟨.hbm, 428, rfl⟩
abbrev main_c_126 : Ref sig .tc := ⟨.hbm, 429, rfl⟩
abbrev main_call42_v0 : Ref sig .tc := ⟨.hbm, 430, rfl⟩
abbrev main_v257 : Ref sig .tc := ⟨.hbm, 431, rfl⟩
abbrev main_v258 : Ref sig .tc := ⟨.hbm, 432, rfl⟩
abbrev main_cst_127 : Ref sig .tc := ⟨.hbm, 433, rfl⟩
abbrev main_v259 : Ref sig .tc := ⟨.hbm, 434, rfl⟩
abbrev main_cst_128 : Ref sig .tc := ⟨.hbm, 435, rfl⟩
abbrev main_v260 : Ref sig .tc := ⟨.hbm, 436, rfl⟩
abbrev main_v261 : Ref sig .tc := ⟨.hbm, 437, rfl⟩
abbrev main_v262 : Ref sig .tc := ⟨.hbm, 438, rfl⟩
abbrev main_c_129 : Ref sig .tc := ⟨.hbm, 439, rfl⟩
abbrev main_call43_v0 : Ref sig .tc := ⟨.hbm, 440, rfl⟩
abbrev main_v263 : Ref sig .tc := ⟨.hbm, 441, rfl⟩
abbrev main_v264 : Ref sig .tc := ⟨.hbm, 442, rfl⟩
abbrev main_cst_130 : Ref sig .tc := ⟨.hbm, 443, rfl⟩
abbrev main_v265 : Ref sig .tc := ⟨.hbm, 444, rfl⟩
abbrev main_cst_131 : Ref sig .tc := ⟨.hbm, 445, rfl⟩
abbrev main_v266 : Ref sig .tc := ⟨.hbm, 446, rfl⟩
abbrev main_v267 : Ref sig .tc := ⟨.hbm, 447, rfl⟩
abbrev main_v268 : Ref sig .tc := ⟨.hbm, 448, rfl⟩
abbrev main_c_132 : Ref sig .tc := ⟨.hbm, 449, rfl⟩
abbrev main_call44_v0 : Ref sig .tc := ⟨.hbm, 450, rfl⟩
abbrev main_v269 : Ref sig .tc := ⟨.hbm, 451, rfl⟩
abbrev main_v270 : Ref sig .tc := ⟨.hbm, 452, rfl⟩
abbrev main_cst_133 : Ref sig .tc := ⟨.hbm, 453, rfl⟩
abbrev main_v271 : Ref sig .tc := ⟨.hbm, 454, rfl⟩
abbrev main_cst_134 : Ref sig .tc := ⟨.hbm, 455, rfl⟩
abbrev main_v272 : Ref sig .tc := ⟨.hbm, 456, rfl⟩
abbrev main_v273 : Ref sig .tc := ⟨.hbm, 457, rfl⟩
abbrev main_v274 : Ref sig .tc := ⟨.hbm, 458, rfl⟩
abbrev main_c_135 : Ref sig .tc := ⟨.hbm, 459, rfl⟩
abbrev main_call45_v0 : Ref sig .tc := ⟨.hbm, 460, rfl⟩
abbrev main_v275 : Ref sig .tc := ⟨.hbm, 461, rfl⟩
abbrev main_v276 : Ref sig .tc := ⟨.hbm, 462, rfl⟩
abbrev main_cst_136 : Ref sig .tc := ⟨.hbm, 463, rfl⟩
abbrev main_v277 : Ref sig .tc := ⟨.hbm, 464, rfl⟩
abbrev main_cst_137 : Ref sig .tc := ⟨.hbm, 465, rfl⟩
abbrev main_v278 : Ref sig .tc := ⟨.hbm, 466, rfl⟩
abbrev main_v279 : Ref sig .tc := ⟨.hbm, 467, rfl⟩
abbrev main_v280 : Ref sig .tc := ⟨.hbm, 468, rfl⟩
abbrev main_c_138 : Ref sig .tc := ⟨.hbm, 469, rfl⟩
abbrev main_call46_v0 : Ref sig .tc := ⟨.hbm, 470, rfl⟩
abbrev main_v281 : Ref sig .tc := ⟨.hbm, 471, rfl⟩
abbrev main_v282 : Ref sig .tc := ⟨.hbm, 472, rfl⟩
abbrev main_cst_139 : Ref sig .tc := ⟨.hbm, 473, rfl⟩
abbrev main_v283 : Ref sig .tc := ⟨.hbm, 474, rfl⟩
abbrev main_cst_140 : Ref sig .tc := ⟨.hbm, 475, rfl⟩
abbrev main_v284 : Ref sig .tc := ⟨.hbm, 476, rfl⟩
abbrev main_v285 : Ref sig .tc := ⟨.hbm, 477, rfl⟩
abbrev main_v286 : Ref sig .tc := ⟨.hbm, 478, rfl⟩
abbrev main_v287 : Ref sig .tc := ⟨.hbm, 479, rfl⟩
abbrev main_v288 : Ref sig .tc := ⟨.hbm, 480, rfl⟩
abbrev main_v289 : Ref sig .tc := ⟨.hbm, 481, rfl⟩
abbrev main_v290 : Ref sig .tc := ⟨.hbm, 482, rfl⟩
abbrev main_v291 : Ref sig .tc := ⟨.hbm, 483, rfl⟩
abbrev main_v292 : Ref sig .tc := ⟨.hbm, 484, rfl⟩
abbrev main_v293 : Ref sig .tc := ⟨.hbm, 485, rfl⟩
abbrev main_v294 : Ref sig .tc := ⟨.hbm, 486, rfl⟩
abbrev main_v295 : Ref sig .tc := ⟨.hbm, 487, rfl⟩
abbrev main_v296 : Ref sig .tc := ⟨.hbm, 488, rfl⟩
abbrev main_v297 : Ref sig .tc := ⟨.hbm, 489, rfl⟩
abbrev main_v298 : Ref sig .tc := ⟨.hbm, 490, rfl⟩
abbrev main_v299 : Ref sig .tc := ⟨.hbm, 491, rfl⟩
abbrev main_v300 : Ref sig .tc := ⟨.hbm, 492, rfl⟩
abbrev main_v301 : Ref sig .tc := ⟨.hbm, 493, rfl⟩
abbrev main_v302 : Ref sig .tc := ⟨.hbm, 494, rfl⟩
abbrev main_v303 : Ref sig .tc := ⟨.hbm, 495, rfl⟩
abbrev main_v304 : Ref sig .tc := ⟨.hbm, 496, rfl⟩
abbrev main_v305 : Ref sig .tc := ⟨.hbm, 497, rfl⟩
abbrev main_v306 : Ref sig .tc := ⟨.hbm, 498, rfl⟩
abbrev main_v307 : Ref sig .tc := ⟨.hbm, 499, rfl⟩
abbrev main_v308 : Ref sig .tc := ⟨.hbm, 500, rfl⟩
abbrev main_v309 : Ref sig .tc := ⟨.hbm, 501, rfl⟩
abbrev main_v310 : Ref sig .tc := ⟨.hbm, 502, rfl⟩
abbrev main_v311 : Ref sig .tc := ⟨.hbm, 503, rfl⟩
abbrev main_v312 : Ref sig .tc := ⟨.hbm, 504, rfl⟩
abbrev main_v313 : Ref sig .tc := ⟨.hbm, 505, rfl⟩
abbrev main_v314 : Ref sig .tc := ⟨.hbm, 506, rfl⟩
abbrev main_v315 : Ref sig .tc := ⟨.hbm, 507, rfl⟩
abbrev main_v316 : Ref sig .tc := ⟨.hbm, 508, rfl⟩
abbrev main_v317 : Ref sig .tc := ⟨.hbm, 509, rfl⟩
abbrev main_v318 : Ref sig .tc := ⟨.hbm, 510, rfl⟩
abbrev main_v319 : Ref sig .tc := ⟨.hbm, 511, rfl⟩
abbrev main_v320 : Ref sig .tc := ⟨.hbm, 512, rfl⟩
abbrev main_v321 : Ref sig .tc := ⟨.hbm, 513, rfl⟩
abbrev main_v322 : Ref sig .tc := ⟨.hbm, 514, rfl⟩
abbrev main_v323 : Ref sig .tc := ⟨.hbm, 515, rfl⟩
abbrev main_v324 : Ref sig .tc := ⟨.hbm, 516, rfl⟩
abbrev main_v325 : Ref sig .tc := ⟨.hbm, 517, rfl⟩
abbrev main_v326 : Ref sig .tc := ⟨.hbm, 518, rfl⟩
abbrev main_v327 : Ref sig .tc := ⟨.hbm, 519, rfl⟩
abbrev main_v328 : Ref sig .tc := ⟨.hbm, 520, rfl⟩
abbrev main_v329 : Ref sig .tc := ⟨.hbm, 521, rfl⟩
abbrev main_v330 : Ref sig .tc := ⟨.hbm, 522, rfl⟩
abbrev main_v331 : Ref sig .tc := ⟨.hbm, 523, rfl⟩
abbrev main_v332 : Ref sig .tc := ⟨.hbm, 524, rfl⟩
abbrev main_v333 : Ref sig .tc := ⟨.hbm, 525, rfl⟩
abbrev main_v334 : Ref sig .tc := ⟨.hbm, 526, rfl⟩
abbrev main_v335 : Ref sig .tc := ⟨.hbm, 527, rfl⟩
abbrev main_v336 : Ref sig .tc := ⟨.hbm, 528, rfl⟩
abbrev main_v337 : Ref sig .tc := ⟨.hbm, 529, rfl⟩

abbrev nD : Nat := 1
abbrev τ : Topo := Topo.v7x

variable {F : FTy → Type} [FloatOps F]

class Facts₀ : Prop where
  reducesTo_S4x72x240x320_S4x72x240_d3 : S4x72x240x320.ReducesTo [3] S4x72x240
  h_S_ : 0 < S_.numel
  bcast_S_S4x72x240 : S_.BroadcastsInDim S4x72x240 (![] : Fin 0 → Fin S4x72x240.rank)
  slices_S4x72x240x320_S4x72x239x320_0_0_0_0 : S4x72x240x320.Slices ![0, 0, 0, 0] S4x72x239x320
  pads_S4x72x239x320_S4x72x240x320_000_000_100_000 : S4x72x239x320.Pads (![0, 0, 1, 0] : Fin 4 → Nat) ![0, 0, 0, 0] ![0, 0, 0, 0] S4x72x240x320
  slices_S4x72x240x320_S4x72x238x320_0_0_0_0 : S4x72x240x320.Slices ![0, 0, 0, 0] S4x72x238x320
  pads_S4x72x238x320_S4x72x240x320_000_000_200_000 : S4x72x238x320.Pads (![0, 0, 2, 0] : Fin 4 → Nat) ![0, 0, 0, 0] ![0, 0, 0, 0] S4x72x240x320
  slices_S4x72x240x320_S4x72x237x320_0_0_0_0 : S4x72x240x320.Slices ![0, 0, 0, 0] S4x72x237x320
  pads_S4x72x237x320_S4x72x240x320_000_000_300_000 : S4x72x237x320.Pads (![0, 0, 3, 0] : Fin 4 → Nat) ![0, 0, 0, 0] ![0, 0, 0, 0] S4x72x240x320
  slices_S4x72x240x320_S4x72x236x320_0_0_0_0 : S4x72x240x320.Slices ![0, 0, 0, 0] S4x72x236x320
  pads_S4x72x236x320_S4x72x240x320_000_000_400_000 : S4x72x236x320.Pads (![0, 0, 4, 0] : Fin 4 → Nat) ![0, 0, 0, 0] ![0, 0, 0, 0] S4x72x240x320
  slices_S4x72x240x320_S4x72x235x320_0_0_0_0 : S4x72x240x320.Slices ![0, 0, 0, 0] S4x72x235x320
  pads_S4x72x235x320_S4x72x240x320_000_000_500_000 : S4x72x235x320.Pads (![0, 0, 5, 0] : Fin 4 → Nat) ![0, 0, 0, 0] ![0, 0, 0, 0] S4x72x240x320
  slices_S4x72x240x320_S4x72x234x320_0_0_0_0 : S4x72x240x320.Slices ![0, 0, 0, 0] S4x72x234x320
  pads_S4x72x234x320_S4x72x240x320_000_000_600_000 : S4x72x234x320.Pads (![0, 0, 6, 0] : Fin 4 → Nat) ![0, 0, 0, 0] ![0, 0, 0, 0] S4x72x240x320
  slices_S4x72x240x320_S4x72x233x320_0_0_0_0 : S4x72x240x320.Slices ![0, 0, 0, 0] S4x72x233x320
  pads_S4x72x233x320_S4x72x240x320_000_000_700_000 : S4x72x233x320.Pads (![0, 0, 7, 0] : Fin 4 → Nat) ![0, 0, 0, 0] ![0, 0, 0, 0] S4x72x240x320
  slices_S4x72x240x320_S4x72x232x320_0_0_0_0 : S4x72x240x320.Slices ![0, 0, 0, 0] S4x72x232x320
  pads_S4x72x232x320_S4x72x240x320_000_000_800_000 : S4x72x232x320.Pads (![0, 0, 8, 0] : Fin 4 → Nat) ![0, 0, 0, 0] ![0, 0, 0, 0] S4x72x240x320
  slices_S4x72x240x320_S4x72x231x320_0_0_0_0 : S4x72x240x320.Slices ![0, 0, 0, 0] S4x72x231x320
  pads_S4x72x231x320_S4x72x240x320_000_000_900_000 : S4x72x231x320.Pads (![0, 0, 9, 0] : Fin 4 → Nat) ![0, 0, 0, 0] ![0, 0, 0, 0] S4x72x240x320
  slices_S4x72x240x320_S4x72x230x320_0_0_0_0 : S4x72x240x320.Slices ![0, 0, 0, 0] S4x72x230x320
  pads_S4x72x230x320_S4x72x240x320_000_000_1000_000 : S4x72x230x320.Pads (![0, 0, 10, 0] : Fin 4 → Nat) ![0, 0, 0, 0] ![0, 0, 0, 0] S4x72x240x320
  slices_S4x72x240x320_S4x72x229x320_0_0_0_0 : S4x72x240x320.Slices ![0, 0, 0, 0] S4x72x229x320
  pads_S4x72x229x320_S4x72x240x320_000_000_1100_000 : S4x72x229x320.Pads (![0, 0, 11, 0] : Fin 4 → Nat) ![0, 0, 0, 0] ![0, 0, 0, 0] S4x72x240x320
  slices_S4x72x240x320_S4x72x228x320_0_0_0_0 : S4x72x240x320.Slices ![0, 0, 0, 0] S4x72x228x320
  pads_S4x72x228x320_S4x72x240x320_000_000_1200_000 : S4x72x228x320.Pads (![0, 0, 12, 0] : Fin 4 → Nat) ![0, 0, 0, 0] ![0, 0, 0, 0] S4x72x240x320
  slices_S4x72x240x320_S4x72x227x320_0_0_0_0 : S4x72x240x320.Slices ![0, 0, 0, 0] S4x72x227x320
  pads_S4x72x227x320_S4x72x240x320_000_000_1300_000 : S4x72x227x320.Pads (![0, 0, 13, 0] : Fin 4 → Nat) ![0, 0, 0, 0] ![0, 0, 0, 0] S4x72x240x320
  slices_S4x72x240x320_S4x72x226x320_0_0_0_0 : S4x72x240x320.Slices ![0, 0, 0, 0] S4x72x226x320
  pads_S4x72x226x320_S4x72x240x320_000_000_1400_000 : S4x72x226x320.Pads (![0, 0, 14, 0] : Fin 4 → Nat) ![0, 0, 0, 0] ![0, 0, 0, 0] S4x72x240x320
  slices_S4x72x240x320_S4x72x225x320_0_0_0_0 : S4x72x240x320.Slices ![0, 0, 0, 0] S4x72x225x320
  pads_S4x72x225x320_S4x72x240x320_000_000_1500_000 : S4x72x225x320.Pads (![0, 0, 15, 0] : Fin 4 → Nat) ![0, 0, 0, 0] ![0, 0, 0, 0] S4x72x240x320
  slices_S4x72x240x320_S4x72x224x320_0_0_0_0 : S4x72x240x320.Slices ![0, 0, 0, 0] S4x72x224x320
  pads_S4x72x224x320_S4x72x240x320_000_000_1600_000 : S4x72x224x320.Pads (![0, 0, 16, 0] : Fin 4 → Nat) ![0, 0, 0, 0] ![0, 0, 0, 0] S4x72x240x320
  slices_S4x72x240x320_S4x72x223x320_0_0_0_0 : S4x72x240x320.Slices ![0, 0, 0, 0] S4x72x223x320
  pads_S4x72x223x320_S4x72x240x320_000_000_1700_000 : S4x72x223x320.Pads (![0, 0, 17, 0] : Fin 4 → Nat) ![0, 0, 0, 0] ![0, 0, 0, 0] S4x72x240x320
  slices_S4x72x240x320_S4x72x222x320_0_0_0_0 : S4x72x240x320.Slices ![0, 0, 0, 0] S4x72x222x320
  pads_S4x72x222x320_S4x72x240x320_000_000_1800_000 : S4x72x222x320.Pads (![0, 0, 18, 0] : Fin 4 → Nat) ![0, 0, 0, 0] ![0, 0, 0, 0] S4x72x240x320
  slices_S4x72x240x320_S4x72x221x320_0_0_0_0 : S4x72x240x320.Slices ![0, 0, 0, 0] S4x72x221x320
  pads_S4x72x221x320_S4x72x240x320_000_000_1900_000 : S4x72x221x320.Pads (![0, 0, 19, 0] : Fin 4 → Nat) ![0, 0, 0, 0] ![0, 0, 0, 0] S4x72x240x320
  slices_S4x72x240x320_S4x72x220x320_0_0_0_0 : S4x72x240x320.Slices ![0, 0, 0, 0] S4x72x220x320
  pads_S4x72x220x320_S4x72x240x320_000_000_2000_000 : S4x72x220x320.Pads (![0, 0, 20, 0] : Fin 4 → Nat) ![0, 0, 0, 0] ![0, 0, 0, 0] S4x72x240x320
  slices_S4x72x240x320_S4x72x219x320_0_0_0_0 : S4x72x240x320.Slices ![0, 0, 0, 0] S4x72x219x320
  pads_S4x72x219x320_S4x72x240x320_000_000_2100_000 : S4x72x219x320.Pads (![0, 0, 21, 0] : Fin 4 → Nat) ![0, 0, 0, 0] ![0, 0, 0, 0] S4x72x240x320
  slices_S4x72x240x320_S4x72x218x320_0_0_0_0 : S4x72x240x320.Slices ![0, 0, 0, 0] S4x72x218x320
  pads_S4x72x218x320_S4x72x240x320_000_000_2200_000 : S4x72x218x320.Pads (![0, 0, 22, 0] : Fin 4 → Nat) ![0, 0, 0, 0] ![0, 0, 0, 0] S4x72x240x320
  slices_S4x72x240x320_S4x72x217x320_0_0_0_0 : S4x72x240x320.Slices ![0, 0, 0, 0] S4x72x217x320
  pads_S4x72x217x320_S4x72x240x320_000_000_2300_000 : S4x72x217x320.Pads (![0, 0, 23, 0] : Fin 4 → Nat) ![0, 0, 0, 0] ![0, 0, 0, 0] S4x72x240x320
  slices_S4x72x240x320_S4x72x216x320_0_0_0_0 : S4x72x240x320.Slices ![0, 0, 0, 0] S4x72x216x320
  pads_S4x72x216x320_S4x72x240x320_000_000_2400_000 : S4x72x216x320.Pads (![0, 0, 24, 0] : Fin 4 → Nat) ![0, 0, 0, 0] ![0, 0, 0, 0] S4x72x240x320
  slices_S4x72x240x320_S4x72x215x320_0_0_0_0 : S4x72x240x320.Slices ![0, 0, 0, 0] S4x72x215x320
  pads_S4x72x215x320_S4x72x240x320_000_000_2500_000 : S4x72x215x320.Pads (![0, 0, 25, 0] : Fin 4 → Nat) ![0, 0, 0, 0] ![0, 0, 0, 0] S4x72x240x320
  slices_S4x72x240x320_S4x72x214x320_0_0_0_0 : S4x72x240x320.Slices ![0, 0, 0, 0] S4x72x214x320
  pads_S4x72x214x320_S4x72x240x320_000_000_2600_000 : S4x72x214x320.Pads (![0, 0, 26, 0] : Fin 4 → Nat) ![0, 0, 0, 0] ![0, 0, 0, 0] S4x72x240x320
  slices_S4x72x240x320_S4x72x213x320_0_0_0_0 : S4x72x240x320.Slices ![0, 0, 0, 0] S4x72x213x320
  pads_S4x72x213x320_S4x72x240x320_000_000_2700_000 : S4x72x213x320.Pads (![0, 0, 27, 0] : Fin 4 → Nat) ![0, 0, 0, 0] ![0, 0, 0, 0] S4x72x240x320
  slices_S4x72x240x320_S4x72x212x320_0_0_0_0 : S4x72x240x320.Slices ![0, 0, 0, 0] S4x72x212x320
  pads_S4x72x212x320_S4x72x240x320_000_000_2800_000 : S4x72x212x320.Pads (![0, 0, 28, 0] : Fin 4 → Nat) ![0, 0, 0, 0] ![0, 0, 0, 0] S4x72x240x320
  slices_S4x72x240x320_S4x72x211x320_0_0_0_0 : S4x72x240x320.Slices ![0, 0, 0, 0] S4x72x211x320
  pads_S4x72x211x320_S4x72x240x320_000_000_2900_000 : S4x72x211x320.Pads (![0, 0, 29, 0] : Fin 4 → Nat) ![0, 0, 0, 0] ![0, 0, 0, 0] S4x72x240x320
  slices_S4x72x240x320_S4x72x210x320_0_0_0_0 : S4x72x240x320.Slices ![0, 0, 0, 0] S4x72x210x320
  pads_S4x72x210x320_S4x72x240x320_000_000_3000_000 : S4x72x210x320.Pads (![0, 0, 30, 0] : Fin 4 → Nat) ![0, 0, 0, 0] ![0, 0, 0, 0] S4x72x240x320
  slices_S4x72x240x320_S4x72x209x320_0_0_0_0 : S4x72x240x320.Slices ![0, 0, 0, 0] S4x72x209x320
  pads_S4x72x209x320_S4x72x240x320_000_000_3100_000 : S4x72x209x320.Pads (![0, 0, 31, 0] : Fin 4 → Nat) ![0, 0, 0, 0] ![0, 0, 0, 0] S4x72x240x320
  slices_S4x72x240x320_S4x72x208x320_0_0_0_0 : S4x72x240x320.Slices ![0, 0, 0, 0] S4x72x208x320
  pads_S4x72x208x320_S4x72x240x320_000_000_3200_000 : S4x72x208x320.Pads (![0, 0, 32, 0] : Fin 4 → Nat) ![0, 0, 0, 0] ![0, 0, 0, 0] S4x72x240x320
  slices_S4x72x240x320_S4x72x207x320_0_0_0_0 : S4x72x240x320.Slices ![0, 0, 0, 0] S4x72x207x320
  pads_S4x72x207x320_S4x72x240x320_000_000_3300_000 : S4x72x207x320.Pads (![0, 0, 33, 0] : Fin 4 → Nat) ![0, 0, 0, 0] ![0, 0, 0, 0] S4x72x240x320
  slices_S4x72x240x320_S4x72x206x320_0_0_0_0 : S4x72x240x320.Slices ![0, 0, 0, 0] S4x72x206x320
  pads_S4x72x206x320_S4x72x240x320_000_000_3400_000 : S4x72x206x320.Pads (![0, 0, 34, 0] : Fin 4 → Nat) ![0, 0, 0, 0] ![0, 0, 0, 0] S4x72x240x320
  slices_S4x72x240x320_S4x72x205x320_0_0_0_0 : S4x72x240x320.Slices ![0, 0, 0, 0] S4x72x205x320
  pads_S4x72x205x320_S4x72x240x320_000_000_3500_000 : S4x72x205x320.Pads (![0, 0, 35, 0] : Fin 4 → Nat) ![0, 0, 0, 0] ![0, 0, 0, 0] S4x72x240x320
  slices_S4x72x240x320_S4x72x204x320_0_0_0_0 : S4x72x240x320.Slices ![0, 0, 0, 0] S4x72x204x320
  pads_S4x72x204x320_S4x72x240x320_000_000_3600_000 : S4x72x204x320.Pads (![0, 0, 36, 0] : Fin 4 → Nat) ![0, 0, 0, 0] ![0, 0, 0, 0] S4x72x240x320
  slices_S4x72x240x320_S4x72x203x320_0_0_0_0 : S4x72x240x320.Slices ![0, 0, 0, 0] S4x72x203x320
  pads_S4x72x203x320_S4x72x240x320_000_000_3700_000 : S4x72x203x320.Pads (![0, 0, 37, 0] : Fin 4 → Nat) ![0, 0, 0, 0] ![0, 0, 0, 0] S4x72x240x320
  slices_S4x72x240x320_S4x72x202x320_0_0_0_0 : S4x72x240x320.Slices ![0, 0, 0, 0] S4x72x202x320
  pads_S4x72x202x320_S4x72x240x320_000_000_3800_000 : S4x72x202x320.Pads (![0, 0, 38, 0] : Fin 4 → Nat) ![0, 0, 0, 0] ![0, 0, 0, 0] S4x72x240x320
  slices_S4x72x240x320_S4x72x201x320_0_0_0_0 : S4x72x240x320.Slices ![0, 0, 0, 0] S4x72x201x320
  pads_S4x72x201x320_S4x72x240x320_000_000_3900_000 : S4x72x201x320.Pads (![0, 0, 39, 0] : Fin 4 → Nat) ![0, 0, 0, 0] ![0, 0, 0, 0] S4x72x240x320
  slices_S4x72x240x320_S4x72x200x320_0_0_0_0 : S4x72x240x320.Slices ![0, 0, 0, 0] S4x72x200x320
  pads_S4x72x200x320_S4x72x240x320_000_000_4000_000 : S4x72x200x320.Pads (![0, 0, 40, 0] : Fin 4 → Nat) ![0, 0, 0, 0] ![0, 0, 0, 0] S4x72x240x320
  slices_S4x72x240x320_S4x72x199x320_0_0_0_0 : S4x72x240x320.Slices ![0, 0, 0, 0] S4x72x199x320
  pads_S4x72x199x320_S4x72x240x320_000_000_4100_000 : S4x72x199x320.Pads (![0, 0, 41, 0] : Fin 4 → Nat) ![0, 0, 0, 0] ![0, 0, 0, 0] S4x72x240x320
  slices_S4x72x240x320_S4x72x198x320_0_0_0_0 : S4x72x240x320.Slices ![0, 0, 0, 0] S4x72x198x320
  pads_S4x72x198x320_S4x72x240x320_000_000_4200_000 : S4x72x198x320.Pads (![0, 0, 42, 0] : Fin 4 → Nat) ![0, 0, 0, 0] ![0, 0, 0, 0] S4x72x240x320
  slices_S4x72x240x320_S4x72x197x320_0_0_0_0 : S4x72x240x320.Slices ![0, 0, 0, 0] S4x72x197x320
  pads_S4x72x197x320_S4x72x240x320_000_000_4300_000 : S4x72x197x320.Pads (![0, 0, 43, 0] : Fin 4 → Nat) ![0, 0, 0, 0] ![0, 0, 0, 0] S4x72x240x320
  slices_S4x72x240x320_S4x72x196x320_0_0_0_0 : S4x72x240x320.Slices ![0, 0, 0, 0] S4x72x196x320
  pads_S4x72x196x320_S4x72x240x320_000_000_4400_000 : S4x72x196x320.Pads (![0, 0, 44, 0] : Fin 4 → Nat) ![0, 0, 0, 0] ![0, 0, 0, 0] S4x72x240x320
  slices_S4x72x240x320_S4x72x195x320_0_0_0_0 : S4x72x240x320.Slices ![0, 0, 0, 0] S4x72x195x320
  pads_S4x72x195x320_S4x72x240x320_000_000_4500_000 : S4x72x195x320.Pads (![0, 0, 45, 0] : Fin 4 → Nat) ![0, 0, 0, 0] ![0, 0, 0, 0] S4x72x240x320
  slices_S4x72x240x320_S4x72x194x320_0_0_0_0 : S4x72x240x320.Slices ![0, 0, 0, 0] S4x72x194x320
  pads_S4x72x194x320_S4x72x240x320_000_000_4600_000 : S4x72x194x320.Pads (![0, 0, 46, 0] : Fin 4 → Nat) ![0, 0, 0, 0] ![0, 0, 0, 0] S4x72x240x320
  slices_S4x72x240x320_S4x72x193x320_0_0_0_0 : S4x72x240x320.Slices ![0, 0, 0, 0] S4x72x193x320
  pads_S4x72x193x320_S4x72x240x320_000_000_4700_000 : S4x72x193x320.Pads (![0, 0, 47, 0] : Fin 4 → Nat) ![0, 0, 0, 0] ![0, 0, 0, 0] S4x72x240x320
  bcast_S4x72x240_S4x72x240x1_0_1_2 : S4x72x240.BroadcastsInDim S4x72x240x1 (![0, 1, 2] : Fin 3 → Fin S4x72x240x1.rank)
  concatenates_S4x72x240x1_S4x72x240x1_S4x72x240x1_S4x72x240x1_S4x72x240x1_S4x72x240x1_S4x72x240x1_S4x72x240x1_S4x72x240x1_S4x72x240x1_S4x72x240x1_S4x72x240x1_S4x72x240x1_S4x72x240x1_S4x72x240x1_S4x72x240x1_S4x72x240x16_d3 : Shape.Concatenates [S4x72x240x1, S4x72x240x1, S4x72x240x1, S4x72x240x1, S4x72x240x1, S4x72x240x1, S4x72x240x1, S4x72x240x1, S4x72x240x1, S4x72x240x1, S4x72x240x1, S4x72x240x1, S4x72x240x1, S4x72x240x1, S4x72x240x1, S4x72x240x1] S4x72x240x16 3
  concatenates_S4x72x240x16_S4x72x240x16_S4x72x240x16_S4x72x240x48_d3 : Shape.Concatenates [S4x72x240x16, S4x72x240x16, S4x72x240x16] S4x72x240x48 3

variable [Facts₀]

class Facts : Prop extends Facts₀ where

variable [Facts]
-- ==== Proof.ReferencePlanes.lean ====
/-
  The reference's planes, one at a time.

  @main is a straight line of 528 host operations.  Its first 476 compute the forty-eight disparity planes one after
  the other — plane 0 in six operations, each later plane in ten (a slice of `right`, the zero it pads with, the pad,
  the product with `left`, the channel sum from zero, the division by 320).  A plane reads only the two arguments and
  writes only buffers of its own: from ANY contents its result buffer ends at `hostPlane` of the two argument arrays,
  and every buffer outside its own ten keeps its contents.
-/
import proofs.«116120_j41858751267257_2_alg».proof.Proof.ReferenceOps
import Idealize.ShloMosaic.Lib.Pipeline.Frame

noncomputable section

namespace Cert.ReferenceIdeal.Value

open Cert.ReferenceIdeal Cert.ReferenceIdeal.Gen
open Idealize.ShloMosaic Idealize.ShloMosaic.TcCoe Idealize.SL.Sem Idealize.ShloMosaic.StableHlo

variable {F : FTy → Type} [FloatOps F]

/-! ## One plane -/

/-- Plane `d ≥ 1` as the reference composes it from the arguments `A0` (left) and `A1` (right): `A1` without its last
    `d` columns (`e = 240 - d` are left), `d` zero columns padded in front, times `A0`, summed over the channels
    from zero, divided by 320. -/
def hostPlane (e d : Nat) (hs : S4x72x240x320.Slices ![0, 0, 0, 0] ⟨4, ![4, 72, e, 320]⟩)
    (hp : (⟨4, ![4, 72, e, 320]⟩ : Shape).Pads ![0, 0, d, 0] ![0, 0, 0, 0] ![0, 0, 0, 0] S4x72x240x320)
    (A0 A1 : FVec F S4x72x240x320 .f32) : FVec F S4x72x240 .f32 :=
  Host.divf (Host.reduceAdd (mulf A0 (pad S4x72x240x320 ![0, 0, d, 0] ![0, 0, 0, 0] ![0, 0, 0, 0]
      (extractStridedSlice ⟨4, ![4, 72, e, 320]⟩ ![0, 0, 0, 0] A1 hs) (sitofp (F := F) .f32 (constantI S_ 32 0#32)) hp h_S_))
      (constant S_ .f32 0x00000000#32) reducesTo_S4x72x240x320_S4x72x240_d3 h_S_)
    (broadcastInDim S4x72x240 ![] bcast_S_S4x72x240 (constant S_ .f32 0x43A00000#32))

/-- Plane `0`: nothing is cut or padded. -/
def hostPlane0 (A0 A1 : FVec F S4x72x240x320 .f32) : FVec F S4x72x240 .f32 :=
  Host.divf (Host.reduceAdd (mulf A0 A1) (constant S_ .f32 0x00000000#32) reducesTo_S4x72x240x320_S4x72x240_d3 h_S_)
    (broadcastInDim S4x72x240 ![] bcast_S_S4x72x240 (constant S_ .f32 0x43A00000#32))

/-- The buffers plane 0's six operations write. -/
abbrev plane0_W : List (Ref sig .tc) := [main_v0, main_cst, main_v1, main_cst_0, main_v2, main_v3]

theorem plane0_out (V : Valuation τ sig (Elt F)) :
    after plane0 V (no_index (Proc.devRef .tc main_v3))
      = hostPlane0 (V (Proc.devRef .tc main_arg0)) (V (Proc.devRef .tc main_arg1)) := by
  unfold hostPlane0
  after_results_simp <;> rfl

theorem plane0_writes : (plane0 : List (HloOp τ sig (Elt F))).Forall fun op =>
    op.writes ⊆ (plane0_W.map (Proc.devRef (τ := τ) .tc)).toFinset := by
  simp only [List.Forall]
  refine ⟨?_, ?_, ?_, ?_, ?_, ?_⟩ <;>
    (simp only [nullary_writes, unary_writes, binary_writes, Finset.singleton_subset_iff, List.mem_toFinset]
     exact List.mem_map_of_mem (by decide))

theorem plane0_keep (V : Valuation τ sig (Elt F)) (r : Ref sig .tc) (h : r ∉ plane0_W) :
    after plane0 V (no_index (Proc.devRef .tc r)) = V (Proc.devRef .tc r) :=
  after_of_writes_sub plane0 V plane0_writes h

set_option hygiene false in
open Lean Elab Command in
/-- `plane_lemmas k`, for a disparity `1 ≤ k ≤ 47`, states and proves the three facts about plane `k`'s ten operations
    `plane_k`, named after the buffers the printed program gives them (the slice `main_v(6k-2)`, the integer zero and
    its conversion, the pad `main_v(6k-1)`, the product, the two constants, the sum, the broadcast, and the result
    `main_v(6k+3)`): `plane_k_out` — from ANY contents `V` the result buffer ends at `hostPlane` of `V`'s two argument
    arrays; `plane_k_writes` — the ten operations write the ten buffers `plane_k_W`; `plane_k_keep` — every other
    buffer keeps its contents. -/
elab "plane_lemmas " kk:num : command => do
  let k := kk.getNat
  let e := 240 - k
  let idn (s : String) : Ident := mkIdent (Name.mkSimple s)
  let pl := idn s!"plane{k}"
  let out := idn s!"main_v{6*k+3}"
  let hs := idn s!"slices_S4x72x240x320_S4x72x{e}x320_0_0_0_0"
  let hp := idn s!"pads_S4x72x{e}x320_S4x72x240x320_000_000_{k}00_000"
  let cname := if k == 1 then "main_c" else s!"main_c_{3*(k-1)}"
  let ws : Array Term := #[idn s!"main_v{6*k-2}", idn cname, idn s!"main_call{k-1}_v0", idn s!"main_v{6*k-1}",
    idn s!"main_v{6*k}", idn s!"main_cst_{3*k-2}", idn s!"main_v{6*k+1}", idn s!"main_cst_{3*k-1}", idn s!"main_v{6*k+2}", out]
  let nOut := idn s!"plane{k}_out"
  let nW := idn s!"plane{k}_W"
  let nWr := idn s!"plane{k}_writes"
  let nKeep := idn s!"plane{k}_keep"
  let eLit := Syntax.mkNumLit (toString e)
  let kLit := Syntax.mkNumLit (toString k)
  elabCommand (← `(theorem $nOut (V : Valuation τ sig (Elt F)) :
      after $pl V (no_index (Proc.devRef .tc $out))
        = hostPlane $eLit $kLit $hs $hp (V (Proc.devRef .tc main_arg0)) (V (Proc.devRef .tc main_arg1)) := by
    unfold hostPlane
    after_results_simp <;> rfl))
  elabCommand (← `(abbrev $nW : List (Ref sig .tc) := [$ws,*]))
  elabCommand (← `(theorem $nWr : ($pl : List (HloOp τ sig (Elt F))).Forall fun op =>
      op.writes ⊆ (($nW).map (Proc.devRef (τ := τ) .tc)).toFinset := by
    simp only [List.Forall]
    refine ⟨?_, ?_, ?_, ?_, ?_, ?_, ?_, ?_, ?_, ?_⟩ <;>
      (simp only [nullary_writes, unary_writes, binary_writes, Finset.singleton_subset_iff, List.mem_toFinset]
       exact List.mem_map_of_mem (by decide))))
  elabCommand (← `(theorem $nKeep (V : Valuation τ sig (Elt F)) (r : Ref sig .tc) (h : r ∉ $nW) :
      after $pl V (no_index (Proc.devRef .tc r)) = V (Proc.devRef .tc r) :=
    after_of_writes_sub $pl V $nWr h))

plane_lemmas 1
plane_lemmas 2
plane_lemmas 3
plane_lemmas 4
plane_lemmas 5
plane_lemmas 6
plane_lemmas 7
plane_lemmas 8
plane_lemmas 9
plane_lemmas 10
plane_lemmas 11
plane_lemmas 12
plane_lemmas 13
plane_lemmas 14
plane_lemmas 15
plane_lemmas 16
plane_lemmas 17
plane_lemmas 18
plane_lemmas 19
plane_lemmas 20
plane_lemmas 21
plane_lemmas 22
plane_lemmas 23
plane_lemmas 24
plane_lemmas 25
plane_lemmas 26
plane_lemmas 27
plane_lemmas 28
plane_lemmas 29
plane_lemmas 30
plane_lemmas 31
plane_lemmas 32
plane_lemmas 33
plane_lemmas 34
plane_lemmas 35
plane_lemmas 36
plane_lemmas 37
plane_lemmas 38
plane_lemmas 39
plane_lemmas 40
plane_lemmas 41
plane_lemmas 42
plane_lemmas 43
plane_lemmas 44
plane_lemmas 45
plane_lemmas 46
plane_lemmas 47

end Cert.ReferenceIdeal.Value

end
-- ==== Proof.ReferenceTail.lean ====
/-
  The reference's closing stretch: the last 52 operations give every plane a trailing axis of extent one and
  concatenate the planes, sixteen at a time and then the three groups.  From ANY contents the result buffer ends at
  that stack of the planes' buffers, and only the stretch's own 52 buffers are written.
-/
import proofs.«116120_j41858751267257_2_alg».proof.Proof.ReferenceOps
import Idealize.ShloMosaic.Lib.Pipeline.Frame

noncomputable section

namespace Cert.ReferenceIdeal.Value

open Cert.ReferenceIdeal Cert.ReferenceIdeal.Gen
open Idealize.ShloMosaic Idealize.ShloMosaic.TcCoe Idealize.SL.Sem Idealize.ShloMosaic.StableHlo

variable {F : FTy → Type} [FloatOps F]

/-! ## The closing stretch -/

/-- The buffers the closing stretch writes: the forty-eight broadcasts, the three groups, the result. -/
abbrev tail_W : List (Ref sig .tc) :=
  [main_v286, main_v287, main_v288, main_v289, main_v290, main_v291, main_v292, main_v293, main_v294, main_v295, main_v296, main_v297, main_v298, main_v299, main_v300, main_v301, main_v302, main_v303, main_v304, main_v305, main_v306, main_v307, main_v308, main_v309, main_v310, main_v311, main_v312, main_v313, main_v314, main_v315, main_v316, main_v317, main_v318, main_v319, main_v320, main_v321, main_v322, main_v323, main_v324, main_v325, main_v326, main_v327, main_v328, main_v329, main_v330, main_v331, main_v332, main_v333, main_v334, main_v335, main_v336, main_v337]

set_option maxHeartbeats 0 in
set_option maxRecDepth 65536 in
/-- The closing stretch, from ANY contents `W`: the result buffer ends at the planes' buffers as `W` has them, each
    given a trailing axis of extent one, laid side by side sixteen at a time and the three groups side by side; every
    operation writes one of `tail_W`. -/
theorem tail_facts :
    (∀ W : Valuation τ sig (Elt F), after tail W (no_index (Proc.devRef .tc main_v337)) =
      concatenate S4x72x240x48 3
        [⟨S4x72x240x16, concatenate S4x72x240x16 3
          [⟨S4x72x240x1, broadcastInDim S4x72x240x1 ![0, 1, 2] bcast_S4x72x240_S4x72x240x1_0_1_2 (W (Proc.devRef .tc main_v3))⟩,
           ⟨S4x72x240x1, broadcastInDim S4x72x240x1 ![0, 1, 2] bcast_S4x72x240_S4x72x240x1_0_1_2 (W (Proc.devRef .tc main_v9))⟩,
           ⟨S4x72x240x1, broadcastInDim S4x72x240x1 ![0, 1, 2] bcast_S4x72x240_S4x72x240x1_0_1_2 (W (Proc.devRef .tc main_v15))⟩,
           ⟨S4x72x240x1, broadcastInDim S4x72x240x1 ![0, 1, 2] bcast_S4x72x240_S4x72x240x1_0_1_2 (W (Proc.devRef .tc main_v21))⟩,
           ⟨S4x72x240x1, broadcastInDim S4x72x240x1 ![0, 1, 2] bcast_S4x72x240_S4x72x240x1_0_1_2 (W (Proc.devRef .tc main_v27))⟩,
           ⟨S4x72x240x1, broadcastInDim S4x72x240x1 ![0, 1, 2] bcast_S4x72x240_S4x72x240x1_0_1_2 (W (Proc.devRef .tc main_v33))⟩,
           ⟨S4x72x240x1, broadcastInDim S4x72x240x1 ![0, 1, 2] bcast_S4x72x240_S4x72x240x1_0_1_2 (W (Proc.devRef .tc main_v39))⟩,
           ⟨S4x72x240x1, broadcastInDim S4x72x240x1 ![0, 1, 2] bcast_S4x72x240_S4x72x240x1_0_1_2 (W (Proc.devRef .tc main_v45))⟩,
           ⟨S4x72x240x1, broadcastInDim S4x72x240x1 ![0, 1, 2] bcast_S4x72x240_S4x72x240x1_0_1_2 (W (Proc.devRef .tc main_v51))⟩,
           ⟨S4x72x240x1, broadcastInDim S4x72x240x1 ![0, 1, 2] bcast_S4x72x240_S4x72x240x1_0_1_2 (W (Proc.devRef .tc main_v57))⟩,
           ⟨S4x72x240x1, broadcastInDim S4x72x240x1 ![0, 1, 2] bcast_S4x72x240_S4x72x240x1_0_1_2 (W (Proc.devRef .tc main_v63))⟩,
           ⟨S4x72x240x1, broadcastInDim S4x72x240x1 ![0, 1, 2] bcast_S4x72x240_S4x72x240x1_0_1_2 (W (Proc.devRef .tc main_v69))⟩,
           ⟨S4x72x240x1, broadcastInDim S4x72x240x1 ![0, 1, 2] bcast_S4x72x240_S4x72x240x1_0_1_2 (W (Proc.devRef .tc main_v75))⟩,
           ⟨S4x72x240x1, broadcastInDim S4x72x240x1 ![0, 1, 2] bcast_S4x72x240_S4x72x240x1_0_1_2 (W (Proc.devRef .tc main_v81))⟩,
           ⟨S4x72x240x1, broadcastInDim S4x72x240x1 ![0, 1, 2] bcast_S4x72x240_S4x72x240x1_0_1_2 (W (Proc.devRef .tc main_v87))⟩,
           ⟨S4x72x240x1, broadcastInDim S4x72x240x1 ![0, 1, 2] bcast_S4x72x240_S4x72x240x1_0_1_2 (W (Proc.devRef .tc main_v93))⟩]
          concatenates_S4x72x240x1_S4x72x240x1_S4x72x240x1_S4x72x240x1_S4x72x240x1_S4x72x240x1_S4x72x240x1_S4x72x240x1_S4x72x240x1_S4x72x240x1_S4x72x240x1_S4x72x240x1_S4x72x240x1_S4x72x240x1_S4x72x240x1_S4x72x240x1_S4x72x240x16_d3⟩,
         ⟨S4x72x240x16, concatenate S4x72x240x16 3
          [⟨S4x72x240x1, broadcastInDim S4x72x240x1 ![0, 1, 2] bcast_S4x72x240_S4x72x240x1_0_1_2 (W (Proc.devRef .tc main_v99))⟩,
           ⟨S4x72x240x1, broadcastInDim S4x72x240x1 ![0, 1, 2] bcast_S4x72x240_S4x72x240x1_0_1_2 (W (Proc.devRef .tc main_v105))⟩,
           ⟨S4x72x240x1, broadcastInDim S4x72x240x1 ![0, 1, 2] bcast_S4x72x240_S4x72x240x1_0_1_2 (W (Proc.devRef .tc main_v111))⟩,
           ⟨S4x72x240x1, broadcastInDim S4x72x240x1 ![0, 1, 2] bcast_S4x72x240_S4x72x240x1_0_1_2 (W (Proc.devRef .tc main_v117))⟩,
           ⟨S4x72x240x1, broadcastInDim S4x72x240x1 ![0, 1, 2] bcast_S4x72x240_S4x72x240x1_0_1_2 (W (Proc.devRef .tc main_v123))⟩,
           ⟨S4x72x240x1, broadcastInDim S4x72x240x1 ![0, 1, 2] bcast_S4x72x240_S4x72x240x1_0_1_2 (W (Proc.devRef .tc main_v129))⟩,
           ⟨S4x72x240x1, broadcastInDim S4x72x240x1 ![0, 1, 2] bcast_S4x72x240_S4x72x240x1_0_1_2 (W (Proc.devRef .tc main_v135))⟩,
           ⟨S4x72x240x1, broadcastInDim S4x72x240x1 ![0, 1, 2] bcast_S4x72x240_S4x72x240x1_0_1_2 (W (Proc.devRef .tc main_v141))⟩,
           ⟨S4x72x240x1, broadcastInDim S4x72x240x1 ![0, 1, 2] bcast_S4x72x240_S4x72x240x1_0_1_2 (W (Proc.devRef .tc main_v147))⟩,
           ⟨S4x72x240x1, broadcastInDim S4x72x240x1 ![0, 1, 2] bcast_S4x72x240_S4x72x240x1_0_1_2 (W (Proc.devRef .tc main_v153))⟩,
           ⟨S4x72x240x1, broadcastInDim S4x72x240x1 ![0, 1, 2] bcast_S4x72x240_S4x72x240x1_0_1_2 (W (Proc.devRef .tc main_v159))⟩,
           ⟨S4x72x240x1, broadcastInDim S4x72x240x1 ![0, 1, 2] bcast_S4x72x240_S4x72x240x1_0_1_2 (W (Proc.devRef .tc main_v165))⟩,
           ⟨S4x72x240x1, broadcastInDim S4x72x240x1 ![0, 1, 2] bcast_S4x72x240_S4x72x240x1_0_1_2 (W (Proc.devRef .tc main_v171))⟩,
           ⟨S4x72x240x1, broadcastInDim S4x72x240x1 ![0, 1, 2] bcast_S4x72x240_S4x72x240x1_0_1_2 (W (Proc.devRef .tc main_v177))⟩,
           ⟨S4x72x240x1, broadcastInDim S4x72x240x1 ![0, 1, 2] bcast_S4x72x240_S4x72x240x1_0_1_2 (W (Proc.devRef .tc main_v183))⟩,
           ⟨S4x72x240x1, broadcastInDim S4x72x240x1 ![0, 1, 2] bcast_S4x72x240_S4x72x240x1_0_1_2 (W (Proc.devRef .tc main_v189))⟩]
          concatenates_S4x72x240x1_S4x72x240x1_S4x72x240x1_S4x72x240x1_S4x72x240x1_S4x72x240x1_S4x72x240x1_S4x72x240x1_S4x72x240x1_S4x72x240x1_S4x72x240x1_S4x72x240x1_S4x72x240x1_S4x72x240x1_S4x72x240x1_S4x72x240x1_S4x72x240x16_d3⟩,
         ⟨S4x72x240x16, concatenate S4x72x240x16 3
          [⟨S4x72x240x1, broadcastInDim S4x72x240x1 ![0, 1, 2] bcast_S4x72x240_S4x72x240x1_0_1_2 (W (Proc.devRef .tc main_v195))⟩,
           ⟨S4x72x240x1, broadcastInDim S4x72x240x1 ![0, 1, 2] bcast_S4x72x240_S4x72x240x1_0_1_2 (W (Proc.devRef .tc main_v201))⟩,
           ⟨S4x72x240x1, broadcastInDim S4x72x240x1 ![0, 1, 2] bcast_S4x72x240_S4x72x240x1_0_1_2 (W (Proc.devRef .tc main_v207))⟩,
           ⟨S4x72x240x1, broadcastInDim S4x72x240x1 ![0, 1, 2] bcast_S4x72x240_S4x72x240x1_0_1_2 (W (Proc.devRef .tc main_v213))⟩,
           ⟨S4x72x240x1, broadcastInDim S4x72x240x1 ![0, 1, 2] bcast_S4x72x240_S4x72x240x1_0_1_2 (W (Proc.devRef .tc main_v219))⟩,
           ⟨S4x72x240x1, broadcastInDim S4x72x240x1 ![0, 1, 2] bcast_S4x72x240_S4x72x240x1_0_1_2 (W (Proc.devRef .tc main_v225))⟩,
           ⟨S4x72x240x1, broadcastInDim S4x72x240x1 ![0, 1, 2] bcast_S4x72x240_S4x72x240x1_0_1_2 (W (Proc.devRef .tc main_v231))⟩,
           ⟨S4x72x240x1, broadcastInDim S4x72x240x1 ![0, 1, 2] bcast_S4x72x240_S4x72x240x1_0_1_2 (W (Proc.devRef .tc main_v237))⟩,
           ⟨S4x72x240x1, broadcastInDim S4x72x240x1 ![0, 1, 2] bcast_S4x72x240_S4x72x240x1_0_1_2 (W (Proc.devRef .tc main_v243))⟩,
           ⟨S4x72x240x1, broadcastInDim S4x72x240x1 ![0, 1, 2] bcast_S4x72x240_S4x72x240x1_0_1_2 (W (Proc.devRef .tc main_v249))⟩,
           ⟨S4x72x240x1, broadcastInDim S4x72x240x1 ![0, 1, 2] bcast_S4x72x240_S4x72x240x1_0_1_2 (W (Proc.devRef .tc main_v255))⟩,
           ⟨S4x72x240x1, broadcastInDim S4x72x240x1 ![0, 1, 2] bcast_S4x72x240_S4x72x240x1_0_1_2 (W (Proc.devRef .tc main_v261))⟩,
           ⟨S4x72x240x1, broadcastInDim S4x72x240x1 ![0, 1, 2] bcast_S4x72x240_S4x72x240x1_0_1_2 (W (Proc.devRef .tc main_v267))⟩,
           ⟨S4x72x240x1, broadcastInDim S4x72x240x1 ![0, 1, 2] bcast_S4x72x240_S4x72x240x1_0_1_2 (W (Proc.devRef .tc main_v273))⟩,
           ⟨S4x72x240x1, broadcastInDim S4x72x240x1 ![0, 1, 2] bcast_S4x72x240_S4x72x240x1_0_1_2 (W (Proc.devRef .tc main_v279))⟩,
           ⟨S4x72x240x1, broadcastInDim S4x72x240x1 ![0, 1, 2] bcast_S4x72x240_S4x72x240x1_0_1_2 (W (Proc.devRef .tc main_v285))⟩]
          concatenates_S4x72x240x1_S4x72x240x1_S4x72x240x1_S4x72x240x1_S4x72x240x1_S4x72x240x1_S4x72x240x1_S4x72x240x1_S4x72x240x1_S4x72x240x1_S4x72x240x1_S4x72x240x1_S4x72x240x1_S4x72x240x1_S4x72x240x1_S4x72x240x1_S4x72x240x16_d3⟩]
        concatenates_S4x72x240x16_S4x72x240x16_S4x72x240x16_S4x72x240x48_d3)
    ∧ (tail : List (HloOp τ sig (Elt F))).Forall fun op =>
        op.writes ⊆ (tail_W.map (Proc.devRef (τ := τ) .tc)).toFinset := by
  refine ⟨fun W => ?_, ?_⟩
  · -- the last concatenation reads the three groups, each group its sixteen broadcasts, each broadcast its plane
    simp (disch := decide) only [after_cons, after_nil, catOp0, catOp1, catOp2, catOp3, nary_result', unary_result',
      nary_result_ne', unary_result_ne']
    simp (disch := decide) only [catFn0, catFn1, catFn2, catFn3, catXs0, catXs1, catXs2, catXs3, Matrix.cons_val,
      nary_result', unary_result', nary_result_ne', unary_result_ne']
    rfl
  · simp only [List.Forall]
    repeat' apply And.intro
    all_goals
      simp only [catOp0, catOp1, catOp2, catOp3, unary_writes, nary_writes, Finset.singleton_subset_iff, List.mem_toFinset]
      exact List.mem_map_of_mem (by decide)

theorem tail_out (W : Valuation τ sig (Elt F)) : after tail W (no_index (Proc.devRef .tc main_v337)) =
      concatenate S4x72x240x48 3
        [⟨S4x72x240x16, concatenate S4x72x240x16 3
          [⟨S4x72x240x1, broadcastInDim S4x72x240x1 ![0, 1, 2] bcast_S4x72x240_S4x72x240x1_0_1_2 (W (Proc.devRef .tc main_v3))⟩,
           ⟨S4x72x240x1, broadcastInDim S4x72x240x1 ![0, 1, 2] bcast_S4x72x240_S4x72x240x1_0_1_2 (W (Proc.devRef .tc main_v9))⟩,
           ⟨S4x72x240x1, broadcastInDim S4x72x240x1 ![0, 1, 2] bcast_S4x72x240_S4x72x240x1_0_1_2 (W (Proc.devRef .tc main_v15))⟩,
           ⟨S4x72x240x1, broadcastInDim S4x72x240x1 ![0, 1, 2] bcast_S4x72x240_S4x72x240x1_0_1_2 (W (Proc.devRef .tc main_v21))⟩,
           ⟨S4x72x240x1, broadcastInDim S4x72x240x1 ![0, 1, 2] bcast_S4x72x240_S4x72x240x1_0_1_2 (W (Proc.devRef .tc main_v27))⟩,
           ⟨S4x72x240x1, broadcastInDim S4x72x240x1 ![0, 1, 2] bcast_S4x72x240_S4x72x240x1_0_1_2 (W (Proc.devRef .tc main_v33))⟩,
           ⟨S4x72x240x1, broadcastInDim S4x72x240x1 ![0, 1, 2] bcast_S4x72x240_S4x72x240x1_0_1_2 (W (Proc.devRef .tc main_v39))⟩,
           ⟨S4x72x240x1, broadcastInDim S4x72x240x1 ![0, 1, 2] bcast_S4x72x240_S4x72x240x1_0_1_2 (W (Proc.devRef .tc main_v45))⟩,
           ⟨S4x72x240x1, broadcastInDim S4x72x240x1 ![0, 1, 2] bcast_S4x72x240_S4x72x240x1_0_1_2 (W (Proc.devRef .tc main_v51))⟩,
           ⟨S4x72x240x1, broadcastInDim S4x72x240x1 ![0, 1, 2] bcast_S4x72x240_S4x72x240x1_0_1_2 (W (Proc.devRef .tc main_v57))⟩,
           ⟨S4x72x240x1, broadcastInDim S4x72x240x1 ![0, 1, 2] bcast_S4x72x240_S4x72x240x1_0_1_2 (W (Proc.devRef .tc main_v63))⟩,
           ⟨S4x72x240x1, broadcastInDim S4x72x240x1 ![0, 1, 2] bcast_S4x72x240_S4x72x240x1_0_1_2 (W (Proc.devRef .tc main_v69))⟩,
           ⟨S4x72x240x1, broadcastInDim S4x72x240x1 ![0, 1, 2] bcast_S4x72x240_S4x72x240x1_0_1_2 (W (Proc.devRef .tc main_v75))⟩,
           ⟨S4x72x240x1, broadcastInDim S4x72x240x1 ![0, 1, 2] bcast_S4x72x240_S4x72x240x1_0_1_2 (W (Proc.devRef .tc main_v81))⟩,
           ⟨S4x72x240x1, broadcastInDim S4x72x240x1 ![0, 1, 2] bcast_S4x72x240_S4x72x240x1_0_1_2 (W (Proc.devRef .tc main_v87))⟩,
           ⟨S4x72x240x1, broadcastInDim S4x72x240x1 ![0, 1, 2] bcast_S4x72x240_S4x72x240x1_0_1_2 (W (Proc.devRef .tc main_v93))⟩]
          concatenates_S4x72x240x1_S4x72x240x1_S4x72x240x1_S4x72x240x1_S4x72x240x1_S4x72x240x1_S4x72x240x1_S4x72x240x1_S4x72x240x1_S4x72x240x1_S4x72x240x1_S4x72x240x1_S4x72x240x1_S4x72x240x1_S4x72x240x1_S4x72x240x1_S4x72x240x16_d3⟩,
         ⟨S4x72x240x16, concatenate S4x72x240x16 3
          [⟨S4x72x240x1, broadcastInDim S4x72x240x1 ![0, 1, 2] bcast_S4x72x240_S4x72x240x1_0_1_2 (W (Proc.devRef .tc main_v99))⟩,
           ⟨S4x72x240x1, broadcastInDim S4x72x240x1 ![0, 1, 2] bcast_S4x72x240_S4x72x240x1_0_1_2 (W (Proc.devRef .tc main_v105))⟩,
           ⟨S4x72x240x1, broadcastInDim S4x72x240x1 ![0, 1, 2] bcast_S4x72x240_S4x72x240x1_0_1_2 (W (Proc.devRef .tc main_v111))⟩,
           ⟨S4x72x240x1, broadcastInDim S4x72x240x1 ![0, 1, 2] bcast_S4x72x240_S4x72x240x1_0_1_2 (W (Proc.devRef .tc main_v117))⟩,
           ⟨S4x72x240x1, broadcastInDim S4x72x240x1 ![0, 1, 2] bcast_S4x72x240_S4x72x240x1_0_1_2 (W (Proc.devRef .tc main_v123))⟩,
           ⟨S4x72x240x1, broadcastInDim S4x72x240x1 ![0, 1, 2] bcast_S4x72x240_S4x72x240x1_0_1_2 (W (Proc.devRef .tc main_v129))⟩,
           ⟨S4x72x240x1, broadcastInDim S4x72x240x1 ![0, 1, 2] bcast_S4x72x240_S4x72x240x1_0_1_2 (W (Proc.devRef .tc main_v135))⟩,
           ⟨S4x72x240x1, broadcastInDim S4x72x240x1 ![0, 1, 2] bcast_S4x72x240_S4x72x240x1_0_1_2 (W (Proc.devRef .tc main_v141))⟩,
           ⟨S4x72x240x1, broadcastInDim S4x72x240x1 ![0, 1, 2] bcast_S4x72x240_S4x72x240x1_0_1_2 (W (Proc.devRef .tc main_v147))⟩,
           ⟨S4x72x240x1, broadcastInDim S4x72x240x1 ![0, 1, 2] bcast_S4x72x240_S4x72x240x1_0_1_2 (W (Proc.devRef .tc main_v153))⟩,
           ⟨S4x72x240x1, broadcastInDim S4x72x240x1 ![0, 1, 2] bcast_S4x72x240_S4x72x240x1_0_1_2 (W (Proc.devRef .tc main_v159))⟩,
           ⟨S4x72x240x1, broadcastInDim S4x72x240x1 ![0, 1, 2] bcast_S4x72x240_S4x72x240x1_0_1_2 (W (Proc.devRef .tc main_v165))⟩,
           ⟨S4x72x240x1, broadcastInDim S4x72x240x1 ![0, 1, 2] bcast_S4x72x240_S4x72x240x1_0_1_2 (W (Proc.devRef .tc main_v171))⟩,
           ⟨S4x72x240x1, broadcastInDim S4x72x240x1 ![0, 1, 2] bcast_S4x72x240_S4x72x240x1_0_1_2 (W (Proc.devRef .tc main_v177))⟩,
           ⟨S4x72x240x1, broadcastInDim S4x72x240x1 ![0, 1, 2] bcast_S4x72x240_S4x72x240x1_0_1_2 (W (Proc.devRef .tc main_v183))⟩,
           ⟨S4x72x240x1, broadcastInDim S4x72x240x1 ![0, 1, 2] bcast_S4x72x240_S4x72x240x1_0_1_2 (W (Proc.devRef .tc main_v189))⟩]
          concatenates_S4x72x240x1_S4x72x240x1_S4x72x240x1_S4x72x240x1_S4x72x240x1_S4x72x240x1_S4x72x240x1_S4x72x240x1_S4x72x240x1_S4x72x240x1_S4x72x240x1_S4x72x240x1_S4x72x240x1_S4x72x240x1_S4x72x240x1_S4x72x240x1_S4x72x240x16_d3⟩,
         ⟨S4x72x240x16, concatenate S4x72x240x16 3
          [⟨S4x72x240x1, broadcastInDim S4x72x240x1 ![0, 1, 2] bcast_S4x72x240_S4x72x240x1_0_1_2 (W (Proc.devRef .tc main_v195))⟩,
           ⟨S4x72x240x1, broadcastInDim S4x72x240x1 ![0, 1, 2] bcast_S4x72x240_S4x72x240x1_0_1_2 (W (Proc.devRef .tc main_v201))⟩,
           ⟨S4x72x240x1, broadcastInDim S4x72x240x1 ![0, 1, 2] bcast_S4x72x240_S4x72x240x1_0_1_2 (W (Proc.devRef .tc main_v207))⟩,
           ⟨S4x72x240x1, broadcastInDim S4x72x240x1 ![0, 1, 2] bcast_S4x72x240_S4x72x240x1_0_1_2 (W (Proc.devRef .tc main_v213))⟩,
           ⟨S4x72x240x1, broadcastInDim S4x72x240x1 ![0, 1, 2] bcast_S4x72x240_S4x72x240x1_0_1_2 (W (Proc.devRef .tc main_v219))⟩,
           ⟨S4x72x240x1, broadcastInDim S4x72x240x1 ![0, 1, 2] bcast_S4x72x240_S4x72x240x1_0_1_2 (W (Proc.devRef .tc main_v225))⟩,
           ⟨S4x72x240x1, broadcastInDim S4x72x240x1 ![0, 1, 2] bcast_S4x72x240_S4x72x240x1_0_1_2 (W (Proc.devRef .tc main_v231))⟩,
           ⟨S4x72x240x1, broadcastInDim S4x72x240x1 ![0, 1, 2] bcast_S4x72x240_S4x72x240x1_0_1_2 (W (Proc.devRef .tc main_v237))⟩,
           ⟨S4x72x240x1, broadcastInDim S4x72x240x1 ![0, 1, 2] bcast_S4x72x240_S4x72x240x1_0_1_2 (W (Proc.devRef .tc main_v243))⟩,
           ⟨S4x72x240x1, broadcastInDim S4x72x240x1 ![0, 1, 2] bcast_S4x72x240_S4x72x240x1_0_1_2 (W (Proc.devRef .tc main_v249))⟩,
           ⟨S4x72x240x1, broadcastInDim S4x72x240x1 ![0, 1, 2] bcast_S4x72x240_S4x72x240x1_0_1_2 (W (Proc.devRef .tc main_v255))⟩,
           ⟨S4x72x240x1, broadcastInDim S4x72x240x1 ![0, 1, 2] bcast_S4x72x240_S4x72x240x1_0_1_2 (W (Proc.devRef .tc main_v261))⟩,
           ⟨S4x72x240x1, broadcastInDim S4x72x240x1 ![0, 1, 2] bcast_S4x72x240_S4x72x240x1_0_1_2 (W (Proc.devRef .tc main_v267))⟩,
           ⟨S4x72x240x1, broadcastInDim S4x72x240x1 ![0, 1, 2] bcast_S4x72x240_S4x72x240x1_0_1_2 (W (Proc.devRef .tc main_v273))⟩,
           ⟨S4x72x240x1, broadcastInDim S4x72x240x1 ![0, 1, 2] bcast_S4x72x240_S4x72x240x1_0_1_2 (W (Proc.devRef .tc main_v279))⟩,
           ⟨S4x72x240x1, broadcastInDim S4x72x240x1 ![0, 1, 2] bcast_S4x72x240_S4x72x240x1_0_1_2 (W (Proc.devRef .tc main_v285))⟩]
          concatenates_S4x72x240x1_S4x72x240x1_S4x72x240x1_S4x72x240x1_S4x72x240x1_S4x72x240x1_S4x72x240x1_S4x72x240x1_S4x72x240x1_S4x72x240x1_S4x72x240x1_S4x72x240x1_S4x72x240x1_S4x72x240x1_S4x72x240x1_S4x72x240x1_S4x72x240x16_d3⟩]
        concatenates_S4x72x240x16_S4x72x240x16_S4x72x240x16_S4x72x240x48_d3 :=
  tail_facts.1 W

theorem tail_keep (W : Valuation τ sig (Elt F)) (r : Ref sig .tc) (h : r ∉ tail_W) :
    after tail W (no_index (Proc.devRef .tc r)) = W (Proc.devRef .tc r) :=
  after_of_writes_sub tail W tail_facts.2 h

end Cert.ReferenceIdeal.Value

end
-- ==== Proof.ReferenceRun.lean ====
/-
  The reference's run: every weakly fair execution of its @main ends with the result buffer at the composed term
  `res_main_v337` of the two arguments, the arguments unchanged.

  After the whole line plane `k`'s result buffer still holds what plane `k` left there (every later plane and the
  closing stretch keep it), which is `hostPlane` of the arguments as launched (no plane writes an argument); the
  closing stretch stacks those buffers.
-/
import proofs.«116120_j41858751267257_2_alg».proof.Proof.ReferencePlanes
import proofs.«116120_j41858751267257_2_alg».proof.Proof.ReferenceTail

noncomputable section

namespace Cert.ReferenceIdeal.Value

open Cert.ReferenceIdeal Cert.ReferenceIdeal.Gen
open Idealize.ShloMosaic Idealize.ShloMosaic.TcCoe Idealize.SL.Sem Idealize.ShloMosaic.StableHlo

variable {F : FTy → Type} [FloatOps F]

/-! ## The whole line -/

/-- The contents after the forty-eight planes' operations, from contents `V`. -/
def allPlanes (V : Valuation τ sig (Elt F)) : Valuation τ sig (Elt F) :=
  after plane47 (after plane46 (after plane45 (after plane44 (after plane43 (after plane42 (after plane41 (after plane40 (after plane39 (after plane38 (after plane37 (after plane36 (after plane35 (after plane34 (after plane33 (after plane32 (after plane31 (after plane30 (after plane29 (after plane28 (after plane27 (after plane26 (after plane25 (after plane24 (after plane23 (after plane22 (after plane21 (after plane20 (after plane19 (after plane18 (after plane17 (after plane16 (after plane15 (after plane14 (after plane13 (after plane12 (after plane11 (after plane10 (after plane9 (after plane8 (after plane7 (after plane6 (after plane5 (after plane4 (after plane3 (after plane2 (after plane1 (after plane0 (V))))))))))))))))))))))))))))))))))))))))))))))))

/-- The contents after all 528 operations: the planes one after the other, then the closing stretch. -/
theorem after_ops (V : Valuation τ sig (Elt F)) : after ops V = after tail (allPlanes V) := by
  simp only [ops, StableHlo.after_append, allPlanes]

set_option maxHeartbeats 0 in
/-- No plane writes an argument. -/
theorem allPlanes_arg0 (V : Valuation τ sig (Elt F)) :
    allPlanes V (no_index (Proc.devRef .tc main_arg0)) = V (Proc.devRef .tc main_arg0) := by
  unfold allPlanes
  simp (disch := decide) only [plane0_keep, plane1_keep, plane2_keep, plane3_keep, plane4_keep, plane5_keep, plane6_keep, plane7_keep, plane8_keep, plane9_keep, plane10_keep, plane11_keep, plane12_keep, plane13_keep, plane14_keep, plane15_keep, plane16_keep, plane17_keep, plane18_keep, plane19_keep, plane20_keep, plane21_keep, plane22_keep, plane23_keep, plane24_keep, plane25_keep, plane26_keep, plane27_keep, plane28_keep, plane29_keep, plane30_keep, plane31_keep, plane32_keep, plane33_keep, plane34_keep, plane35_keep, plane36_keep, plane37_keep, plane38_keep, plane39_keep, plane40_keep, plane41_keep, plane42_keep, plane43_keep, plane44_keep, plane45_keep, plane46_keep, plane47_keep]

set_option maxHeartbeats 0 in
theorem allPlanes_arg1 (V : Valuation τ sig (Elt F)) :
    allPlanes V (no_index (Proc.devRef .tc main_arg1)) = V (Proc.devRef .tc main_arg1) := by
  unfold allPlanes
  simp (disch := decide) only [plane0_keep, plane1_keep, plane2_keep, plane3_keep, plane4_keep, plane5_keep, plane6_keep, plane7_keep, plane8_keep, plane9_keep, plane10_keep, plane11_keep, plane12_keep, plane13_keep, plane14_keep, plane15_keep, plane16_keep, plane17_keep, plane18_keep, plane19_keep, plane20_keep, plane21_keep, plane22_keep, plane23_keep, plane24_keep, plane25_keep, plane26_keep, plane27_keep, plane28_keep, plane29_keep, plane30_keep, plane31_keep, plane32_keep, plane33_keep, plane34_keep, plane35_keep, plane36_keep, plane37_keep, plane38_keep, plane39_keep, plane40_keep, plane41_keep, plane42_keep, plane43_keep, plane44_keep, plane45_keep, plane46_keep, plane47_keep]

set_option maxHeartbeats 0 in
/-- After all the planes, plane 0's buffer holds plane 0 of the arguments as they were. -/
theorem plane0_final (V : Valuation τ sig (Elt F)) :
    allPlanes V (Proc.devRef .tc main_v3) = hostPlane0 (V (Proc.devRef .tc main_arg0)) (V (Proc.devRef .tc main_arg1)) := by
  unfold allPlanes
  simp (disch := decide) only [plane0_keep, plane1_keep, plane2_keep, plane3_keep, plane4_keep, plane5_keep, plane6_keep, plane7_keep, plane8_keep, plane9_keep, plane10_keep, plane11_keep, plane12_keep, plane13_keep, plane14_keep, plane15_keep, plane16_keep, plane17_keep, plane18_keep, plane19_keep, plane20_keep, plane21_keep, plane22_keep, plane23_keep, plane24_keep, plane25_keep, plane26_keep, plane27_keep, plane28_keep, plane29_keep, plane30_keep, plane31_keep, plane32_keep, plane33_keep, plane34_keep, plane35_keep, plane36_keep, plane37_keep, plane38_keep, plane39_keep, plane40_keep, plane41_keep, plane42_keep, plane43_keep, plane44_keep, plane45_keep, plane46_keep, plane47_keep, plane0_out]

set_option hygiene false in
open Lean Elab Command in
/-- `plane_final k`, for `1 ≤ k ≤ 47`: after all the planes, plane `k`'s result buffer holds `hostPlane` of the two arguments
    as they were before the first — the later planes keep it (`plane_j_keep`), plane `k` leaves it there
    (`plane_k_out`), and the earlier planes keep the arguments. -/
elab "plane_final " kk:num : command => do
  let k := kk.getNat
  let e := 240 - k
  let idn (s : String) : Ident := mkIdent (Name.mkSimple s)
  let out := idn s!"main_v{6*k+3}"
  let hs := idn s!"slices_S4x72x240x320_S4x72x{e}x320_0_0_0_0"
  let hp := idn s!"pads_S4x72x{e}x320_S4x72x240x320_000_000_{k}00_000"
  let nOut := idn s!"plane{k}_out"
  let nFin := idn s!"plane{k}_final"
  let eLit := Syntax.mkNumLit (toString e)
  let kLit := Syntax.mkNumLit (toString k)
  elabCommand (← `(theorem $nFin (V : Valuation τ sig (Elt F)) :
      allPlanes V (Proc.devRef .tc $out)
        = hostPlane $eLit $kLit $hs $hp (V (Proc.devRef .tc main_arg0)) (V (Proc.devRef .tc main_arg1)) := by
    unfold allPlanes
    simp (disch := decide) only [plane0_keep, plane1_keep, plane2_keep, plane3_keep, plane4_keep, plane5_keep, plane6_keep, plane7_keep, plane8_keep, plane9_keep, plane10_keep, plane11_keep, plane12_keep, plane13_keep, plane14_keep, plane15_keep, plane16_keep, plane17_keep, plane18_keep, plane19_keep, plane20_keep, plane21_keep, plane22_keep, plane23_keep, plane24_keep, plane25_keep, plane26_keep, plane27_keep, plane28_keep, plane29_keep, plane30_keep, plane31_keep, plane32_keep, plane33_keep, plane34_keep, plane35_keep, plane36_keep, plane37_keep, plane38_keep, plane39_keep, plane40_keep, plane41_keep, plane42_keep, plane43_keep, plane44_keep, plane45_keep, plane46_keep, plane47_keep, $nOut:ident]))

plane_final 1
plane_final 2
plane_final 3
plane_final 4
plane_final 5
plane_final 6
plane_final 7
plane_final 8
plane_final 9
plane_final 10
plane_final 11
plane_final 12
plane_final 13
plane_final 14
plane_final 15
plane_final 16
plane_final 17
plane_final 18
plane_final 19
plane_final 20
plane_final 21
plane_final 22
plane_final 23
plane_final 24
plane_final 25
plane_final 26
plane_final 27
plane_final 28
plane_final 29
plane_final 30
plane_final 31
plane_final 32
plane_final 33
plane_final 34
plane_final 35
plane_final 36
plane_final 37
plane_final 38
plane_final 39
plane_final 40
plane_final 41
plane_final 42
plane_final 43
plane_final 44
plane_final 45
plane_final 46
plane_final 47

/-- No operation writes an argument: after the whole line each is as it was. -/
theorem after_ops_arg0 (V : Valuation τ sig (Elt F)) :
    after ops V (Proc.devRef .tc main_arg0) = V (Proc.devRef .tc main_arg0) := by
  rw [after_ops, tail_keep _ _ (by decide), allPlanes_arg0]

theorem after_ops_arg1 (V : Valuation τ sig (Elt F)) :
    after ops V (Proc.devRef .tc main_arg1) = V (Proc.devRef .tc main_arg1) := by
  rw [after_ops, tail_keep _ _ (by decide), allPlanes_arg1]

set_option maxHeartbeats 0 in
set_option maxRecDepth 65536 in
/-- After the whole line the result buffer holds the stack of the forty-eight planes of the arguments as launched:
    the generated term `res_main_v337`. -/
theorem after_ops_result (m : (ℓ : Loc nD τ sig) → Buf (Elt F) ℓ) (c : Dev nD) :
    after ops (launchContents m c) (Proc.devRef .tc main_v337) = res_main_v337 m c := by
  rw [after_ops, tail_out]
  rw [plane0_final, plane1_final, plane2_final, plane3_final, plane4_final, plane5_final, plane6_final, plane7_final, plane8_final, plane9_final, plane10_final, plane11_final, plane12_final, plane13_final, plane14_final, plane15_final, plane16_final, plane17_final, plane18_final, plane19_final, plane20_final, plane21_final, plane22_final, plane23_final, plane24_final, plane25_final, plane26_final, plane27_final, plane28_final, plane29_final, plane30_final, plane31_final, plane32_final, plane33_final, plane34_final, plane35_final, plane36_final, plane37_final, plane38_final, plane39_final, plane40_final, plane41_final, plane42_final, plane43_final, plane44_final, plane45_final, plane46_final, plane47_final]
  unfold res_main_v337 hostPlane hostPlane0
  rfl

/-! ## The run -/

/-- On every device, from any memory with zero counters: every weakly fair execution of @main terminates with the
    result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v337) = res_main_v337 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v337).trans (after_ops_result m c),
      (h c main_arg0).trans (after_ops_arg0 (launchContents m c)),
      (h c main_arg1).trans (after_ops_arg1 (launchContents m c))⟩)
    (run_seq scopedRefs_eq scopedSems_eq defs main (fun _ => ops) main_eq (fun _ => ops_sub) m ρ (fun _ => ops_fresh))

end Cert.ReferenceIdeal.Value

end
-- ==== Proof.Planes.lean ====
/-
  One disparity plane of the cost volume, read at an index.

  For a block of left features `L` and right features `R`, both indexed by (row, column, channel), the plane of
  disparity `d` holds at (row r, column w) the mean over the 320 channels of `L (r, w, c) * S (r, w, c)`, where `S` is
  `R` moved `d` columns to the right with zeros in the `d` vacated columns: `S (r, w, c) = R (r, w - d, c)` when
  `d ≤ w` and `0` otherwise.  The kernel builds `S` by laying a block of `d` zero columns in front of the first
  `240 - d` columns of `R`; this file reads that construction at an index, for every `d` at once.
-/
import Idealize.ShloMosaic.PureOps.Ideal.Laws
import Idealize.ShloMosaic.Lib.Pipeline.Value
import Idealize.ShloMosaic.Lib.ValueIdx
import Idealize.ShloMosaic.Lib.ValueLayout

noncomputable section

namespace Cert.CostVolume

open Idealize.ShloMosaic Idealize.ShloMosaic.ValueIdx

/-- The right block moved `d` columns to the right, zero in the vacated columns. -/
def shifted3 {n0 : Nat} (R : (⟨3, ![n0, 240, 320]⟩ : Shape).Idx → EReal) (r : Fin n0) (w : Fin 240) (d : Nat)
    (c : Fin 320) : EReal :=
  if h : d ≤ w.val then R (ix3 r ⟨w.val - d, by omega⟩ c) else 0

/-- The mean over the channels of the product of the left block with the moved right block: one entry of plane `d`. -/
def planeAt {n0 : Nat} (L R : (⟨3, ![n0, 240, 320]⟩ : Shape).Idx → EReal) (r : Fin n0) (w : Fin 240) (d : Nat) : EReal :=
  Ideal.div (∑ c : Fin 320, L (ix3 r w c) * shifted3 R r w d c) (Ideal.ofBits .f32 0x43A00000#32)

/-- Zero columns in front of the first `e` columns of `R`, read at (r, w, c): the moved block. -/
theorem concat_zero_slice_apply (d e : Nat) (hde : d + e = 240)
    (v3 : FVec Ideal ⟨3, ![8, 240, 320]⟩ .f32)
    (hs : (⟨3, ![8, 240, 320]⟩ : Shape).Slices ![0, 0, 0] ⟨3, ![8, e, 320]⟩)
    (hc : Shape.Concatenates [⟨3, ![8, d, 320]⟩, ⟨3, ![8, e, 320]⟩] ⟨3, ![8, 240, 320]⟩ 1)
    (r : Fin 8) (w : Fin 240) (c : Fin 320) :
    concatenate (⟨3, ![8, 240, 320]⟩ : Shape) 1
        [⟨⟨3, ![8, d, 320]⟩, broadcast ⟨3, ![8, d, 320]⟩ (Scalar.ofBits (F := Ideal) .f32 0x00000000#32)⟩,
         ⟨⟨3, ![8, e, 320]⟩, extractStridedSlice ⟨3, ![8, e, 320]⟩ ![0, 0, 0] v3 hs⟩] hc (ix3 r w c)
      = shifted3 v3 r w d c := by
  unfold shifted3
  by_cases hw : d ≤ w.val
  · rw [dif_pos hw]
    refine (concatenate_pair_apply_right (t := ⟨3, ![8, 240, 320]⟩) (s₁ := ⟨3, ![8, d, 320]⟩) (s₂ := ⟨3, ![8, e, 320]⟩) (1 : Fin 3) _ _ hc (ix3 r w c) rfl rfl
      (ix3 r (⟨w.val - d, by omega⟩ : Fin e) c) ?_ ?_).trans ?_
    · intro b hb
      match b with
      | ⟨0, _⟩ => rfl
      | ⟨1, _⟩ => exact absurd rfl hb
      | ⟨2, _⟩ => rfl
    · show (w.val - d) + d = w.val
      omega
    · exact slice3_axis1_apply 0 v3 hs r ⟨w.val - d, by omega⟩ c ⟨w.val - d, by omega⟩ (by simp)
  · rw [dif_neg hw]
    refine (concatenate_pair_apply_left (t := ⟨3, ![8, 240, 320]⟩) (s₁ := ⟨3, ![8, d, 320]⟩) (s₂ := ⟨3, ![8, e, 320]⟩) (1 : Fin 3) _ _ hc (ix3 r w c) rfl
      (ix3 r (⟨w.val, by omega⟩ : Fin d) c) ?_).trans ?_
    · intro b
      match b with
      | ⟨0, _⟩ => rfl
      | ⟨1, _⟩ => rfl
      | ⟨2, _⟩ => rfl
    · show Ideal.ofBits .f32 0x00000000#32 = 0
      exact Ideal.ofBits_zero_f32

/-- The channel sum of a product of two blocks, divided by the constant 320: the kernel's mean, at (r, w). -/
theorem mean_apply (v1 S : FVec Ideal ⟨3, ![8, 240, 320]⟩ .f32)
    (hred : (⟨3, ![8, 240, 320]⟩ : Shape).Reduces [2] ⟨2, ![8, 240]⟩) (hφ : FKind.Formats .f32)
    (hacc : (0x00000000#32 : BitVec 32) = FKind.add.neutral .f32 hφ) (r : Fin 8) (w : Fin 240) :
    divf (multiReduction .add [2] ⟨2, ![8, 240]⟩ (mulf v1 S) 0x00000000#32 hred hφ hacc)
        (broadcast ⟨2, ![8, 240]⟩ (Scalar.ofBits (F := Ideal) .f32 0x43A00000#32)) (ix2 r w)
      = Ideal.div (∑ c : Fin 320, v1 (ix3 r w c) * S (ix3 r w c)) (Ideal.ofBits .f32 0x43A00000#32) := by
  rw [divf_apply, broadcast_apply, Ideal.multiReduction_add_single]
  show Ideal.div (∑ c : Fin 320, _) (Ideal.ofBits .f32 0x43A00000#32) = _
  refine congrArg (fun s => Ideal.div s _) (Finset.sum_congr rfl fun c _ => ?_)
  have hl : hred.lift (ix2 r w) c = ix3 r w c := by
    funext a
    apply Fin.ext
    match a with
    | ⟨0, _⟩ => rfl
    | ⟨1, _⟩ => rfl
    | ⟨2, _⟩ => rfl
  rw [hl, mulf_apply]

/-- Plane `d ≥ 1` as the kernel computes it, at (r, w). -/
theorem plane_apply (d e : Nat) (hde : d + e = 240)
    (v1 v3 : FVec Ideal ⟨3, ![8, 240, 320]⟩ .f32)
    (hs : (⟨3, ![8, 240, 320]⟩ : Shape).Slices ![0, 0, 0] ⟨3, ![8, e, 320]⟩)
    (hc : Shape.Concatenates [⟨3, ![8, d, 320]⟩, ⟨3, ![8, e, 320]⟩] ⟨3, ![8, 240, 320]⟩ 1)
    (hred : (⟨3, ![8, 240, 320]⟩ : Shape).Reduces [2] ⟨2, ![8, 240]⟩) (hφ : FKind.Formats .f32)
    (hacc : (0x00000000#32 : BitVec 32) = FKind.add.neutral .f32 hφ) (r : Fin 8) (w : Fin 240) :
    divf (multiReduction .add [2] ⟨2, ![8, 240]⟩
        (mulf v1 (concatenate (⟨3, ![8, 240, 320]⟩ : Shape) 1
          [⟨⟨3, ![8, d, 320]⟩, broadcast ⟨3, ![8, d, 320]⟩ (Scalar.ofBits (F := Ideal) .f32 0x00000000#32)⟩,
           ⟨⟨3, ![8, e, 320]⟩, extractStridedSlice ⟨3, ![8, e, 320]⟩ ![0, 0, 0] v3 hs⟩] hc))
        0x00000000#32 hred hφ hacc)
        (broadcast ⟨2, ![8, 240]⟩ (Scalar.ofBits (F := Ideal) .f32 0x43A00000#32)) (ix2 r w)
      = planeAt v1 v3 r w d := by
  rw [mean_apply]
  unfold planeAt
  refine congrArg (fun s => Ideal.div s _) (Finset.sum_congr rfl fun c _ => ?_)
  rw [concat_zero_slice_apply d e hde]

/-- Plane `0`: nothing is moved. -/
theorem plane_zero_apply (v1 v3 : FVec Ideal ⟨3, ![8, 240, 320]⟩ .f32)
    (hred : (⟨3, ![8, 240, 320]⟩ : Shape).Reduces [2] ⟨2, ![8, 240]⟩) (hφ : FKind.Formats .f32)
    (hacc : (0x00000000#32 : BitVec 32) = FKind.add.neutral .f32 hφ) (r : Fin 8) (w : Fin 240) :
    divf (multiReduction .add [2] ⟨2, ![8, 240]⟩ (mulf v1 v3) 0x00000000#32 hred hφ hacc)
        (broadcast ⟨2, ![8, 240]⟩ (Scalar.ofBits (F := Ideal) .f32 0x43A00000#32)) (ix2 r w)
      = planeAt v1 v3 r w 0 := by
  rw [mean_apply]
  unfold planeAt shifted3
  refine congrArg (fun s => Ideal.div s _) (Finset.sum_congr rfl fun c _ => ?_)
  rw [dif_pos (Nat.zero_le _)]
  rfl

end Cert.CostVolume

end
-- ==== Proof.Stack.lean ====
/-
  Planes laid side by side along a new last axis, read at an index.

  The kernel gives each of its planes, indexed by (row, column), a trailing axis of extent one and concatenates
  them along it.  The reference does the same with planes indexed by (batch, row, column), sixteen at a time and
  then the three groups of sixteen.  Either way entry (…, k) of the result is the entry of plane number `k`.
-/
import Idealize.ShloMosaic.Lib.Pipeline.Value
import Idealize.ShloMosaic.Lib.ValueIdx

noncomputable section

namespace Cert.CostVolume

open Idealize.ShloMosaic Idealize.ShloMosaic.ValueIdx

variable {α β : Type}

/-- Pieces of one shape with extent `K` along the axis, made from a list by one function `g`: the concatenation at an
    index whose axis coordinate is `k * K + x` with `x < K` reads piece `k` at `x`, the other coordinates kept. -/
theorem concatenate_map_apply {t s₁ : Shape} (a : Fin t.rank) (l : List β) (g : β → (s₁.Idx → α))
    (h : Shape.Concatenates ((l.map fun b => (⟨s₁, g b⟩ : (s : Shape) × (s.Idx → α))).map (·.1)) t a)
    (hr : s₁.rank = t.rank) (K : Nat) (hK : s₁.size (a.cast hr.symm) = K) (j : t.Idx) (k : Nat) (hk : k < l.length)
    (i : s₁.Idx) (hi : ∀ b : Fin s₁.rank, b.cast hr ≠ a → (i b).val = (j (b.cast hr)).val)
    (ha : k * K + (i (a.cast hr.symm)).val = (j a).val) :
    concatenate t a (l.map fun b => (⟨s₁, g b⟩ : (s : Shape) × (s.Idx → α))) h j = g l[k] i := by
  have hk' : k < (l.map fun b => (⟨s₁, g b⟩ : (s : Shape) × (s.Idx → α))).length := by simpa using hk
  refine concatenate_apply_piece a _ h j k hk' s₁ (g l[k]) (by simp) hr (k * K) ?_ i hi ha
  -- the extents of the first `k` pieces, each `K`, sum to `k * K`
  rw [← List.map_take, List.map_map, List.map_map]
  rw [List.map_congr_left (g := fun _ => K) (fun b _ => by simp only [Function.comp, dif_pos hr, hK])]
  simp [List.length_take, Nat.min_eq_left (Nat.le_of_lt hk)]

/-- The same for pieces of extent one: the axis coordinate is the piece's number. -/
theorem concatenate_map_unit_apply {t s₁ : Shape} (a : Fin t.rank) (l : List β) (g : β → (s₁.Idx → α))
    (h : Shape.Concatenates ((l.map fun b => (⟨s₁, g b⟩ : (s : Shape) × (s.Idx → α))).map (·.1)) t a)
    (hr : s₁.rank = t.rank) (h1 : s₁.size (a.cast hr.symm) = 1) (j : t.Idx) (k : Nat) (hk : k < l.length)
    (hjk : (j a).val = k) (i : s₁.Idx) (hi : ∀ b : Fin s₁.rank, b.cast hr ≠ a → (i b).val = (j (b.cast hr)).val) :
    concatenate t a (l.map fun b => (⟨s₁, g b⟩ : (s : Shape) × (s.Idx → α))) h j = g l[k] i := by
  refine concatenate_map_apply a l g h hr 1 h1 j k hk i hi ?_
  have hlt : (i (a.cast hr.symm)).val < 1 := Nat.lt_of_lt_of_eq (i (a.cast hr.symm)).isLt h1
  omega

/-- A plane given a trailing axis of extent one, read at (r, w, u): the plane at (r, w). -/
theorem shapeCast_trailing_unit_apply {n0 n1 : Nat} (p : (⟨2, ![n0, n1]⟩ : Shape).Idx → α)
    (h : (⟨2, ![n0, n1]⟩ : Shape).ShapeCasts ⟨3, ![n0, n1, 1]⟩) (r : Fin n0) (w : Fin n1) (u : Fin 1) :
    shapeCast ⟨3, ![n0, n1, 1]⟩ p h (ix3 r w u) = p (ix2 r w) :=
  shapeCast_apply p h _ _ (by
    have hu : u.val = 0 := by omega
    rw [Shape.rowMajor_val_three, Shape.rowMajor_val_two]
    show r.val * n1 + w.val = (r.val * n1 + w.val) * 1 + u.val
    rw [hu, Nat.mul_one, Nat.add_zero])

/-- The kernel's stack of a list of [8, 240] planes along a new last axis, at (r, w, k): plane `k` at (r, w). -/
theorem stack_apply {N : Nat} (ps : List ((⟨2, ![8, 240]⟩ : Shape).Idx → α))
    (hsc : (⟨2, ![8, 240]⟩ : Shape).ShapeCasts ⟨3, ![8, 240, 1]⟩)
    (h : Shape.Concatenates ((ps.map fun p => (⟨⟨3, ![8, 240, 1]⟩, shapeCast ⟨3, ![8, 240, 1]⟩ p hsc⟩ :
      (s : Shape) × (s.Idx → α))).map (·.1)) ⟨3, ![8, 240, N]⟩ 2)
    (r : Fin 8) (w : Fin 240) (k : Fin N) (hk : k.val < ps.length) :
    concatenate (⟨3, ![8, 240, N]⟩ : Shape) 2
        (ps.map fun p => (⟨⟨3, ![8, 240, 1]⟩, shapeCast ⟨3, ![8, 240, 1]⟩ p hsc⟩ : (s : Shape) × (s.Idx → α))) h (ix3 r w k)
      = ps[k.val] (ix2 r w) := by
  refine (concatenate_map_unit_apply (t := ⟨3, ![8, 240, N]⟩) (s₁ := ⟨3, ![8, 240, 1]⟩) (2 : Fin 3) ps
    (fun p => shapeCast ⟨3, ![8, 240, 1]⟩ p hsc) h rfl rfl (ix3 r w k) k.val hk rfl (ix3 r w (0 : Fin 1)) ?_).trans ?_
  · intro b hb
    match b with
    | ⟨0, _⟩ => rfl
    | ⟨1, _⟩ => rfl
    | ⟨2, _⟩ => exact absurd rfl hb
  · exact shapeCast_trailing_unit_apply _ hsc r w 0

/-- A [4, 72, 240] plane broadcast to a trailing axis of extent one, read at (b, h, w, u): the plane at (b, h, w). -/
theorem broadcast_trailing_unit_apply (p : (⟨3, ![4, 72, 240]⟩ : Shape).Idx → α)
    (hb : (⟨3, ![4, 72, 240]⟩ : Shape).BroadcastsInDim ⟨4, ![4, 72, 240, 1]⟩ ![0, 1, 2])
    (b : Fin 4) (h : Fin 72) (w : Fin 240) (u : Fin 1) :
    broadcastInDim ⟨4, ![4, 72, 240, 1]⟩ ![0, 1, 2] hb p (ix4 b h w u) = p (ix3 b h w) :=
  broadcastInDim_apply _ hb p _ _ (fun a => by
    match a with
    | ⟨0, _⟩ => rfl
    | ⟨1, _⟩ => rfl
    | ⟨2, _⟩ => rfl)

/-- Sixteen [4, 72, 240] planes side by side along a new last axis, at (b, h, w, k): plane `k` at (b, h, w). -/
theorem group_apply (ps : List ((⟨3, ![4, 72, 240]⟩ : Shape).Idx → α))
    (hb : (⟨3, ![4, 72, 240]⟩ : Shape).BroadcastsInDim ⟨4, ![4, 72, 240, 1]⟩ ![0, 1, 2])
    (h : Shape.Concatenates ((ps.map fun p => (⟨⟨4, ![4, 72, 240, 1]⟩, broadcastInDim ⟨4, ![4, 72, 240, 1]⟩ ![0, 1, 2] hb p⟩ :
      (s : Shape) × (s.Idx → α))).map (·.1)) ⟨4, ![4, 72, 240, 16]⟩ 3)
    (b : Fin 4) (hh : Fin 72) (w : Fin 240) (k : Fin 16) (hk : k.val < ps.length) :
    concatenate (⟨4, ![4, 72, 240, 16]⟩ : Shape) 3
        (ps.map fun p => (⟨⟨4, ![4, 72, 240, 1]⟩, broadcastInDim ⟨4, ![4, 72, 240, 1]⟩ ![0, 1, 2] hb p⟩ :
          (s : Shape) × (s.Idx → α))) h (ix4 b hh w k)
      = ps[k.val] (ix3 b hh w) := by
  refine (concatenate_map_unit_apply (t := ⟨4, ![4, 72, 240, 16]⟩) (s₁ := ⟨4, ![4, 72, 240, 1]⟩) (3 : Fin 4) ps
    (fun p => broadcastInDim ⟨4, ![4, 72, 240, 1]⟩ ![0, 1, 2] hb p) h rfl rfl (ix4 b hh w k) k.val hk rfl
    (ix4 b hh w (0 : Fin 1)) ?_).trans ?_
  · intro a ha
    match a with
    | ⟨0, _⟩ => rfl
    | ⟨1, _⟩ => rfl
    | ⟨2, _⟩ => rfl
    | ⟨3, _⟩ => exact absurd rfl ha
  · exact broadcast_trailing_unit_apply _ hb b hh w 0

/-- Three groups of sixteen along the last axis, at (b, h, w, d) with `d = 16 k + x`: group `k` at (b, h, w, x). -/
theorem groups_apply (g0 g1 g2 : (⟨4, ![4, 72, 240, 16]⟩ : Shape).Idx → α)
    (h : Shape.Concatenates [⟨4, ![4, 72, 240, 16]⟩, ⟨4, ![4, 72, 240, 16]⟩, ⟨4, ![4, 72, 240, 16]⟩] ⟨4, ![4, 72, 240, 48]⟩ 3)
    (b : Fin 4) (hh : Fin 72) (w : Fin 240) (d : Fin 48) (k : Fin 3) (x : Fin 16) (hd : k.val * 16 + x.val = d.val) :
    concatenate (⟨4, ![4, 72, 240, 48]⟩ : Shape) 3
        [⟨⟨4, ![4, 72, 240, 16]⟩, g0⟩, ⟨⟨4, ![4, 72, 240, 16]⟩, g1⟩, ⟨⟨4, ![4, 72, 240, 16]⟩, g2⟩] h (ix4 b hh w d)
      = [g0, g1, g2][k.val] (ix4 b hh w x) := by
  refine concatenate_map_apply (t := ⟨4, ![4, 72, 240, 48]⟩) (s₁ := ⟨4, ![4, 72, 240, 16]⟩) (3 : Fin 4) [g0, g1, g2]
    (fun g => g) h rfl 16 rfl (ix4 b hh w d) k.val k.isLt (ix4 b hh w x) ?_ hd
  intro a ha
  match a with
  | ⟨0, _⟩ => rfl
  | ⟨1, _⟩ => rfl
  | ⟨2, _⟩ => rfl
  | ⟨3, _⟩ => exact absurd rfl ha

/-- Forty-eight [8, 240] planes stacked along a new last axis, at (r, w, d): plane `d` at (r, w). -/
theorem stack48_apply
    (q0 q1 q2 q3 q4 q5 q6 q7 q8 q9 q10 q11 q12 q13 q14 q15 q16 q17 q18 q19 q20 q21 q22 q23 q24 q25 q26 q27 q28 q29 q30 q31
      q32 q33 q34 q35 q36 q37 q38 q39 q40 q41 q42 q43 q44 q45 q46 q47 : (⟨2, ![8, 240]⟩ : Shape).Idx → α)
    (hsc : (⟨2, ![8, 240]⟩ : Shape).ShapeCasts ⟨3, ![8, 240, 1]⟩)
    (h : Shape.Concatenates (List.replicate 48 (⟨3, ![8, 240, 1]⟩ : Shape)) ⟨3, ![8, 240, 48]⟩ 2)
    (r : Fin 8) (w : Fin 240) (d : Fin 48) :
    concatenate (⟨3, ![8, 240, 48]⟩ : Shape) 2
        (⟨⟨3, ![8, 240, 1]⟩, shapeCast ⟨3, ![8, 240, 1]⟩ q0 hsc⟩ :: ⟨⟨3, ![8, 240, 1]⟩, shapeCast ⟨3, ![8, 240, 1]⟩ q1 hsc⟩ ::
         ⟨⟨3, ![8, 240, 1]⟩, shapeCast ⟨3, ![8, 240, 1]⟩ q2 hsc⟩ :: ⟨⟨3, ![8, 240, 1]⟩, shapeCast ⟨3, ![8, 240, 1]⟩ q3 hsc⟩ ::
         ⟨⟨3, ![8, 240, 1]⟩, shapeCast ⟨3, ![8, 240, 1]⟩ q4 hsc⟩ :: ⟨⟨3, ![8, 240, 1]⟩, shapeCast ⟨3, ![8, 240, 1]⟩ q5 hsc⟩ ::
         ⟨⟨3, ![8, 240, 1]⟩, shapeCast ⟨3, ![8, 240, 1]⟩ q6 hsc⟩ :: ⟨⟨3, ![8, 240, 1]⟩, shapeCast ⟨3, ![8, 240, 1]⟩ q7 hsc⟩ ::
         ⟨⟨3, ![8, 240, 1]⟩, shapeCast ⟨3, ![8, 240, 1]⟩ q8 hsc⟩ :: ⟨⟨3, ![8, 240, 1]⟩, shapeCast ⟨3, ![8, 240, 1]⟩ q9 hsc⟩ ::
         ⟨⟨3, ![8, 240, 1]⟩, shapeCast ⟨3, ![8, 240, 1]⟩ q10 hsc⟩ :: ⟨⟨3, ![8, 240, 1]⟩, shapeCast ⟨3, ![8, 240, 1]⟩ q11 hsc⟩ ::
         ⟨⟨3, ![8, 240, 1]⟩, shapeCast ⟨3, ![8, 240, 1]⟩ q12 hsc⟩ :: ⟨⟨3, ![8, 240, 1]⟩, shapeCast ⟨3, ![8, 240, 1]⟩ q13 hsc⟩ ::
         ⟨⟨3, ![8, 240, 1]⟩, shapeCast ⟨3, ![8, 240, 1]⟩ q14 hsc⟩ :: ⟨⟨3, ![8, 240, 1]⟩, shapeCast ⟨3, ![8, 240, 1]⟩ q15 hsc⟩ ::
         ⟨⟨3, ![8, 240, 1]⟩, shapeCast ⟨3, ![8, 240, 1]⟩ q16 hsc⟩ :: ⟨⟨3, ![8, 240, 1]⟩, shapeCast ⟨3, ![8, 240, 1]⟩ q17 hsc⟩ ::
         ⟨⟨3, ![8, 240, 1]⟩, shapeCast ⟨3, ![8, 240, 1]⟩ q18 hsc⟩ :: ⟨⟨3, ![8, 240, 1]⟩, shapeCast ⟨3, ![8, 240, 1]⟩ q19 hsc⟩ ::
         ⟨⟨3, ![8, 240, 1]⟩, shapeCast ⟨3, ![8, 240, 1]⟩ q20 hsc⟩ :: ⟨⟨3, ![8, 240, 1]⟩, shapeCast ⟨3, ![8, 240, 1]⟩ q21 hsc⟩ ::
         ⟨⟨3, ![8, 240, 1]⟩, shapeCast ⟨3, ![8, 240, 1]⟩ q22 hsc⟩ :: ⟨⟨3, ![8, 240, 1]⟩, shapeCast ⟨3, ![8, 240, 1]⟩ q23 hsc⟩ ::
         ⟨⟨3, ![8, 240, 1]⟩, shapeCast ⟨3, ![8, 240, 1]⟩ q24 hsc⟩ :: ⟨⟨3, ![8, 240, 1]⟩, shapeCast ⟨3, ![8, 240, 1]⟩ q25 hsc⟩ ::
         ⟨⟨3, ![8, 240, 1]⟩, shapeCast ⟨3, ![8, 240, 1]⟩ q26 hsc⟩ :: ⟨⟨3, ![8, 240, 1]⟩, shapeCast ⟨3, ![8, 240, 1]⟩ q27 hsc⟩ ::
         ⟨⟨3, ![8, 240, 1]⟩, shapeCast ⟨3, ![8, 240, 1]⟩ q28 hsc⟩ :: ⟨⟨3, ![8, 240, 1]⟩, shapeCast ⟨3, ![8, 240, 1]⟩ q29 hsc⟩ ::
         ⟨⟨3, ![8, 240, 1]⟩, shapeCast ⟨3, ![8, 240, 1]⟩ q30 hsc⟩ :: ⟨⟨3, ![8, 240, 1]⟩, shapeCast ⟨3, ![8, 240, 1]⟩ q31 hsc⟩ ::
         ⟨⟨3, ![8, 240, 1]⟩, shapeCast ⟨3, ![8, 240, 1]⟩ q32 hsc⟩ :: ⟨⟨3, ![8, 240, 1]⟩, shapeCast ⟨3, ![8, 240, 1]⟩ q33 hsc⟩ ::
         ⟨⟨3, ![8, 240, 1]⟩, shapeCast ⟨3, ![8, 240, 1]⟩ q34 hsc⟩ :: ⟨⟨3, ![8, 240, 1]⟩, shapeCast ⟨3, ![8, 240, 1]⟩ q35 hsc⟩ ::
         ⟨⟨3, ![8, 240, 1]⟩, shapeCast ⟨3, ![8, 240, 1]⟩ q36 hsc⟩ :: ⟨⟨3, ![8, 240, 1]⟩, shapeCast ⟨3, ![8, 240, 1]⟩ q37 hsc⟩ ::
         ⟨⟨3, ![8, 240, 1]⟩, shapeCast ⟨3, ![8, 240, 1]⟩ q38 hsc⟩ :: ⟨⟨3, ![8, 240, 1]⟩, shapeCast ⟨3, ![8, 240, 1]⟩ q39 hsc⟩ ::
         ⟨⟨3, ![8, 240, 1]⟩, shapeCast ⟨3, ![8, 240, 1]⟩ q40 hsc⟩ :: ⟨⟨3, ![8, 240, 1]⟩, shapeCast ⟨3, ![8, 240, 1]⟩ q41 hsc⟩ ::
         ⟨⟨3, ![8, 240, 1]⟩, shapeCast ⟨3, ![8, 240, 1]⟩ q42 hsc⟩ :: ⟨⟨3, ![8, 240, 1]⟩, shapeCast ⟨3, ![8, 240, 1]⟩ q43 hsc⟩ ::
         ⟨⟨3, ![8, 240, 1]⟩, shapeCast ⟨3, ![8, 240, 1]⟩ q44 hsc⟩ :: ⟨⟨3, ![8, 240, 1]⟩, shapeCast ⟨3, ![8, 240, 1]⟩ q45 hsc⟩ ::
         ⟨⟨3, ![8, 240, 1]⟩, shapeCast ⟨3, ![8, 240, 1]⟩ q46 hsc⟩ :: ⟨⟨3, ![8, 240, 1]⟩, shapeCast ⟨3, ![8, 240, 1]⟩ q47 hsc⟩ :: []) h
        (ix3 r w d)
      = (q0 :: q1 :: q2 :: q3 :: q4 :: q5 :: q6 :: q7 :: q8 :: q9 :: q10 :: q11 :: q12 :: q13 :: q14 :: q15 :: q16 :: q17 :: q18 :: q19 :: q20 :: q21 :: q22 :: q23 ::
          q24 :: q25 :: q26 :: q27 :: q28 :: q29 :: q30 :: q31 :: q32 :: q33 :: q34 :: q35 :: q36 :: q37 :: q38 :: q39 :: q40 :: q41 :: q42 :: q43 :: q44 :: q45 ::
          q46 :: q47 :: [])[d.val] (ix2 r w) :=
  stack_apply (q0 :: q1 :: q2 :: q3 :: q4 :: q5 :: q6 :: q7 :: q8 :: q9 :: q10 :: q11 :: q12 :: q13 :: q14 :: q15 :: q16 :: q17 :: q18 :: q19 :: q20 :: q21 :: q22 :: q23 ::
          q24 :: q25 :: q26 :: q27 :: q28 :: q29 :: q30 :: q31 :: q32 :: q33 :: q34 :: q35 :: q36 :: q37 :: q38 :: q39 :: q40 :: q41 :: q42 :: q43 :: q44 :: q45 ::
          q46 :: q47 :: [])
    hsc h r w d d.isLt

/-- Sixteen [4, 72, 240] planes side by side along a new last axis, the planes named one by one. -/
theorem group16_apply
    (p0 p1 p2 p3 p4 p5 p6 p7 p8 p9 p10 p11 p12 p13 p14 p15 : (⟨3, ![4, 72, 240]⟩ : Shape).Idx → α)
    (hb : (⟨3, ![4, 72, 240]⟩ : Shape).BroadcastsInDim ⟨4, ![4, 72, 240, 1]⟩ ![0, 1, 2])
    (h : Shape.Concatenates (List.replicate 16 (⟨4, ![4, 72, 240, 1]⟩ : Shape)) ⟨4, ![4, 72, 240, 16]⟩ 3)
    (b : Fin 4) (hh : Fin 72) (w : Fin 240) (k : Fin 16) :
    concatenate (⟨4, ![4, 72, 240, 16]⟩ : Shape) 3
        [⟨⟨4, ![4, 72, 240, 1]⟩, broadcastInDim ⟨4, ![4, 72, 240, 1]⟩ ![0, 1, 2] hb p0⟩,
         ⟨⟨4, ![4, 72, 240, 1]⟩, broadcastInDim ⟨4, ![4, 72, 240, 1]⟩ ![0, 1, 2] hb p1⟩,
         ⟨⟨4, ![4, 72, 240, 1]⟩, broadcastInDim ⟨4, ![4, 72, 240, 1]⟩ ![0, 1, 2] hb p2⟩,
         ⟨⟨4, ![4, 72, 240, 1]⟩, broadcastInDim ⟨4, ![4, 72, 240, 1]⟩ ![0, 1, 2] hb p3⟩,
         ⟨⟨4, ![4, 72, 240, 1]⟩, broadcastInDim ⟨4, ![4, 72, 240, 1]⟩ ![0, 1, 2] hb p4⟩,
         ⟨⟨4, ![4, 72, 240, 1]⟩, broadcastInDim ⟨4, ![4, 72, 240, 1]⟩ ![0, 1, 2] hb p5⟩,
         ⟨⟨4, ![4, 72, 240, 1]⟩, broadcastInDim ⟨4, ![4, 72, 240, 1]⟩ ![0, 1, 2] hb p6⟩,
         ⟨⟨4, ![4, 72, 240, 1]⟩, broadcastInDim ⟨4, ![4, 72, 240, 1]⟩ ![0, 1, 2] hb p7⟩,
         ⟨⟨4, ![4, 72, 240, 1]⟩, broadcastInDim ⟨4, ![4, 72, 240, 1]⟩ ![0, 1, 2] hb p8⟩,
         ⟨⟨4, ![4, 72, 240, 1]⟩, broadcastInDim ⟨4, ![4, 72, 240, 1]⟩ ![0, 1, 2] hb p9⟩,
         ⟨⟨4, ![4, 72, 240, 1]⟩, broadcastInDim ⟨4, ![4, 72, 240, 1]⟩ ![0, 1, 2] hb p10⟩,
         ⟨⟨4, ![4, 72, 240, 1]⟩, broadcastInDim ⟨4, ![4, 72, 240, 1]⟩ ![0, 1, 2] hb p11⟩,
         ⟨⟨4, ![4, 72, 240, 1]⟩, broadcastInDim ⟨4, ![4, 72, 240, 1]⟩ ![0, 1, 2] hb p12⟩,
         ⟨⟨4, ![4, 72, 240, 1]⟩, broadcastInDim ⟨4, ![4, 72, 240, 1]⟩ ![0, 1, 2] hb p13⟩,
         ⟨⟨4, ![4, 72, 240, 1]⟩, broadcastInDim ⟨4, ![4, 72, 240, 1]⟩ ![0, 1, 2] hb p14⟩,
         ⟨⟨4, ![4, 72, 240, 1]⟩, broadcastInDim ⟨4, ![4, 72, 240, 1]⟩ ![0, 1, 2] hb p15⟩] h (ix4 b hh w k)
      = [p0, p1, p2, p3, p4, p5, p6, p7, p8, p9, p10, p11, p12, p13, p14, p15][k.val] (ix3 b hh w) :=
  group_apply [p0, p1, p2, p3, p4, p5, p6, p7, p8, p9, p10, p11, p12, p13, p14, p15] hb h b hh w k k.isLt

end Cert.CostVolume

end
-- ==== Proof.Payload.lean ====
/-
  The value the kernel body stores, read at an index.

  The body loads a block of left features and a block of right features (eight rows of one batch entry, all columns
  and channels), computes the forty-eight disparity planes of the block one after the other and stores them stacked
  along a new last axis.  Entry (r, w, d) of what it stores is therefore entry (r, w) of plane `d` of the block.
-/
import proofs.«116120_j41858751267257_2_alg».proof.Proof.Gen.KernelIdeal.Skeleton
import proofs.«116120_j41858751267257_2_alg».proof.Proof.Planes
import proofs.«116120_j41858751267257_2_alg».proof.Proof.Stack
import Idealize.ShloMosaic.Lib.ValueLayout

noncomputable section

namespace Cert.CostVolume

open Idealize.ShloMosaic Idealize.ShloMosaic.ValueIdx Cert.KernelIdeal Cert.KernelIdeal.Gen

/-- What the body stores, at (u, r, w, d): plane `d` of the two loaded blocks (without their leading unit axis) at (r, w). -/
theorem stored_apply (x0 x1 : Vec Ideal S1x8x240x320 .f32) (u : Fin 1) (r : Fin 8) (w : Fin 240) (d : Fin 48) :
    k0_pay1 (k0_pay51 (k0_pay2 x0) (k0_pay3 x1)
        (k0_pay4 x0 x1) (k0_pay5 x0 x1) (k0_pay6 x0 x1) (k0_pay7 x0 x1) (k0_pay8 x0 x1)
        (k0_pay9 (k0_pay2 x0) (k0_pay3 x1)) (k0_pay10 (k0_pay2 x0) (k0_pay3 x1)) (k0_pay11 (k0_pay2 x0) (k0_pay3 x1))
        (k0_pay12 (k0_pay2 x0) (k0_pay3 x1)) (k0_pay13 (k0_pay2 x0) (k0_pay3 x1)) (k0_pay14 (k0_pay2 x0) (k0_pay3 x1))
        (k0_pay15 (k0_pay2 x0) (k0_pay3 x1)) (k0_pay16 (k0_pay2 x0) (k0_pay3 x1)) (k0_pay17 (k0_pay2 x0) (k0_pay3 x1))
        (k0_pay18 (k0_pay2 x0) (k0_pay3 x1)) (k0_pay19 (k0_pay2 x0) (k0_pay3 x1)) (k0_pay20 (k0_pay2 x0) (k0_pay3 x1))
        (k0_pay21 (k0_pay2 x0) (k0_pay3 x1)) (k0_pay22 (k0_pay2 x0) (k0_pay3 x1)) (k0_pay23 (k0_pay2 x0) (k0_pay3 x1))
        (k0_pay24 (k0_pay2 x0) (k0_pay3 x1)) (k0_pay25 (k0_pay2 x0) (k0_pay3 x1)) (k0_pay26 (k0_pay2 x0) (k0_pay3 x1))
        (k0_pay27 (k0_pay2 x0) (k0_pay3 x1)) (k0_pay28 (k0_pay2 x0) (k0_pay3 x1)) (k0_pay29 (k0_pay2 x0) (k0_pay3 x1))
        (k0_pay30 (k0_pay2 x0) (k0_pay3 x1)) (k0_pay31 (k0_pay2 x0) (k0_pay3 x1)) (k0_pay32 (k0_pay2 x0) (k0_pay3 x1))
        (k0_pay33 (k0_pay2 x0) (k0_pay3 x1)) (k0_pay34 (k0_pay2 x0) (k0_pay3 x1)) (k0_pay35 (k0_pay2 x0) (k0_pay3 x1))
        (k0_pay36 (k0_pay2 x0) (k0_pay3 x1)) (k0_pay37 (k0_pay2 x0) (k0_pay3 x1)) (k0_pay38 (k0_pay2 x0) (k0_pay3 x1))
        (k0_pay39 (k0_pay2 x0) (k0_pay3 x1)) (k0_pay40 (k0_pay2 x0) (k0_pay3 x1)) (k0_pay41 (k0_pay2 x0) (k0_pay3 x1))
        (k0_pay42 (k0_pay2 x0) (k0_pay3 x1)) (k0_pay43 (k0_pay2 x0) (k0_pay3 x1)) (k0_pay44 (k0_pay2 x0) (k0_pay3 x1))
        (k0_pay45 (k0_pay2 x0) (k0_pay3 x1)) (k0_pay46 (k0_pay2 x0) (k0_pay3 x1)) (k0_pay47 (k0_pay2 x0) (k0_pay3 x1))
        (k0_pay48 (k0_pay2 x0) (k0_pay3 x1)) (k0_pay49 (k0_pay2 x0) (k0_pay3 x1)) (k0_pay50 (k0_pay2 x0) (k0_pay3 x1)))
      (ix4 u r w d)
      = planeAt (k0_pay2 x0) (k0_pay3 x1) r w d.val := by
  -- the leading unit axis of the stored vector
  unfold k0_pay1
  refine (shapeCast_abc_1abc_apply _ shapeCasts_S8x240x48_S1x8x240x48 u r w d).trans ?_
  -- the stack of the planes: plane number `d`
  unfold k0_pay51
  refine (stack48_apply _ _ _ _ _ _ _ _ _ _ _ _ _ _ _ _ _ _ _ _ _ _ _ _ _ _ _ _ _ _ _ _ _ _ _ _ _ _ _ _ _ _ _ _ _ _ _ _
    shapeCasts_S8x240_S8x240x1 _ r w d).trans ?_
  -- each plane, by its number
  fin_cases d
  · exact plane_zero_apply _ _ _ _ _ r w
  all_goals exact plane_apply _ _ (by rfl) _ _ _ _ _ _ _ r w

end Cert.CostVolume

end
-- ==== Proof.Volume.lean ====
/-
  The cost volume as one function of the two feature arrays, and the reference's planes read at an index.

  `left` and `right` are indexed by (batch b, row h, column w, channel c).  Entry (b, h, w, d) of the cost volume is the
  mean over the 320 channels of `left (b, h, w, c) * S_d (b, h, w, c)`, where `S_d` is `right` moved `d` columns to the
  right with zeros in the vacated columns.  The reference builds `S_d` by cutting off the last `d` columns of `right`
  and padding `d` zero columns in front; this file reads that construction at an index, for every `d` at once.
-/
import Idealize.ShloMosaic.PureOps.Ideal.Laws
import Idealize.ShloMosaic.Lib.Pipeline.Value
import Idealize.ShloMosaic.Lib.ValueIdx
import Idealize.ShloMosaic.Lib.ValueLayout
import Idealize.ShloMosaic.Lib.KernelVsHost

noncomputable section

namespace Cert.CostVolume

open Idealize.ShloMosaic Idealize.ShloMosaic.ValueIdx

/-- `right` moved `d` columns to the right, zero in the vacated columns. -/
def shifted4 (R : (⟨4, ![4, 72, 240, 320]⟩ : Shape).Idx → EReal) (b : Fin 4) (h : Fin 72) (w : Fin 240) (d : Nat)
    (c : Fin 320) : EReal :=
  if hd : d ≤ w.val then R (ix4 b h ⟨w.val - d, by omega⟩ c) else 0

/-- One entry of the cost volume: the mean over the channels of `left` times the moved `right`. -/
def costAt (L R : (⟨4, ![4, 72, 240, 320]⟩ : Shape).Idx → EReal) (b : Fin 4) (h : Fin 72) (w : Fin 240) (d : Nat) : EReal :=
  Ideal.div (∑ c : Fin 320, L (ix4 b h w c) * shifted4 R b h w d c) (Ideal.ofBits .f32 0x43A00000#32)

/-- The cost volume. -/
def cost (L R : (⟨4, ![4, 72, 240, 320]⟩ : Shape).Idx → EReal) : (⟨4, ![4, 72, 240, 48]⟩ : Shape).Idx → EReal :=
  fun i => costAt L R (i 0) (i 1) (i 2) (i 3).val

/-- The integer zero converted to a float is the extended real zero. -/
theorem sitofp_zero : FloatOps.sitofp (F := Ideal) .f32 (0#32 : BitVec 32) = (0 : EReal) := by
  show (((0#32 : BitVec 32).toInt : ℝ) : EReal) = 0
  simp

/-- `right` without its last `d` columns, `d` zero columns padded in front, read at (b, h, w, c): the moved array. -/
theorem pad_slice_apply (d e : Nat) (hde : d + e = 240)
    (a1 : FVec Ideal ⟨4, ![4, 72, 240, 320]⟩ .f32)
    (hs : (⟨4, ![4, 72, 240, 320]⟩ : Shape).Slices ![0, 0, 0, 0] ⟨4, ![4, 72, e, 320]⟩)
    (hp : (⟨4, ![4, 72, e, 320]⟩ : Shape).Pads ![0, 0, d, 0] ![0, 0, 0, 0] ![0, 0, 0, 0] ⟨4, ![4, 72, 240, 320]⟩)
    (hu : 0 < (⟨0, ![]⟩ : Shape).numel)
    (b : Fin 4) (h : Fin 72) (w : Fin 240) (c : Fin 320) :
    pad (⟨4, ![4, 72, 240, 320]⟩ : Shape) ![0, 0, d, 0] ![0, 0, 0, 0] ![0, 0, 0, 0]
        (extractStridedSlice ⟨4, ![4, 72, e, 320]⟩ ![0, 0, 0, 0] a1 hs)
        (sitofp (F := Ideal) .f32 (constantI ⟨0, ![]⟩ 32 0#32)) hp hu (ix4 b h w c)
      = shifted4 a1 b h w d c := by
  unfold shifted4
  by_cases hw : d ≤ w.val
  · rw [dif_pos hw]
    refine (pad_apply_of_inside (s := ⟨4, ![4, 72, e, 320]⟩) (t := ⟨4, ![4, 72, 240, 320]⟩) _ _ _ _ _ hp hu (ix4 b h w c)
      (ix4 b h (⟨w.val - d, by omega⟩ : Fin e) c) ?_).trans ?_
    · intro a
      match a with
      | ⟨0, _⟩ => show b.val = 0 + b.val * (0 + 1); omega
      | ⟨1, _⟩ => show h.val = 0 + h.val * (0 + 1); omega
      | ⟨2, _⟩ => show w.val = d + (w.val - d) * (0 + 1); omega
      | ⟨3, _⟩ => show c.val = 0 + c.val * (0 + 1); omega
    · exact slice4_axis2_apply 0 a1 hs b h ⟨w.val - d, by omega⟩ c ⟨w.val - d, by omega⟩ (by simp)
  · rw [dif_neg hw]
    refine (pad_apply_of_not_inside (s := ⟨4, ![4, 72, e, 320]⟩) (t := ⟨4, ![4, 72, 240, 320]⟩) _ _ _ _ _ hp hu (ix4 b h w c)
      (2 : Fin 4) ?_).trans ?_
    · intro hin
      exact hw hin.1
    · exact sitofp_zero

/-- The reference's mean: the channel sum from the initial value zero, divided by the constant 320, at (b, h, w). -/
theorem host_mean_apply (a0 S : FVec Ideal ⟨4, ![4, 72, 240, 320]⟩ .f32)
    (hu : 0 < (⟨0, ![]⟩ : Shape).numel)
    (hred : (⟨4, ![4, 72, 240, 320]⟩ : Shape).ReducesTo [3] ⟨3, ![4, 72, 240]⟩)
    (hb : (⟨0, ![]⟩ : Shape).BroadcastsInDim ⟨3, ![4, 72, 240]⟩ ![])
    (b : Fin 4) (h : Fin 72) (w : Fin 240) :
    Host.divf (Host.reduceAdd (mulf a0 S) (constant (F := Ideal) ⟨0, ![]⟩ .f32 0x00000000#32) hred hu)
        (broadcastInDim ⟨3, ![4, 72, 240]⟩ ![] hb (constant (F := Ideal) ⟨0, ![]⟩ .f32 0x43A00000#32)) (ix3 b h w)
      = Ideal.div (∑ c : Fin 320, a0 (ix4 b h w c) * S (ix4 b h w c)) (Ideal.ofBits .f32 0x43A00000#32) := by
  have hR : (⟨4, ![4, 72, 240, 320]⟩ : Shape).Reduces [3] ⟨3, ![4, 72, 240]⟩ := by decide
  show Ideal.div (Ideal.hostReduceAdd hred (mulf a0 S) (Ideal.ofBits .f32 0x00000000#32) (ix3 b h w))
    (Ideal.ofBits .f32 0x43A00000#32) = _
  rw [Ideal.hostReduceAdd_single hred hR, Ideal.ofBits_zero_f32, zero_add]
  show Ideal.div (∑ c : Fin 320, _) _ = _
  refine congrArg (fun s => Ideal.div s _) (Finset.sum_congr rfl fun c _ => ?_)
  have hl : hR.lift (ix3 b h w) c = ix4 b h w c := by
    funext a
    apply Fin.ext
    match a with
    | ⟨0, _⟩ => rfl
    | ⟨1, _⟩ => rfl
    | ⟨2, _⟩ => rfl
    | ⟨3, _⟩ => rfl
  rw [hl, mulf_apply]

/-- Plane `d ≥ 1` as the reference computes it, at (b, h, w). -/
theorem ref_plane_apply (d e : Nat) (hde : d + e = 240)
    (a0 a1 : FVec Ideal ⟨4, ![4, 72, 240, 320]⟩ .f32)
    (hs : (⟨4, ![4, 72, 240, 320]⟩ : Shape).Slices ![0, 0, 0, 0] ⟨4, ![4, 72, e, 320]⟩)
    (hp : (⟨4, ![4, 72, e, 320]⟩ : Shape).Pads ![0, 0, d, 0] ![0, 0, 0, 0] ![0, 0, 0, 0] ⟨4, ![4, 72, 240, 320]⟩)
    (hu : 0 < (⟨0, ![]⟩ : Shape).numel)
    (hred : (⟨4, ![4, 72, 240, 320]⟩ : Shape).ReducesTo [3] ⟨3, ![4, 72, 240]⟩)
    (hb : (⟨0, ![]⟩ : Shape).BroadcastsInDim ⟨3, ![4, 72, 240]⟩ ![])
    (b : Fin 4) (h : Fin 72) (w : Fin 240) :
    Host.divf (Host.reduceAdd (mulf a0 (pad (⟨4, ![4, 72, 240, 320]⟩ : Shape) ![0, 0, d, 0] ![0, 0, 0, 0] ![0, 0, 0, 0]
          (extractStridedSlice ⟨4, ![4, 72, e, 320]⟩ ![0, 0, 0, 0] a1 hs)
          (sitofp (F := Ideal) .f32 (constantI ⟨0, ![]⟩ 32 0#32)) hp hu))
          (constant (F := Ideal) ⟨0, ![]⟩ .f32 0x00000000#32) hred hu)
        (broadcastInDim ⟨3, ![4, 72, 240]⟩ ![] hb (constant (F := Ideal) ⟨0, ![]⟩ .f32 0x43A00000#32)) (ix3 b h w)
      = costAt a0 a1 b h w d := by
  rw [host_mean_apply]
  unfold costAt
  refine congrArg (fun s => Ideal.div s _) (Finset.sum_congr rfl fun c _ => ?_)
  rw [pad_slice_apply d e hde]

/-- Plane `0`: nothing is moved. -/
theorem ref_plane_zero_apply (a0 a1 : FVec Ideal ⟨4, ![4, 72, 240, 320]⟩ .f32)
    (hu : 0 < (⟨0, ![]⟩ : Shape).numel)
    (hred : (⟨4, ![4, 72, 240, 320]⟩ : Shape).ReducesTo [3] ⟨3, ![4, 72, 240]⟩)
    (hb : (⟨0, ![]⟩ : Shape).BroadcastsInDim ⟨3, ![4, 72, 240]⟩ ![])
    (b : Fin 4) (h : Fin 72) (w : Fin 240) :
    Host.divf (Host.reduceAdd (mulf a0 a1) (constant (F := Ideal) ⟨0, ![]⟩ .f32 0x00000000#32) hred hu)
        (broadcastInDim ⟨3, ![4, 72, 240]⟩ ![] hb (constant (F := Ideal) ⟨0, ![]⟩ .f32 0x43A00000#32)) (ix3 b h w)
      = costAt a0 a1 b h w 0 := by
  rw [host_mean_apply]
  unfold costAt shifted4
  refine congrArg (fun s => Ideal.div s _) (Finset.sum_congr rfl fun c _ => ?_)
  rw [dif_pos (Nat.zero_le _)]
  rfl

end Cert.CostVolume

end
-- ==== Proof.BlockRows.lean ====
/-
  A plane of a block is the cost volume of the whole arrays on the block's rows.

  A block holds eight consecutive rows `8 g + r` of one batch entry `b`, every column and every channel.  Moving the
  right features along the columns stays inside the block, so entry (r, w) of the block's plane `d` is entry
  (b, 8 g + r, w, d) of the cost volume of the whole arrays.
-/
import proofs.«116120_j41858751267257_2_alg».proof.Proof.Planes
import proofs.«116120_j41858751267257_2_alg».proof.Proof.Volume

noncomputable section

namespace Cert.CostVolume

open Idealize.ShloMosaic Idealize.ShloMosaic.ValueIdx

/-- If row `r` of the blocks `L3`, `R3` is row `h` of batch entry `b` of the arrays `L`, `R`, the block's plane at
    (r, w) is the arrays' cost volume at (b, h, w, d). -/
theorem planeAt_eq_costAt {n0 : Nat} (L3 R3 : (⟨3, ![n0, 240, 320]⟩ : Shape).Idx → EReal)
    (L R : (⟨4, ![4, 72, 240, 320]⟩ : Shape).Idx → EReal) (r : Fin n0) (b : Fin 4) (h : Fin 72)
    (hL : ∀ (w : Fin 240) (c : Fin 320), L3 (ix3 r w c) = L (ix4 b h w c))
    (hR : ∀ (w : Fin 240) (c : Fin 320), R3 (ix3 r w c) = R (ix4 b h w c)) (w : Fin 240) (d : Nat) :
    planeAt L3 R3 r w d = costAt L R b h w d := by
  unfold planeAt costAt
  refine congrArg (fun s => Ideal.div s _) (Finset.sum_congr rfl fun c _ => ?_)
  rw [hL]
  congr 1
  unfold shifted3 shifted4
  by_cases hd : d ≤ w.val
  · rw [dif_pos hd, dif_pos hd, hR]
  · rw [dif_neg hd, dif_neg hd]

end Cert.CostVolume

end
-- ==== Proof.Blocks.lean ====
/-
  From the blocks the grid points write back to the whole output array.

  Grid point (b, g) stages rows `8 g … 8 g + 7` of batch entry `b` of both feature arrays, every column and channel,
  and writes back the same rows of the output, every column and disparity.  What it writes is the cost volume of
  the whole arrays on those rows (the move along the columns stays inside a block), the thirty-six blocks fill the
  output, and so the output array after the run is the cost volume.
-/
import proofs.«116120_j41858751267257_2_alg».proof.Proof.KernelIdealFrame
import Idealize.ShloMosaic.Lib.Pipeline.Value
import proofs.«116120_j41858751267257_2_alg».proof.Proof.Payload
import proofs.«116120_j41858751267257_2_alg».proof.Proof.BlockRows

noncomputable section

namespace Cert.CostVolume.KernelValue

open Cert.KernelIdeal Cert.KernelIdeal.Gen Idealize.ShloMosaic Idealize.ShloMosaic.TcCoe Idealize.SL.Sem
open Idealize.ShloMosaic.ValueIdx Cert.CostVolume
open Idealize.ShloMosaic.Pipeline (Dat)

variable (m : (ℓ : Loc nD τ sig) → Buf (Elt Ideal) ℓ) (ρ : Dev nD → PrngReg)

theorem offsets_zero : (![0, 0, 0, 0] : Fin 4 → Nat) = fun _ => 0 := funext fun a => by fin_cases a <;> rfl

/-- What the body leaves in the output block, from the two input blocks as variables: at (u, r, w, d), plane `d` of
    the blocks at (r, w). -/
theorem out_apply (x0 x1 : Vec Ideal S1x8x240x320 .f32) (u : Fin 1) (r : Fin 8) (w : Fin 240) (d : Fin 48) :
    out0_2 x0 x1 (ix4 u r w d) = planeAt (k0_pay2 x0) (k0_pay3 x1) r w d.val := by
  unfold out0_2
  rw [View.canon_unit_zero offsets_zero]
  simp only [View.ld_unit_zero (S := S1x8x240x320) offsets_zero]
  exact stored_apply x0 x1 u r w d

/-- The printed index maps over the grid: the three windows move together along batch and row group and sit at
    block zero along the other two axes. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = win0_2.index t (0 : Fin 4) ∧ win0_1.index t (1 : Fin 4) = win0_2.index t (1 : Fin 4)
    ∧ win0_1.index t (2 : Fin 4) = 0 ∧ win0_1.index t (3 : Fin 4) = 0
    ∧ win0_2.index t (2 : Fin 4) = 0 ∧ win0_2.index t (3 : Fin 4) = 0
    ∧ win0_2.index t (0 : Fin 4) ≤ 3 ∧ win0_2.index t (1 : Fin 4) ≤ 8 :=
  (by decide +kernel : ∀ t : Fin grid0.N, _)

/-- Every (batch entry, row group) is some grid point's. -/
theorem idx_onto : ∀ (q0 : Fin 4) (q1 : Fin 9), ∃ t : Fin cfg0.N, win0_2.index t = ![q0.val, q1.val, 0, 0] :=
  (by decide +kernel : ∀ (q0 : Fin 4) (q1 : Fin 9), ∃ t : Fin grid0.N, win0_2.index t = ![q0.val, q1.val, 0, 0])

/-- What grid point `t` writes back is block `t` of the cost volume of the argument arrays. -/
theorem flushed_eq (c : Dev nD) (t : Fin cfg0.N) :
    (dats m 0 c).flushed 2 t
      = ((cfg0.win 2).blk t).view.read (Elt Ideal) (cost (V m c main_arg0) (V m c main_arg1)) := by
  show (cfg0.win 2).cut (grid0.coords t) ((dats m 0 c).after 2 t) = _
  rw [after0_2]
  obtain ⟨e0, e1, e2, e3, f0, f1, f2, f3, g2, g3, b0, b1⟩ := idx_facts t
  funext y
  have hy0 : (y 0).val < 1 := (y 0).isLt
  have hy1 : (y 1).val < 8 := (y 1).isLt
  have hy2 : (y 2).val < 240 := (y 2).isLt
  have hy3 : (y 3).val < 48 := (y 3).isLt
  have hyx : y = ix4 (⟨(y 0).val, hy0⟩ : Fin 1) (⟨(y 1).val, hy1⟩ : Fin 8) (⟨(y 2).val, hy2⟩ : Fin 240) (⟨(y 3).val, hy3⟩ : Fin 48) :=
    eq_ix4 y
  have hrow : win0_2.index t (1 : Fin 4) * 8 + (y 1).val < 72 := by omega
  have hbat : win0_2.index t (0 : Fin 4) < 4 := by omega
  show out0_2 (iblk m c 0 t) (iblk m c 1 t) y
    = cost (V m c main_arg0) (V m c main_arg1) (((cfg0.win 2).blk t).view.emb y)
  rw [hyx, out_apply]
  -- the array index under the block index
  have hemb : ((cfg0.win 2).blk t).view.emb (ix4 (⟨(y 0).val, hy0⟩ : Fin 1) (⟨(y 1).val, hy1⟩ : Fin 8) (⟨(y 2).val, hy2⟩ : Fin 240) (⟨(y 3).val, hy3⟩ : Fin 48))
      = ix4 (⟨win0_2.index t (0 : Fin 4), hbat⟩ : Fin 4) (⟨win0_2.index t (1 : Fin 4) * 8 + (y 1).val, hrow⟩ : Fin 72)
          (⟨(y 2).val, hy2⟩ : Fin 240) (⟨(y 3).val, hy3⟩ : Fin 48) := by
    funext a
    apply Fin.ext
    match a with
    | ⟨0, _⟩ => show win0_2.index t (0 : Fin 4) * 1 + 1 * (y 0).val = win0_2.index t (0 : Fin 4); omega
    | ⟨1, _⟩ => show win0_2.index t (1 : Fin 4) * 8 + 1 * (y 1).val = win0_2.index t (1 : Fin 4) * 8 + (y 1).val; omega
    | ⟨2, _⟩ => show win0_2.index t (2 : Fin 4) * 240 + 1 * (y 2).val = (y 2).val; omega
    | ⟨3, _⟩ => show win0_2.index t (3 : Fin 4) * 48 + 1 * (y 3).val = (y 3).val; omega
  rw [hemb]
  show _ = costAt (V m c main_arg0) (V m c main_arg1) _ _ _ _
  refine planeAt_eq_costAt _ _ _ _ _ _ _ ?_ ?_ _ _
  · -- the left block's row is the array's row
    intro w' c'
    unfold k0_pay2
    refine (shapeCast_1abc_abc_apply _ shapeCasts_S1x8x240x320_S8x240x320 _ w' c').trans ?_
    show V m c main_arg0 (((cfg0.win 0).blk t).view.emb (ix4 (0 : Fin 1) (⟨(y 1).val, hy1⟩ : Fin 8) w' c')) = _
    congr 1
    funext a
    apply Fin.ext
    match a with
    | ⟨0, _⟩ => show win0_0.index t (0 : Fin 4) * 1 + 1 * 0 = win0_2.index t (0 : Fin 4); omega
    | ⟨1, _⟩ => show win0_0.index t (1 : Fin 4) * 8 + 1 * (y 1).val = win0_2.index t (1 : Fin 4) * 8 + (y 1).val; omega
    | ⟨2, _⟩ => show win0_0.index t (2 : Fin 4) * 240 + 1 * w'.val = w'.val; omega
    | ⟨3, _⟩ => show win0_0.index t (3 : Fin 4) * 320 + 1 * c'.val = c'.val; omega
  · intro w' c'
    unfold k0_pay3
    refine (shapeCast_1abc_abc_apply _ shapeCasts_S1x8x240x320_S8x240x320 _ w' c').trans ?_
    show V m c main_arg1 (((cfg0.win 1).blk t).view.emb (ix4 (0 : Fin 1) (⟨(y 1).val, hy1⟩ : Fin 8) w' c')) = _
    congr 1
    funext a
    apply Fin.ext
    match a with
    | ⟨0, _⟩ => show win0_1.index t (0 : Fin 4) * 1 + 1 * 0 = win0_2.index t (0 : Fin 4); omega
    | ⟨1, _⟩ => show win0_1.index t (1 : Fin 4) * 8 + 1 * (y 1).val = win0_2.index t (1 : Fin 4) * 8 + (y 1).val; omega
    | ⟨2, _⟩ => show win0_1.index t (2 : Fin 4) * 240 + 1 * w'.val = w'.val; omega
    | ⟨3, _⟩ => show win0_1.index t (3 : Fin 4) * 320 + 1 * c'.val = c'.val; omega

/-- An index of the output array is in point `t`'s block iff each coordinate is in the block's range on its axis. -/
theorem mem_blk (t : Fin cfg0.N) (i : S4x72x240x48.Idx) :
    i ∈ ((cfg0.win 2).blk t).view.set ↔ ∀ a : Fin 4, win0_2.index t a * S1x8x240x48.size a ≤ (i a).val
      ∧ (i a).val < win0_2.index t a * S1x8x240x48.size a + S1x8x240x48.size a := by
  show i ∈ ((View.whole main_v0).slice (win0_2.rect t)).set ↔ _
  rw [View.set_slice_whole, Rect.mem_set_unit]
  exact Iff.rfl

/-- Every index of the output array is in the block of some grid point that writes back. -/
theorem cover (i : S4x72x240x48.Idx) :
    ∃ t : Fin cfg0.N, (cfg0.win 2).flush t = true ∧ i ∈ ((cfg0.win 2).blk t).view.set := by
  have hi0 : (i 0).val < 4 := (i 0).isLt
  have hi1 : (i 1).val < 72 := (i 1).isLt
  have hi2 : (i 2).val < 240 := (i 2).isLt
  have hi3 : (i 3).val < 48 := (i 3).isLt
  obtain ⟨t, ht⟩ := idx_onto ⟨(i 0).val, hi0⟩ ⟨(i 1).val / 8, by omega⟩
  have q0 : win0_2.index t (0 : Fin 4) = (i 0).val := congrFun ht 0
  have q1 : win0_2.index t (1 : Fin 4) = (i 1).val / 8 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 8 ≤ (i 1).val ∧ (i 1).val < win0_2.index t (1 : Fin 4) * 8 + 8; omega
  | ⟨2, _⟩ => show win0_2.index t (2 : Fin 4) * 240 ≤ (i 2).val ∧ (i 2).val < win0_2.index t (2 : Fin 4) * 240 + 240; omega
  | ⟨3, _⟩ => show win0_2.index t (3 : Fin 4) * 48 ≤ (i 3).val ∧ (i 3).val < win0_2.index t (3 : Fin 4) * 48 + 48; omega

/-- The output array after the run is the cost volume of the argument arrays. -/
theorem final (c : Dev nD) :
    (dats m 0 c).arrAt 2 cfg0.N = cost (m ((c : Thread nD τ).loc main_arg0)) (m ((c : Thread nD τ).loc main_arg1)) :=
  (dats m 0 c).arrAt_eq_of_cover 2 (cost (V m c main_arg0) (V m c main_arg1)) (fun t _ => flushed_eq m c t) cover

/-- The kernel's run: the result is the cost volume of the arguments, the arguments are unchanged.  The frame run
    leaves every staged array at what the blocks written back make of it: the output at `final`, an input as launched. -/
theorem run : θ_run defs (onTc (τ := τ) (main (F := Ideal))) ⟨m, fun _ => 0, ρ⟩ fun r => ∀ c : Dev nD,
      r.2.mem ((c : Thread nD τ).loc main_v0)
        = cost (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.CostVolume.KernelValue

end
-- ==== Proof.RefStack.lean ====
/-
  The reference's forty-eight planes, laid side by side sixteen at a time and then the three groups of sixteen:
  entry (b, h, w, d) of the result is entry (b, h, w) of plane number `d`.
-/
import proofs.«116120_j41858751267257_2_alg».proof.Proof.Stack

noncomputable section

namespace Cert.CostVolume

open Idealize.ShloMosaic Idealize.ShloMosaic.ValueIdx

variable {α : Type}

/-- Below sixteen the first group is read, -/
theorem groups_apply_first (g0 g1 g2 : (⟨4, ![4, 72, 240, 16]⟩ : Shape).Idx → α)
    (h : Shape.Concatenates [⟨4, ![4, 72, 240, 16]⟩, ⟨4, ![4, 72, 240, 16]⟩, ⟨4, ![4, 72, 240, 16]⟩] ⟨4, ![4, 72, 240, 48]⟩ 3)
    (b : Fin 4) (hh : Fin 72) (w : Fin 240) (d : Fin 48) (hd : d.val < 16) :
    concatenate (⟨4, ![4, 72, 240, 48]⟩ : Shape) 3
        [⟨⟨4, ![4, 72, 240, 16]⟩, g0⟩, ⟨⟨4, ![4, 72, 240, 16]⟩, g1⟩, ⟨⟨4, ![4, 72, 240, 16]⟩, g2⟩] h (ix4 b hh w d)
      = g0 (ix4 b hh w ⟨d.val, hd⟩) :=
  groups_apply g0 g1 g2 h b hh w d (0 : Fin 3) ⟨d.val, hd⟩ (by simp)

/-- from sixteen to thirty-one the second, -/
theorem groups_apply_second (g0 g1 g2 : (⟨4, ![4, 72, 240, 16]⟩ : Shape).Idx → α)
    (h : Shape.Concatenates [⟨4, ![4, 72, 240, 16]⟩, ⟨4, ![4, 72, 240, 16]⟩, ⟨4, ![4, 72, 240, 16]⟩] ⟨4, ![4, 72, 240, 48]⟩ 3)
    (b : Fin 4) (hh : Fin 72) (w : Fin 240) (d : Fin 48) (hd : 16 ≤ d.val) (hd' : d.val < 32) :
    concatenate (⟨4, ![4, 72, 240, 48]⟩ : Shape) 3
        [⟨⟨4, ![4, 72, 240, 16]⟩, g0⟩, ⟨⟨4, ![4, 72, 240, 16]⟩, g1⟩, ⟨⟨4, ![4, 72, 240, 16]⟩, g2⟩] h (ix4 b hh w d)
      = g1 (ix4 b hh w ⟨d.val - 16, by omega⟩) :=
  groups_apply g0 g1 g2 h b hh w d (1 : Fin 3) ⟨d.val - 16, by omega⟩ (by simp; omega)

/-- and from thirty-two on the third. -/
theorem groups_apply_third (g0 g1 g2 : (⟨4, ![4, 72, 240, 16]⟩ : Shape).Idx → α)
    (h : Shape.Concatenates [⟨4, ![4, 72, 240, 16]⟩, ⟨4, ![4, 72, 240, 16]⟩, ⟨4, ![4, 72, 240, 16]⟩] ⟨4, ![4, 72, 240, 48]⟩ 3)
    (b : Fin 4) (hh : Fin 72) (w : Fin 240) (d : Fin 48) (hd : 32 ≤ d.val) :
    concatenate (⟨4, ![4, 72, 240, 48]⟩ : Shape) 3
        [⟨⟨4, ![4, 72, 240, 16]⟩, g0⟩, ⟨⟨4, ![4, 72, 240, 16]⟩, g1⟩, ⟨⟨4, ![4, 72, 240, 16]⟩, g2⟩] h (ix4 b hh w d)
      = g2 (ix4 b hh w ⟨d.val - 32, by have := d.isLt; omega⟩) :=
  groups_apply g0 g1 g2 h b hh w d (2 : Fin 3) ⟨d.val - 32, by have := d.isLt; omega⟩ (by simp; omega)

/-- The forty-eight planes, named one by one, at (b, h, w, d): plane `d` at (b, h, w). -/
theorem ref_stack48_apply
    (p0 p1 p2 p3 p4 p5 p6 p7 p8 p9 p10 p11 p12 p13 p14 p15 p16 p17 p18 p19 p20 p21 p22 p23 p24 p25 p26 p27 p28 p29 p30 p31
      p32 p33 p34 p35 p36 p37 p38 p39 p40 p41 p42 p43 p44 p45 p46 p47 : (⟨3, ![4, 72, 240]⟩ : Shape).Idx → α)
    (hb : (⟨3, ![4, 72, 240]⟩ : Shape).BroadcastsInDim ⟨4, ![4, 72, 240, 1]⟩ ![0, 1, 2])
    (h16 : Shape.Concatenates (List.replicate 16 (⟨4, ![4, 72, 240, 1]⟩ : Shape)) ⟨4, ![4, 72, 240, 16]⟩ 3)
    (h3 : Shape.Concatenates [⟨4, ![4, 72, 240, 16]⟩, ⟨4, ![4, 72, 240, 16]⟩, ⟨4, ![4, 72, 240, 16]⟩] ⟨4, ![4, 72, 240, 48]⟩ 3)
    (b : Fin 4) (hh : Fin 72) (w : Fin 240) (d : Fin 48) :
    concatenate (⟨4, ![4, 72, 240, 48]⟩ : Shape) 3
        [⟨⟨4, ![4, 72, 240, 16]⟩, concatenate (⟨4, ![4, 72, 240, 16]⟩ : Shape) 3
            [⟨⟨4, ![4, 72, 240, 1]⟩, broadcastInDim ⟨4, ![4, 72, 240, 1]⟩ ![0, 1, 2] hb p0⟩, ⟨⟨4, ![4, 72, 240, 1]⟩, broadcastInDim ⟨4, ![4, 72, 240, 1]⟩ ![0, 1, 2] hb p1⟩,
             ⟨⟨4, ![4, 72, 240, 1]⟩, broadcastInDim ⟨4, ![4, 72, 240, 1]⟩ ![0, 1, 2] hb p2⟩, ⟨⟨4, ![4, 72, 240, 1]⟩, broadcastInDim ⟨4, ![4, 72, 240, 1]⟩ ![0, 1, 2] hb p3⟩,
             ⟨⟨4, ![4, 72, 240, 1]⟩, broadcastInDim ⟨4, ![4, 72, 240, 1]⟩ ![0, 1, 2] hb p4⟩, ⟨⟨4, ![4, 72, 240, 1]⟩, broadcastInDim ⟨4, ![4, 72, 240, 1]⟩ ![0, 1, 2] hb p5⟩,
             ⟨⟨4, ![4, 72, 240, 1]⟩, broadcastInDim ⟨4, ![4, 72, 240, 1]⟩ ![0, 1, 2] hb p6⟩, ⟨⟨4, ![4, 72, 240, 1]⟩, broadcastInDim ⟨4, ![4, 72, 240, 1]⟩ ![0, 1, 2] hb p7⟩,
             ⟨⟨4, ![4, 72, 240, 1]⟩, broadcastInDim ⟨4, ![4, 72, 240, 1]⟩ ![0, 1, 2] hb p8⟩, ⟨⟨4, ![4, 72, 240, 1]⟩, broadcastInDim ⟨4, ![4, 72, 240, 1]⟩ ![0, 1, 2] hb p9⟩,
             ⟨⟨4, ![4, 72, 240, 1]⟩, broadcastInDim ⟨4, ![4, 72, 240, 1]⟩ ![0, 1, 2] hb p10⟩, ⟨⟨4, ![4, 72, 240, 1]⟩, broadcastInDim ⟨4, ![4, 72, 240, 1]⟩ ![0, 1, 2] hb p11⟩,
             ⟨⟨4, ![4, 72, 240, 1]⟩, broadcastInDim ⟨4, ![4, 72, 240, 1]⟩ ![0, 1, 2] hb p12⟩, ⟨⟨4, ![4, 72, 240, 1]⟩, broadcastInDim ⟨4, ![4, 72, 240, 1]⟩ ![0, 1, 2] hb p13⟩,
             ⟨⟨4, ![4, 72, 240, 1]⟩, broadcastInDim ⟨4, ![4, 72, 240, 1]⟩ ![0, 1, 2] hb p14⟩, ⟨⟨4, ![4, 72, 240, 1]⟩, broadcastInDim ⟨4, ![4, 72, 240, 1]⟩ ![0, 1, 2] hb p15⟩] h16⟩,
         ⟨⟨4, ![4, 72, 240, 16]⟩, concatenate (⟨4, ![4, 72, 240, 16]⟩ : Shape) 3
            [⟨⟨4, ![4, 72, 240, 1]⟩, broadcastInDim ⟨4, ![4, 72, 240, 1]⟩ ![0, 1, 2] hb p16⟩, ⟨⟨4, ![4, 72, 240, 1]⟩, broadcastInDim ⟨4, ![4, 72, 240, 1]⟩ ![0, 1, 2] hb p17⟩,
             ⟨⟨4, ![4, 72, 240, 1]⟩, broadcastInDim ⟨4, ![4, 72, 240, 1]⟩ ![0, 1, 2] hb p18⟩, ⟨⟨4, ![4, 72, 240, 1]⟩, broadcastInDim ⟨4, ![4, 72, 240, 1]⟩ ![0, 1, 2] hb p19⟩,
             ⟨⟨4, ![4, 72, 240, 1]⟩, broadcastInDim ⟨4, ![4, 72, 240, 1]⟩ ![0, 1, 2] hb p20⟩, ⟨⟨4, ![4, 72, 240, 1]⟩, broadcastInDim ⟨4, ![4, 72, 240, 1]⟩ ![0, 1, 2] hb p21⟩,
             ⟨⟨4, ![4, 72, 240, 1]⟩, broadcastInDim ⟨4, ![4, 72, 240, 1]⟩ ![0, 1, 2] hb p22⟩, ⟨⟨4, ![4, 72, 240, 1]⟩, broadcastInDim ⟨4, ![4, 72, 240, 1]⟩ ![0, 1, 2] hb p23⟩,
             ⟨⟨4, ![4, 72, 240, 1]⟩, broadcastInDim ⟨4, ![4, 72, 240, 1]⟩ ![0, 1, 2] hb p24⟩, ⟨⟨4, ![4, 72, 240, 1]⟩, broadcastInDim ⟨4, ![4, 72, 240, 1]⟩ ![0, 1, 2] hb p25⟩,
             ⟨⟨4, ![4, 72, 240, 1]⟩, broadcastInDim ⟨4, ![4, 72, 240, 1]⟩ ![0, 1, 2] hb p26⟩, ⟨⟨4, ![4, 72, 240, 1]⟩, broadcastInDim ⟨4, ![4, 72, 240, 1]⟩ ![0, 1, 2] hb p27⟩,
             ⟨⟨4, ![4, 72, 240, 1]⟩, broadcastInDim ⟨4, ![4, 72, 240, 1]⟩ ![0, 1, 2] hb p28⟩, ⟨⟨4, ![4, 72, 240, 1]⟩, broadcastInDim ⟨4, ![4, 72, 240, 1]⟩ ![0, 1, 2] hb p29⟩,
             ⟨⟨4, ![4, 72, 240, 1]⟩, broadcastInDim ⟨4, ![4, 72, 240, 1]⟩ ![0, 1, 2] hb p30⟩, ⟨⟨4, ![4, 72, 240, 1]⟩, broadcastInDim ⟨4, ![4, 72, 240, 1]⟩ ![0, 1, 2] hb p31⟩] h16⟩,
         ⟨⟨4, ![4, 72, 240, 16]⟩, concatenate (⟨4, ![4, 72, 240, 16]⟩ : Shape) 3
            [⟨⟨4, ![4, 72, 240, 1]⟩, broadcastInDim ⟨4, ![4, 72, 240, 1]⟩ ![0, 1, 2] hb p32⟩, ⟨⟨4, ![4, 72, 240, 1]⟩, broadcastInDim ⟨4, ![4, 72, 240, 1]⟩ ![0, 1, 2] hb p33⟩,
             ⟨⟨4, ![4, 72, 240, 1]⟩, broadcastInDim ⟨4, ![4, 72, 240, 1]⟩ ![0, 1, 2] hb p34⟩, ⟨⟨4, ![4, 72, 240, 1]⟩, broadcastInDim ⟨4, ![4, 72, 240, 1]⟩ ![0, 1, 2] hb p35⟩,
             ⟨⟨4, ![4, 72, 240, 1]⟩, broadcastInDim ⟨4, ![4, 72, 240, 1]⟩ ![0, 1, 2] hb p36⟩, ⟨⟨4, ![4, 72, 240, 1]⟩, broadcastInDim ⟨4, ![4, 72, 240, 1]⟩ ![0, 1, 2] hb p37⟩,
             ⟨⟨4, ![4, 72, 240, 1]⟩, broadcastInDim ⟨4, ![4, 72, 240, 1]⟩ ![0, 1, 2] hb p38⟩, ⟨⟨4, ![4, 72, 240, 1]⟩, broadcastInDim ⟨4, ![4, 72, 240, 1]⟩ ![0, 1, 2] hb p39⟩,
             ⟨⟨4, ![4, 72, 240, 1]⟩, broadcastInDim ⟨4, ![4, 72, 240, 1]⟩ ![0, 1, 2] hb p40⟩, ⟨⟨4, ![4, 72, 240, 1]⟩, broadcastInDim ⟨4, ![4, 72, 240, 1]⟩ ![0, 1, 2] hb p41⟩,
             ⟨⟨4, ![4, 72, 240, 1]⟩, broadcastInDim ⟨4, ![4, 72, 240, 1]⟩ ![0, 1, 2] hb p42⟩, ⟨⟨4, ![4, 72, 240, 1]⟩, broadcastInDim ⟨4, ![4, 72, 240, 1]⟩ ![0, 1, 2] hb p43⟩,
             ⟨⟨4, ![4, 72, 240, 1]⟩, broadcastInDim ⟨4, ![4, 72, 240, 1]⟩ ![0, 1, 2] hb p44⟩, ⟨⟨4, ![4, 72, 240, 1]⟩, broadcastInDim ⟨4, ![4, 72, 240, 1]⟩ ![0, 1, 2] hb p45⟩,
             ⟨⟨4, ![4, 72, 240, 1]⟩, broadcastInDim ⟨4, ![4, 72, 240, 1]⟩ ![0, 1, 2] hb p46⟩, ⟨⟨4, ![4, 72, 240, 1]⟩, broadcastInDim ⟨4, ![4, 72, 240, 1]⟩ ![0, 1, 2] hb p47⟩] h16⟩] h3 (ix4 b hh w d)
      = (p0 :: p1 :: p2 :: p3 :: p4 :: p5 :: p6 :: p7 :: p8 :: p9 :: p10 :: p11 :: p12 :: p13 :: p14 :: p15 :: p16 :: p17 :: p18 ::
          p19 :: p20 :: p21 :: p22 :: p23 :: p24 :: p25 :: p26 :: p27 :: p28 :: p29 :: p30 :: p31 :: p32 :: p33 :: p34 :: p35 :: p36 ::
          p37 :: p38 :: p39 :: p40 :: p41 :: p42 :: p43 :: p44 :: p45 :: p46 :: p47 :: [])[d.val] (ix3 b hh w) := by
  obtain ⟨n, hn⟩ := d
  by_cases h1 : n < 16
  · refine (groups_apply_first _ _ _ h3 b hh w ⟨n, hn⟩ h1).trans ?_
    refine (group16_apply p0 p1 p2 p3 p4 p5 p6 p7 p8 p9 p10 p11 p12 p13 p14 p15 hb h16 b hh w ⟨n, h1⟩).trans ?_
    interval_cases n <;> rfl
  · by_cases h2 : n < 32
    · refine (groups_apply_second _ _ _ h3 b hh w ⟨n, hn⟩ (by simpa using h1) h2).trans ?_
      refine (group16_apply p16 p17 p18 p19 p20 p21 p22 p23 p24 p25 p26 p27 p28 p29 p30 p31 hb h16 b hh w ⟨n - 16, by omega⟩).trans ?_
      interval_cases n <;> rfl
    · refine (groups_apply_third _ _ _ h3 b hh w ⟨n, hn⟩ (by simpa using h2)).trans ?_
      refine (group16_apply p32 p33 p34 p35 p36 p37 p38 p39 p40 p41 p42 p43 p44 p45 p46 p47 hb h16 b hh w ⟨n - 32, by omega⟩).trans ?_
      interval_cases n <;> rfl

end Cert.CostVolume

end
-- ==== Proof.RefValue.lean ====
/-
  The reference's result is the cost volume of its arguments.

  The reference computes each disparity plane over the whole arrays — `right` without its last `d` columns, `d` zero
  columns padded in front, times `left`, summed over the channels from the initial value zero and divided by 320 —
  and lays the forty-eight planes side by side along a new last axis.  Read at (b, h, w, d) this is the mean over the
  channels of `left (b, h, w, c)` times `right (b, h, w - d, c)` (zero when `w < d`): the cost volume.
-/
import proofs.«116120_j41858751267257_2_alg».proof.Proof.ReferenceRun
import proofs.«116120_j41858751267257_2_alg».proof.Proof.Volume
import proofs.«116120_j41858751267257_2_alg».proof.Proof.RefStack

noncomputable section

namespace Cert.CostVolume.RefValue

open Cert.ReferenceIdeal Cert.ReferenceIdeal.Gen Cert.ReferenceIdeal.Value
open Idealize.ShloMosaic Idealize.ShloMosaic.TcCoe Idealize.SL.Sem Idealize.ShloMosaic.ValueIdx Cert.CostVolume

/-- The run's result term is the cost volume of the two argument arrays, index by index. -/
theorem result_eq (m : (ℓ : Loc nD τ sig) → Buf (Elt Ideal) ℓ) (c : Dev nD) :
    res_main_v337 (F := Ideal) m c
      = cost (m ((c.tc : Thread nD τ).loc main_arg0)) (m ((c.tc : Thread nD τ).loc main_arg1)) := by
  funext i
  obtain ⟨b, hh, w, d, rfl⟩ : ∃ (b : Fin 4) (hh : Fin 72) (w : Fin 240) (d : Fin 48), i = ix4 b hh w d :=
    ⟨i 0, i 1, i 2, i 3, eq_ix4 i⟩
  unfold res_main_v337
  -- the planes side by side: plane number `d`
  refine (ref_stack48_apply _ _ _ _ _ _ _ _ _ _ _ _ _ _ _ _ _ _ _ _ _ _ _ _ _ _ _ _ _ _ _ _ _ _ _ _ _ _ _ _ _ _ _ _ _ _ _ _
    bcast_S4x72x240_S4x72x240x1_0_1_2 _ _ b hh w d).trans ?_
  show _ = costAt _ _ b hh w d.val
  -- each plane, by its number
  fin_cases d
  · exact ref_plane_zero_apply _ _ _ _ _ b hh w
  all_goals exact ref_plane_apply _ _ (by rfl) _ _ _ _ _ _ _ b hh w

end Cert.CostVolume.RefValue

end
-- ==== Proof.lean ====
/-
  The cost volume of a stereo pair: the kernel against its reference, over the extended reals.

  Both programs compute, for each disparity `d < 48`, the mean over the 320 channels of the left features times the
  right features moved `d` columns to the right (zero in the vacated columns).  The kernel does it block by block —
  eight rows of one batch entry at a time, the move made by laying zero columns in front of a slice — and stacks
  the planes along a new last axis; the reference does it on the whole arrays, the move made by a slice and a pad,
  and concatenates the planes.  Index by index both are the one function `Cert.CostVolume.cost` of the two arrays
  (Proof/Volume.lean): no algebraic law is needed, only the two readings, and finiteness of the inputs is not used.

  Proof/Planes.lean, Proof/Stack.lean: one plane and the stack of planes read at an index.  Proof/Payload.lean: the
  value the kernel body stores.  Proof/BlockRows.lean, Proof/Blocks.lean: from a block's plane to the whole output
  array, and the kernel's run.  Proof/Volume.lean, Proof/RefStack.lean, Proof/RefValue.lean: the reference's side.
-/
import proofs.«116120_j41858751267257_2_alg».proof.Defs
import proofs.«116120_j41858751267257_2_alg».proof.Proof.Gen.Kernel
import proofs.«116120_j41858751267257_2_alg».proof.Proof.Gen.Kernel.Skeleton
import proofs.«116120_j41858751267257_2_alg».proof.Proof.Gen.Kernel.Launch
import proofs.«116120_j41858751267257_2_alg».proof.Proof.Gen.Kernel.Points
import proofs.«116120_j41858751267257_2_alg».proof.Proof.KernelFrame
import proofs.«116120_j41858751267257_2_alg».proof.Proof.Gen.KernelIdeal
import proofs.«116120_j41858751267257_2_alg».proof.Proof.Gen.KernelIdeal.Skeleton
import proofs.«116120_j41858751267257_2_alg».proof.Proof.Gen.KernelIdeal.Launch
import proofs.«116120_j41858751267257_2_alg».proof.Proof.Gen.KernelIdeal.Points
import proofs.«116120_j41858751267257_2_alg».proof.Proof.KernelIdealFrame
import proofs.«116120_j41858751267257_2_alg».proof.Proof.Gen.ReferenceIdeal
import proofs.«116120_j41858751267257_2_alg».proof.Proof.Gen.Pre_finite_inputs
import proofs.«116120_j41858751267257_2_alg».proof.Proof.ReferenceRun
import proofs.«116120_j41858751267257_2_alg».proof.Proof.Blocks
import proofs.«116120_j41858751267257_2_alg».proof.Proof.RefValue
import Idealize.ShloMosaic.Adequacy
import Idealize.ShloMosaic.Init

noncomputable section

namespace Cert.Proof

open Idealize.ShloMosaic Idealize.SL.Sem Cert.Kernel

/-- The kernel's frame (at the bit-exact instance) is its generated frame run. -/
theorem frame_kernel : Cert.frame_Kernel := fun m ρ _ => Cert.Kernel.Gen.frame m ρ

/-- The idealized kernel's frame likewise. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the cost volume of those arguments. -/
theorem algebraic : Cert.algebraic_KernelIdeal_ReferenceIdeal := by
  intro m ρ m' ρ' _ hagree
  refine ⟨fun c => Cert.CostVolume.cost (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.CostVolume.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.CostVolume.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
